-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S2x800000 : Shape := ⟨2, ![2, 800000]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_arg11 : IVec S2x800000 32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : IVec S1x800000 32 := (extractStridedSlice S1x800000 ![0, 0] · slices_S2x800000_S1x800000_0_0) main_arg11
  let main_v55 : IVec S800000 32 := shapeCast S800000 main_v54 shapeCasts_S1x800000_S800000
  let main_c_20 : IVec S_ 32 := constantI S_ 32 0#32
  let main_v56 : IVec S800000 32 := broadcastInDim S800000 ![] bcast_S_S800000 main_c_20
  let main_v57 : IVec S800000 1 := cmpi .sge main_v55 main_v56
  let main_v58 : IVec S1x800000 32 := (extractStridedSlice S1x800000 ![0, 0] · slices_S2x800000_S1x800000_0_0) main_arg11
  let main_v59 : IVec S800000 32 := shapeCast S800000 main_v58 shapeCasts_S1x800000_S800000
  let main_c_21 : IVec S_ 32 := constantI S_ 32 50000#32
  let main_v60 : IVec S800000 32 := broadcastInDim S800000 ![] bcast_S_S800000 main_c_21
  let main_v61 : IVec S800000 1 := cmpi .slt main_v59 main_v60
  let main_v62 : IVec S800000 1 := andi main_v57 main_v61
  let main_c_22 : IVec S_ 1 := constantI S_ 1 1#1
  let main_v63 : IVec S_ 1 := (fun x v => Host.reduce IntOp.andi x v reducesTo_S800000_S_d0 h_S_) main_v62 main_c_22
  let main_v64 : IVec S_ 1 := andi main_v53 main_v63
  main_v64

def fn_part2 {F : FTy → Type} [FloatOps F] (main_arg7 : FVec F S64x32 .f32) (main_arg8 : FVec F S32 .f32) (main_arg9 : FVec F S32x1 .f32) (main_arg10 : FVec F S1 .f32) (main_arg11 : IVec S2x800000 32) (main_v33 : IVec S_ 1) : IVec S_ 1 :=
  let main_v34 : FVec F S64x32 .f32 := Host.absf main_arg7
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x1 .f32 := Host.absf main_arg9
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_v48 main_v49 main_v50

def fn_part1 {F : FTy → Type} [FloatOps F] (main_arg4 : FVec F S64 .f32) (main_arg5 : FVec F S64x64 .f32) (main_arg6 : FVec F S64 .f32) (main_arg7 : FVec F S64x32 .f32) (main_arg8 : FVec F S32 .f32) (main_arg9 : FVec F S32x1 .f32) (main_arg10 : FVec F S1 .f32) (main_arg11 : IVec S2x800000 32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x128 .f32) (main_arg1 : FVec F S128x64 .f32) (main_arg2 : FVec F S64 .f32) (main_arg3 : FVec F S64x64 .f32) (main_arg4 : FVec F S64 .f32) (main_arg5 : FVec F S64x64 .f32) (main_arg6 : FVec F S64 .f32) (main_arg7 : FVec F S64x32 .f32) (main_arg8 : FVec F S32 .f32) (main_arg9 : FVec F S32x1 .f32) (main_arg10 : FVec F S1 .f32) (main_arg11 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_v13 main_v16
-- ==== Kernel.lean ====
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S1x1 : Shape := ⟨2, ![1, 1]⟩
abbrev S800000x128 : Shape := ⟨2, ![800000, 128]⟩
abbrev S1x64 : Shape := ⟨2, ![1, 64]⟩
abbrev S50000x64 : Shape := ⟨2, ![50000, 64]⟩
abbrev S5000x64 : Shape := ⟨2, ![5000, 64]⟩
abbrev S800000x64 : Shape := ⟨2, ![800000, 64]⟩
abbrev S1x32 : Shape := ⟨2, ![1, 32]⟩

abbrev nBuf : Space → Nat
  | .hbm => 133
  | .vmem => 38
  | .smem => 0
  | _ => 0

abbrev hbmTy0_0 (i : Nat) : BufTy := match i % 128 with
  | 0 => ⟨S50000x128, .f32⟩
  | 1 => ⟨S128x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S64x32, .f32⟩
  | 8 => ⟨S32, .f32⟩
  | 9 => ⟨S32x1, .f32⟩
  | 10 => ⟨S1, .f32⟩
  | 11 => ⟨S2x800000, .i32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S_, .f32⟩
  | 28 => ⟨S50000, .f32⟩
  | 29 => ⟨S50000, .f32⟩
  | 30 => ⟨S_, .f32⟩
  | 31 => ⟨S50000, .f32⟩
  | 32 => ⟨S50000, .f32⟩
  | 33 => ⟨S50000x1, .f32⟩
  | 34 => ⟨S_, .f32⟩
  | 35 => ⟨S_, .f32⟩
  | 36 => ⟨S50000, .f32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x128, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S1, .i32⟩
  | 52 => ⟨S_, .i32⟩
  | 53 => ⟨S800000x1, .i32⟩
  | 54 => ⟨S800000x1, .i1⟩
  | 55 => ⟨S1x1, .i32⟩
  | 56 => ⟨S800000x1, .i32⟩
  | 57 => ⟨S800000x1, .i1⟩
  | 58 => ⟨S800000x1, .i1⟩
  | 59 => ⟨S_, .i1⟩
  | 60 => ⟨S800000, .i1⟩
  | 61 => ⟨S800000x128, .f32⟩
  | 62 => ⟨S800000x128, .i1⟩
  | 63 => ⟨S_, .f32⟩
  | 64 => ⟨S800000x128, .f32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S1x64, .f32⟩
  | 71 => ⟨S50000x64, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S1, .i32⟩
  | 81 => ⟨S_, .i32⟩
  | 82 => ⟨S800000x1, .i32⟩
  | 83 => ⟨S800000x1, .i1⟩
  | 84 => ⟨S1x1, .i32⟩
  | 85 => ⟨S800000x1, .i32⟩
  | 86 => ⟨S800000x1, .i1⟩
  | 87 => ⟨S800000x1, .i1⟩
  | 88 => ⟨S_, .i1⟩
  | 89 => ⟨S800000, .i1⟩
  | 90 => ⟨S800000x64, .f32⟩
  | 91 => ⟨S800000x64, .i1⟩
  | 92 => ⟨S_, .f32⟩
  | 93 => ⟨S800000x64, .f32⟩
  | 94 => ⟨S800000x64, .f32⟩
  | 95 => ⟨S_, .f32⟩
  | 96 => ⟨S50000x64, .f32⟩
  | 97 => ⟨S800000x1, .i32⟩
  | 98 => ⟨S50000x64, .f32⟩
  | 99 => ⟨S1x64, .f32⟩
  | 100 => ⟨S50000x64, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S1, .i32⟩
  | 110 => ⟨S_, .i32⟩
  | 111 => ⟨S800000x1, .i32⟩
  | 112 => ⟨S800000x1, .i1⟩
  | 113 => ⟨S1x1, .i32⟩
  | 114 => ⟨S800000x1, .i32⟩
  | 115 => ⟨S800000x1, .i1⟩
  | 116 => ⟨S800000x1, .i1⟩
  | 117 => ⟨S_, .i1⟩
  | 118 => ⟨S800000, .i1⟩
  | 119 => ⟨S800000x64, .f32⟩
  | 120 => ⟨S800000x64, .i1⟩
  | 121 => ⟨S_, .f32⟩
  | 122 => ⟨S800000x64, .f32⟩
  | 123 => ⟨S800000x64, .f32⟩
  | 124 => ⟨S_, .f32⟩
  | 125 => ⟨S50000x64, .f32⟩
  | 126 => ⟨S800000x1, .i32⟩
  | 127 => ⟨S50000x64, .f32⟩
  | _ => ⟨S50000x128, .f32⟩

abbrev hbmTy0_1 (i : Nat) : BufTy := match i % 128 with
  | 0 => ⟨S1x64, .f32⟩
  | 1 => ⟨S1x32, .f32⟩
  | 2 => ⟨S1x1, .f32⟩
  | 3 => ⟨S1x1, .f32⟩
  | 4 => ⟨S1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S128x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x1, .f32⟩
  | .local _ .vmem, ⟨19, _⟩ => ⟨S5000x1, .f32⟩
  | .local _ .vmem, ⟨20, _⟩ => ⟨S5000x1, .f32⟩
  | .local _ .vmem, ⟨21, _⟩ => ⟨S5000x1, .f32⟩
  | .local _ .vmem, ⟨22, _⟩ => ⟨S64x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x1, .f32⟩
  | .local _ .vmem, ⟨29, _⟩ => ⟨S5000x1, .f32⟩
  | .local _ .vmem, ⟨30, _⟩ => ⟨S64x64, .f32⟩
  | .local _ .vmem, ⟨31, _⟩ => ⟨S1x64, .f32⟩
  | .local _ .vmem, ⟨32, _⟩ => ⟨S64x32, .f32⟩
  | .local _ .vmem, ⟨33, _⟩ => ⟨S1x32, .f32⟩
  | .local _ .vmem, ⟨34, _⟩ => ⟨S32x1, .f32⟩
  | .local _ .vmem, ⟨35, _⟩ => ⟨S1x1, .f32⟩
  | .local _ .vmem, ⟨36, _⟩ => ⟨S1x1, .f32⟩
  | .local _ .vmem, ⟨37, _⟩ => ⟨S1x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_c_1 : Ref sig .tc := ⟨.hbm, 51, rfl⟩
abbrev main_call2_c_2 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_3 : Ref sig .tc := ⟨.hbm, 59, rfl⟩
abbrev main_call2_v12 : Ref sig .tc := ⟨.hbm, 60, rfl⟩
abbrev main_call2_v13 : Ref sig .tc := ⟨.hbm, 61, rfl⟩
abbrev main_call2_v14 : Ref sig .tc := ⟨.hbm, 62, rfl⟩
abbrev main_call2_cst : Ref sig .tc := ⟨.hbm, 63, rfl⟩
abbrev main_call2_v15 : Ref sig .tc := ⟨.hbm, 64, rfl⟩
abbrev main_v20 : Ref sig .tc := ⟨.hbm, 65, rfl⟩
abbrev main_cst_6 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_c_1 : Ref sig .tc := ⟨.hbm, 80, rfl⟩
abbrev main_call3_c_2 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_3 : Ref sig .tc := ⟨.hbm, 88, rfl⟩
abbrev main_call3_v12 : Ref sig .tc := ⟨.hbm, 89, rfl⟩
abbrev main_call3_v13 : Ref sig .tc := ⟨.hbm, 90, rfl⟩
abbrev main_call3_v14 : Ref sig .tc := ⟨.hbm, 91, rfl⟩
abbrev main_call3_cst : Ref sig .tc := ⟨.hbm, 92, rfl⟩
abbrev main_call3_v15 : Ref sig .tc := ⟨.hbm, 93, rfl⟩
abbrev main_v26 : Ref sig .tc := ⟨.hbm, 94, rfl⟩
abbrev main_cst_7 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_call4_c : Ref sig .tc := ⟨.hbm, 101, rfl⟩
abbrev main_call4_v0 : Ref sig .tc := ⟨.hbm, 102, rfl⟩
abbrev main_call4_v1 : Ref sig .tc := ⟨.hbm, 103, rfl⟩
abbrev main_call4_c_0 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_v5 : Ref sig .tc := ⟨.hbm, 108, rfl⟩
abbrev main_call4_c_1 : Ref sig .tc := ⟨.hbm, 109, rfl⟩
abbrev main_call4_c_2 : Ref sig .tc := ⟨.hbm, 110, rfl⟩
abbrev main_call4_v6 : Ref sig .tc := ⟨.hbm, 111, rfl⟩
abbrev main_call4_v7 : Ref sig .tc := ⟨.hbm, 112, rfl⟩
abbrev main_call4_v8 : Ref sig .tc := ⟨.hbm, 113, rfl⟩
abbrev main_call4_v9 : Ref sig .tc := ⟨.hbm, 114, rfl⟩
abbrev main_call4_v10 : Ref sig .tc := ⟨.hbm, 115, rfl⟩
abbrev main_call4_v11 : Ref sig .tc := ⟨.hbm, 116, rfl⟩
abbrev main_call4_c_3 : Ref sig .tc := ⟨.hbm, 117, rfl⟩
abbrev main_call4_v12 : Ref sig .tc := ⟨.hbm, 118, rfl⟩
abbrev main_call4_v13 : Ref sig .tc := ⟨.hbm, 119, rfl⟩
abbrev main_call4_v14 : Ref sig .tc := ⟨.hbm, 120, rfl⟩
abbrev main_call4_cst : Ref sig .tc := ⟨.hbm, 121, rfl⟩
abbrev main_call4_v15 : Ref sig .tc := ⟨.hbm, 122, rfl⟩
abbrev main_v32 : Ref sig .tc := ⟨.hbm, 123, rfl⟩
abbrev main_cst_8 : Ref sig .tc := ⟨.hbm, 124, rfl⟩
abbrev main_v33 : Ref sig .tc := ⟨.hbm, 125, rfl⟩
abbrev main_v34 : Ref sig .tc := ⟨.hbm, 126, rfl⟩
abbrev main_v35 : Ref sig .tc := ⟨.hbm, 127, rfl⟩
abbrev main_v36 : Ref sig .tc := ⟨.hbm, 128, rfl⟩
abbrev main_v37 : Ref sig .tc := ⟨.hbm, 129, rfl⟩
abbrev main_v38 : Ref sig .tc := ⟨.hbm, 130, rfl⟩
abbrev main_v39 : Ref sig .tc := ⟨.hbm, 131, rfl⟩
abbrev main_v40 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc3_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_14 : BitVec 32 := 0#32
  let v26 : BitVec 1 := Scalar.cmpi .ne v25 c0_i32_14
  v26

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S32x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S64_S1x64 : S64.ShapeCasts S1x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S32_S1x32 : S32.ShapeCasts S1x32
  shapeCasts_S1_S1x1 : S1.ShapeCasts S1x1
  reduces_S5000x64_S64 : S5000x64.Reduces [0] S64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S1 : S1x1.ShapeCasts S1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S1x64_S64x32_S1x32_1_0_0_1_n_n_wf : DotDims.WF S1x64 S64x32 S1x32 [1] [0] [0] [1] [] []
  dot_S1x32_S32x1_S1x1_1_0_0_1_n_n_wf : DotDims.WF S1x32 S32x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x32.size a ≤ S64x32.size a
  hwx3_4 : ∀ i : grid3.Coords, EltTy.bits .f32 = 32 ∨ (Rect.block (s := S64x32) S64x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x32.size a ≤ S1x32.size a
  hwx3_5 : ∀ i : grid3.Coords, EltTy.bits .f32 = 32 ∨ (Rect.block (s := S1x32) S1x32.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S32x1.size a ≤ S32x1.size a
  hwx3_6 : ∀ i : grid3.Coords, EltTy.bits .f32 = 32 ∨ (Rect.block (s := S32x1) S32x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x1.size a ≤ S1x1.size a
  hwx3_7 : ∀ i : grid3.Coords, EltTy.bits .f32 = 32 ∨ (Rect.block (s := S1x1) S1x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x1.size a ≤ S1x1.size a
  hwx3_8 : ∀ i : grid3.Coords, EltTy.bits .f32 = 32 ∨ (Rect.block (s := S1x1) S1x1.size (cc3_transform_8 i) (hinb3_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S1x64_S64x32_S1x32_1_0_0_1_n_n : DotDims S1x64 S64x32 S1x32 where
  lhsContracting := [1]
  rhsContracting := [0]
  lhsNonContracting := [0]
  rhsNonContracting := [1]
  lhsBatch := []
  rhsBatch := []
  wf := dot_S1x64_S64x32_S1x32_1_0_0_1_n_n_wf
def dot_S1x32_S32x1_S1x1_1_0_0_1_n_n : DotDims S1x32 S32x1 S1x1 where
  lhsContracting := [1]
  rhsContracting := [0]
  lhsNonContracting := [0]
  rhsNonContracting := [1]
  lhsBatch := []
  rhsBatch := []
  wf := dot_S1x32_S32x1_S1x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v29) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v35) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg7) S64x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v37) S1x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg9) S32x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v38) S1x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v39) S1x1.size cc3_transform_8 reads3_8 true true 1 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev idle3 : Fin 9 → grid3.Coords → Bool := fun | 0 => fun _ => false | 1 => fun _ => false | 2 => fun _ => false | 3 => fun _ => false | 4 => fun _ => false | 5 => fun _ => false | 6 => fun _ => false | 7 => fun _ => false | 8 => fun i => !(k3_cond2 i == 1#1) | ⟨_ + 9, h⟩ => absurd h (Nat.not_lt.2 (Nat.le_add_left _ _))

class Facts : Prop extends Facts₀ where

variable [Facts]
-- ==== ReferenceIdeal.lean ====
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x64 : Shape := ⟨2, ![50000, 64]⟩
abbrev S1x64 : Shape := ⟨2, ![1, 64]⟩
abbrev S800000x64 : Shape := ⟨2, ![800000, 64]⟩
abbrev S1x32 : Shape := ⟨2, ![1, 32]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S50000x128, .f32⟩
  | 1 => ⟨S128x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S64x32, .f32⟩
  | 8 => ⟨S32, .f32⟩
  | 9 => ⟨S32x1, .f32⟩
  | 10 => ⟨S1, .f32⟩
  | 11 => ⟨S2x800000, .i32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S_, .f32⟩
  | 28 => ⟨S50000, .f32⟩
  | 29 => ⟨S50000, .f32⟩
  | 30 => ⟨S_, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .f32⟩
  | 38 => ⟨S50000, .f32⟩
  | 39 => ⟨S50000, .f32⟩
  | 40 => ⟨S50000x1, .f32⟩
  | 41 => ⟨S50000x128, .f32⟩
  | 42 => ⟨S50000x128, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x128, .f32⟩
  | 52 => ⟨S_, .f32⟩
  | 53 => ⟨S50000x128, .f32⟩
  | 54 => ⟨S800000x1, .i32⟩
  | 55 => ⟨S50000x128, .f32⟩
  | 56 => ⟨S50000x1, .f32⟩
  | 57 => ⟨S50000x128, .f32⟩
  | 58 => ⟨S50000x128, .f32⟩
  | 59 => ⟨S50000x64, .f32⟩
  | 60 => ⟨S1x64, .f32⟩
  | 61 => ⟨S50000x64, .f32⟩
  | 62 => ⟨S50000x64, .f32⟩
  | 63 => ⟨S_, .f32⟩
  | 64 => ⟨S50000x64, .f32⟩
  | 65 => ⟨S50000x64, .f32⟩
  | 66 => ⟨S50000x1, .f32⟩
  | 67 => ⟨S50000x64, .f32⟩
  | 68 => ⟨S50000x64, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x64, .f32⟩
  | 78 => ⟨S_, .f32⟩
  | 79 => ⟨S50000x64, .f32⟩
  | 80 => ⟨S800000x1, .i32⟩
  | 81 => ⟨S50000x64, .f32⟩
  | 82 => ⟨S50000x1, .f32⟩
  | 83 => ⟨S50000x64, .f32⟩
  | 84 => ⟨S50000x64, .f32⟩
  | 85 => ⟨S50000x64, .f32⟩
  | 86 => ⟨S1x64, .f32⟩
  | 87 => ⟨S50000x64, .f32⟩
  | 88 => ⟨S50000x64, .f32⟩
  | 89 => ⟨S_, .f32⟩
  | 90 => ⟨S50000x64, .f32⟩
  | 91 => ⟨S50000x64, .f32⟩
  | 92 => ⟨S50000x1, .f32⟩
  | 93 => ⟨S50000x64, .f32⟩
  | 94 => ⟨S50000x64, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x64, .f32⟩
  | 104 => ⟨S_, .f32⟩
  | 105 => ⟨S50000x64, .f32⟩
  | 106 => ⟨S800000x1, .i32⟩
  | 107 => ⟨S50000x64, .f32⟩
  | 108 => ⟨S50000x1, .f32⟩
  | 109 => ⟨S50000x64, .f32⟩
  | 110 => ⟨S50000x64, .f32⟩
  | 111 => ⟨S50000x64, .f32⟩
  | 112 => ⟨S1x64, .f32⟩
  | 113 => ⟨S50000x64, .f32⟩
  | 114 => ⟨S50000x64, .f32⟩
  | 115 => ⟨S_, .f32⟩
  | 116 => ⟨S50000x64, .f32⟩
  | 117 => ⟨S50000x64, .f32⟩
  | 118 => ⟨S_, .f32⟩
  | 119 => ⟨S64, .f32⟩
  | 120 => ⟨S1x64, .f32⟩
  | 121 => ⟨S_, .f32⟩
  | 122 => ⟨S1x64, .f32⟩
  | 123 => ⟨S1x64, .f32⟩
  | 124 => ⟨S1x32, .f32⟩
  | 125 => ⟨S1x32, .f32⟩
  | 126 => ⟨S1x32, .f32⟩
  | 127 => ⟨S_, .f32⟩
  | _ => ⟨S50000x128, .f32⟩

abbrev hbmTy0_1 (i : Nat) : BufTy := match i % 128 with
  | 0 => ⟨S1x32, .f32⟩
  | 1 => ⟨S1x32, .f32⟩
  | 2 => ⟨S1x1, .f32⟩
  | 3 => ⟨S1x1, .f32⟩
  | 4 => ⟨S1x1, .f32⟩
  | 5 => ⟨S1x1, .f32⟩
  | 6 => ⟨S1x1, .f32⟩
  | 7 => ⟨S_, .f32⟩
  | 8 => ⟨S1x1, .f32⟩
  | 9 => ⟨S1x1, .f32⟩
  | 10 => ⟨S_, .f32⟩
  | 11 => ⟨S1x1, .f32⟩
  | 12 => ⟨S1x1, .f32⟩
  | 13 => ⟨S1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_v13 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v14 : Ref sig .tc := ⟨.hbm, 36, rfl⟩
abbrev main_cst_5 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c : Ref sig .tc := ⟨.hbm, 43, rfl⟩
abbrev main_v20 : Ref sig .tc := ⟨.hbm, 44, rfl⟩
abbrev main_v21 : Ref sig .tc := ⟨.hbm, 45, rfl⟩
abbrev main_c_6 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_7 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call2_cst : Ref sig .tc := ⟨.hbm, 63, rfl⟩
abbrev main_call2_v0 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_8 : Ref sig .tc := ⟨.hbm, 69, rfl⟩
abbrev main_v41 : Ref sig .tc := ⟨.hbm, 70, rfl⟩
abbrev main_v42 : Ref sig .tc := ⟨.hbm, 71, rfl⟩
abbrev main_c_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_call3_cst : Ref sig .tc := ⟨.hbm, 89, rfl⟩
abbrev main_call3_v0 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c_11 : Ref sig .tc := ⟨.hbm, 95, rfl⟩
abbrev main_v62 : Ref sig .tc := ⟨.hbm, 96, rfl⟩
abbrev main_v63 : Ref sig .tc := ⟨.hbm, 97, rfl⟩
abbrev main_c_12 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_13 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_call4_cst : Ref sig .tc := ⟨.hbm, 115, rfl⟩
abbrev main_call4_v0 : Ref sig .tc := ⟨.hbm, 116, rfl⟩
abbrev main_v79 : Ref sig .tc := ⟨.hbm, 117, rfl⟩
abbrev main_cst_14 : Ref sig .tc := ⟨.hbm, 118, rfl⟩
abbrev main_v80 : Ref sig .tc := ⟨.hbm, 119, rfl⟩
abbrev main_v81 : Ref sig .tc := ⟨.hbm, 120, rfl⟩
abbrev main_cst_15 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_call5_cst : Ref sig .tc := ⟨.hbm, 127, rfl⟩
abbrev main_call5_v0 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_16 : Ref sig .tc := ⟨.hbm, 135, rfl⟩
abbrev main_v93 : Ref sig .tc := ⟨.hbm, 136, rfl⟩
abbrev main_v94 : Ref sig .tc := ⟨.hbm, 137, rfl⟩
abbrev main_cst_17 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  reducesTo_S50000x64_S64_d0 : S50000x64.ReducesTo [0] S64
  h_S_ : 0 < S_.numel
  bcast_S_S1x64 : S_.BroadcastsInDim S1x64 (![] : Fin 0 → Fin S1x64.rank)
  bcast_S32_S1x32_1 : S32.BroadcastsInDim S1x32 (![1] : Fin 1 → Fin S1x32.rank)
  bcast_S_S1x32 : S_.BroadcastsInDim S1x32 (![] : Fin 0 → Fin S1x32.rank)
  bcast_S1_S1x1_1 : S1.BroadcastsInDim S1x1 (![1] : Fin 1 → Fin S1x1.rank)
  bcast_S_S1x1 : S_.BroadcastsInDim S1x1 (![] : Fin 0 → Fin S1x1.rank)
  shapeCasts_S1x1_S1 : S1x1.ShapeCasts S1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S1x64_S64x32_S1x32_1_0_0_1_n_n_wf : DotDims.WF S1x64 S64x32 S1x32 [1] [0] [0] [1] [] []
  dot_S1x32_S32x1_S1x1_1_0_0_1_n_n_wf : DotDims.WF S1x32 S32x1 S1x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S1x64_S64x32_S1x32_1_0_0_1_n_n : DotDims S1x64 S64x32 S1x32 where
  lhsContracting := [1]
  rhsContracting := [0]
  lhsNonContracting := [0]
  rhsNonContracting := [1]
  lhsBatch := []
  rhsBatch := []
  wf := dot_S1x64_S64x32_S1x32_1_0_0_1_n_n_wf
def dot_S1x32_S32x1_S1x1_1_0_0_1_n_n : DotDims S1x32 S32x1 S1x1 where
  lhsContracting := [1]
  rhsContracting := [0]
  lhsNonContracting := [0]
  rhsNonContracting := [1]
  lhsBatch := []
  rhsBatch := []
  wf := dot_S1x32_S32x1_S1x1_1_0_0_1_n_n_wf

class Facts : Prop extends Facts₀ where

variable [Facts]
-- ==== Proof.KReg0.lean ====
import proofs.«408152_j74947179315796_1_alg».proof.Proof.Gen.Kernel.Launch
import proofs.«408152_j74947179315796_1_alg».proof.Proof.Gen.Kernel.Skeleton
import proofs.«408152_j74947179315796_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows (`View.cover_of_tiled`) recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0: `cc0__scale_kernel`, out = x * (s broadcast along the columns), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (x, a 5000×128 row block): its current staging buffer holds its block at every point, for any
    proof data whose array is `V`'s (`hA`) and whose body leaves the block in place (`hafter`); the window is
    uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (s, a 5000×1 row block): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r0_0 : Rect S5000x128 := Rect.unit (s := S5000x128) ![0, 0] S5000x128.size inb_S5000x128_S5000x128_0_0
abbrev r0_1 : Rect S5000x1 := Rect.unit (s := S5000x1) ![0, 0] S5000x1.size inb_S5000x1_S5000x1_0_0

/-! ## What the body leaves in the output window's buffer -/

/-- Window 2's staging buffer after the body, from the input windows' blocks: its one store, of the product
    x * broadcast s, over the whole buffer. -/
def out0_2 (x0 : Vec F S5000x128 .f32) (x1 : Vec F S5000x1 .f32) : Vec F S5000x128 .f32 :=
  View.canon [⟨r0_0, k0_pay1 (View.ld x0 r0_0) (View.ld x1 r0_1)⟩]

/-- The store is over the whole buffer, so it covers it. -/
theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the inputs' at read contents `x0`, `x1` and the output's at anything
    (the body loads it before the store and drops the value), runs to the continuation holding the inputs' as they
    were and the output's at `out0_2` of the inputs'. -/
theorem sound_kernel0 (c : Dev nD) (E : Set ℕ) (i : grid0.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point
    `t` each input's buffer at its block and the output's at `out0_2` of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1.lean ====
import proofs.«408152_j74947179315796_1_alg».proof.Proof.Gen.Kernel.Launch
import proofs.«408152_j74947179315796_1_alg».proof.Proof.Gen.Kernel.Skeleton
import proofs.«408152_j74947179315796_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows (`View.cover_of_tiled`) recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1: `cc1__layer_kernel`, out = max((agg * nd) W + b, 0) * ns (nd, ns broadcast along the columns, b along the
    rows), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (agg, a 5000-row block): its current staging buffer holds its block at every point, fetched there
    or not, for any proof data whose array is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (nd, a 5000×1 row block): its current staging buffer holds its block at every point, fetched there
    or not, for any proof data whose array is `V`'s (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 (ns, a 5000×1 row block): its current staging buffer holds its block at every point, fetched there
    or not, for any proof data whose array is `V`'s (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 (W, the whole matrix, the same block at every point): its current staging buffer holds its block at every point, fetched there
    or not, for any proof data whose array is `V`'s (`hA`) and whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 (b, the whole row, the same block at every point): its current staging buffer holds its block at every point, fetched there
    or not, for any proof data whose array is `V`'s (`hA`) and whose body leaves the block in place (`hafter`). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev r1_0 : Rect S5000x128 := Rect.unit (s := S5000x128) ![0, 0] S5000x128.size inb_S5000x128_S5000x128_0_0
abbrev r1_1 : Rect S5000x1 := Rect.unit (s := S5000x1) ![0, 0] S5000x1.size inb_S5000x1_S5000x1_0_0
abbrev r1_2 : Rect S128x64 := Rect.unit (s := S128x64) ![0, 0] S128x64.size inb_S128x64_S128x64_0_0
abbrev r1_3 : Rect S1x64 := Rect.unit (s := S1x64) ![0, 0] S1x64.size inb_S1x64_S1x64_0_0
abbrev r1_4 : Rect S5000x64 := Rect.unit (s := S5000x64) ![0, 0] S5000x64.size inb_S5000x64_S5000x64_0_0

/-! ## What the body leaves in the output window's buffer -/

/-- Window 5's staging buffer after the body, from the input windows' blocks (in window order: agg, nd, ns, W, b):
    its one store over the whole buffer. The payload takes them in the order the body loads them: agg, nd, W, b, ns. -/
def out1_5 (x0 : Vec F S5000x128 .f32) (x1 : Vec F S5000x1 .f32) (x2 : Vec F S5000x1 .f32) (x3 : Vec F S128x64 .f32) (x4 : Vec F S1x64 .f32) : Vec F S5000x64 .f32 :=
  View.canon [⟨r1_4, k1_pay1 (View.ld x0 r1_0) (View.ld x1 r1_1) (View.ld x3 r1_2) (View.ld x4 r1_3) (View.ld x2 r1_1)⟩]

/-- The store is over the whole buffer, so it covers it. -/
theorem cover1_5 (p0 : Vec F S5000x64 .f32) (y : S5000x64.Idx) :
    ∃ pc ∈ ([⟨r1_4, p0⟩] : List (View.Piece (Elt F) S5000x64 .f32)), y ∈ pc.1.set :=
  View.cover_of_tiled [⟨r1_4, p0⟩] S5000x64.size (by rfl) y

/-! ## The body's triple -/

set_option maxHeartbeats 1000000 in
/-- The kernel body on whole staging memrefs, the inputs' at read contents `x0 … x4` and the output's at anything (the
    body loads it before the store and drops the value), runs to the continuation holding the inputs' as they were
    and the output's at `out1_5` of the inputs'. -/
theorem sound_kernel1 (c : Dev nD) (E : Set ℕ) (i : grid1.Coords) (arg1 : Memref sig .tc .vmem S5000x128 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x128 .f32) (x1 : Vec F S5000x1 .f32) (x2 : Vec F S5000x1 .f32) (x3 : Vec F S128x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__layer_kernel i arg1 harg1 arg2 harg2 arg3 harg3 arg4 harg4 arg5 harg5 arg6 harg6) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at point
    `t` each input's buffer at its block and the output's at `out1_5` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KReg2.lean ====
import proofs.«408152_j74947179315796_1_alg».proof.Proof.Gen.Kernel.Launch
import proofs.«408152_j74947179315796_1_alg».proof.Proof.Gen.Kernel.Skeleton
import proofs.«408152_j74947179315796_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows (`View.cover_of_tiled`) recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2: `cc2__layer_kernel`, out = max((agg * nd) W + b, 0) * ns (nd, ns broadcast along the columns, b along the
    rows), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (agg, a 5000-row block): its current staging buffer holds its block at every point, fetched there
    or not, for any proof data whose array is `V`'s (`hA`) and whose body leaves the block in place (`hafter`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 (nd, a 5000×1 row block): its current staging buffer holds its block at every point, fetched there
    or not, for any proof data whose array is `V`'s (`hA`) and whose body leaves the block in place (`hafter`). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2 (ns, a 5000×1 row block): its current staging buffer holds its block at every point, fetched there
    or not, for any proof data whose array is `V`'s (`hA`) and whose body leaves the block in place (`hafter`). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3 (W, the whole matrix, the same block at every point): its current staging buffer holds its block at every point, fetched there
    or not, for any proof data whose array is `V`'s (`hA`) and whose body leaves the block in place (`hafter`). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4 (b, the whole row, the same block at every point): its current staging buffer holds its block at every point, fetched there
    or not, for any proof data whose array is `V`'s (`hA`) and whose body leaves the block in place (`hafter`). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer whole -/

abbrev r2_0 : Rect S5000x64 := Rect.unit (s := S5000x64) ![0, 0] S5000x64.size inb_S5000x64_S5000x64_0_0
abbrev r2_1 : Rect S5000x1 := Rect.unit (s := S5000x1) ![0, 0] S5000x1.size inb_S5000x1_S5000x1_0_0
abbrev r2_2 : Rect S64x64 := Rect.unit (s := S64x64) ![0, 0] S64x64.size inb_S64x64_S64x64_0_0
abbrev r2_3 : Rect S1x64 := Rect.unit (s := S1x64) ![0, 0] S1x64.size inb_S1x64_S1x64_0_0
abbrev r2_4 : Rect S5000x64 := Rect.unit (s := S5000x64) ![0, 0] S5000x64.size inb_S5000x64_S5000x64_0_0

/-! ## What the body leaves in the output window's buffer -/

/-- Window 5's staging buffer after the body, from the input windows' blocks (in window order: agg, nd, ns, W, b):
    its one store over the whole buffer. The payload takes them in the order the body loads them: agg, nd, W, b, ns. -/
def out2_5 (x0 : Vec F S5000x64 .f32) (x1 : Vec F S5000x1 .f32) (x2 : Vec F S5000x1 .f32) (x3 : Vec F S64x64 .f32) (x4 : Vec F S1x64 .f32) : Vec F S5000x64 .f32 :=
  View.canon [⟨r2_4, k2_pay1 (View.ld x0 r2_0) (View.ld x1 r2_1) (View.ld x3 r2_2) (View.ld x4 r2_3) (View.ld x2 r2_1)⟩]

/-- The store is over the whole buffer, so it covers it. -/
theorem cover2_5 (p0 : Vec F S5000x64 .f32) (y : S5000x64.Idx) :
    ∃ pc ∈ ([⟨r2_4, p0⟩] : List (View.Piece (Elt F) S5000x64 .f32)), y ∈ pc.1.set :=
  View.cover_of_tiled [⟨r2_4, p0⟩] S5000x64.size (by rfl) y

/-! ## The body's triple -/

set_option maxHeartbeats 1000000 in
/-- The kernel body on whole staging memrefs, the inputs' at read contents `x0 … x4` and the output's at anything (the
    body loads it before the store and drops the value), runs to the continuation holding the inputs' as they were
    and the output's at `out2_5` of the inputs'. -/
theorem sound_kernel2 (c : Dev nD) (E : Set ℕ) (i : grid2.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S5000x1 .f32) (x2 : Vec F S5000x1 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__layer_kernel i arg1 harg1 arg2 harg2 arg3 harg3 arg4 harg4 arg5 harg5 arg6 harg6) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at point
    `t` each input's buffer at its block and the output's at `out2_5` of the input blocks; the invariant is the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KReg3.lean ====
import proofs.«408152_j74947179315796_1_alg».proof.Proof.Gen.Kernel.Launch
import proofs.«408152_j74947179315796_1_alg».proof.Proof.Gen.Kernel.Skeleton
import proofs.«408152_j74947179315796_1_alg».proof.Proof.Gen.Kernel.Points
import Idealize.ShloMosaic.Lib.Pipeline.FrameBody
import Idealize.ShloMosaic.Lib.Pipeline.Value
import Idealize.ShloMosaic.Lib.Tactic

/-! # Region 3 (`cc3__final_kernel`) at a parameter `V` of region-entry contents

The kernel carries a scratch accumulator `[1,64]` across its 10 grid points: point 0 zeroes it, every point adds the
column sums of `max((agg * nd) @ W3 + b3, 0)` of its block of rows, and point 9 alone computes the output
`logistic(max((acc * inv_50000) @ Wf1 + bf1, 0) @ Wf2 + bf2)` from the finished sum and stores it into window 8.
Three control cases: A (point 0), B (points 1–8), C (point 9). -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What the output window and the scratch hold after each point -/

/-- THE ACCUMULATION. After the body at position `n`: the scratch holds the column sums of this point's block added to
    what the point before left (to zero at point 0); window 8's staging buffer is named at the head's value of that
    sum (the kernel stores it at point 9 only; at the other points the window is idle and this component is not
    consulted). -/
def outsAt3 (c : Dev nD) : (n : ℕ) → n < cfg3.N → Vec F S1x1 .f32 × Vec F S1x64 .f32
  | 0, h =>
    (k3_pay3 (k3_pay2 (iblk3 V c 0 ⟨0, h⟩) (iblk3 V c 1 ⟨0, h⟩) (iblk3 V c 2 ⟨0, h⟩) (iblk3 V c 3 ⟨0, h⟩) k3_pay1)
        (iblk3 V c 4 ⟨0, h⟩) (iblk3 V c 5 ⟨0, h⟩) (iblk3 V c 6 ⟨0, h⟩) (iblk3 V c 7 ⟨0, h⟩),
      k3_pay2 (iblk3 V c 0 ⟨0, h⟩) (iblk3 V c 1 ⟨0, h⟩) (iblk3 V c 2 ⟨0, h⟩) (iblk3 V c 3 ⟨0, h⟩) k3_pay1)
  | n + 1, h =>
    (k3_pay3 (k3_pay2 (iblk3 V c 0 ⟨n + 1, h⟩) (iblk3 V c 1 ⟨n + 1, h⟩) (iblk3 V c 2 ⟨n + 1, h⟩) (iblk3 V c 3 ⟨n + 1, h⟩) (outsAt3 c n (Nat.lt_of_succ_lt h)).2)
        (iblk3 V c 4 ⟨n + 1, h⟩) (iblk3 V c 5 ⟨n + 1, h⟩) (iblk3 V c 6 ⟨n + 1, h⟩) (iblk3 V c 7 ⟨n + 1, h⟩),
      k3_pay2 (iblk3 V c 0 ⟨n + 1, h⟩) (iblk3 V c 1 ⟨n + 1, h⟩) (iblk3 V c 2 ⟨n + 1, h⟩) (iblk3 V c 3 ⟨n + 1, h⟩) (outsAt3 c n (Nat.lt_of_succ_lt h)).2)

/-- The scratch after point 0: the first block's column sums over zero. -/
theorem acc3_zero (c : Dev nD) (h : 0 < cfg3.N) :
    (outsAt3 V c 0 h).2 = k3_pay2 (iblk3 V c 0 ⟨0, h⟩) (iblk3 V c 1 ⟨0, h⟩) (iblk3 V c 2 ⟨0, h⟩) (iblk3 V c 3 ⟨0, h⟩) k3_pay1 := by
  rw [outsAt3]

/-- The scratch after point `n + 1`: that block's column sums over what point `n` left. -/
theorem acc3_succ (c : Dev nD) (n : ℕ) (h : n + 1 < cfg3.N) :
    (outsAt3 V c (n + 1) h).2 = k3_pay2 (iblk3 V c 0 ⟨n + 1, h⟩) (iblk3 V c 1 ⟨n + 1, h⟩) (iblk3 V c 2 ⟨n + 1, h⟩) (iblk3 V c 3 ⟨n + 1, h⟩) (outsAt3 V c n (Nat.lt_of_succ_lt h)).2 := by
  rw [outsAt3]

/-- The output after point 9: the head applied to the finished sum. -/
theorem out3_last (c : Dev nD) (h : 9 < cfg3.N) :
    (outsAt3 V c 9 h).1 = k3_pay3 (outsAt3 V c 9 h).2 (iblk3 V c 4 ⟨9, h⟩) (iblk3 V c 5 ⟨9, h⟩) (iblk3 V c 6 ⟨9, h⟩) (iblk3 V c 7 ⟨9, h⟩) := by
  rw [outsAt3]

/-! ## The carried scratch and the region invariant -/

/-- The scratch operand: a whole scoped buffer of the kernel's own, passed beside the windows. -/
abbrev scM3 : Memref sig .tc .vmem S1x64 .f32 := Memref.whole cc3_scratch0

/-- The region invariant before position `n`: before the first point the class's (every scoped buffer that is no
    staging buffer at anything, the generator register at some state); afterwards the same with the carried scratch
    at what the point before left in it (`outsAt3`'s second component). -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2)
      ∗ Pipeline.scopedRestBut (Ix := Unit) (Name := ℕ) (U := UR sig nD τ) (Lvl := ℕ) (Val := Elt F) spec3 c [cc3_scratch0]) ∗ (∃ r, prngReg c r))

/-! ## The pipeline's proof data -/

/-- The proof data of pipeline 3 on core `c`: the arrays as the region finds them (`V`); after the body at point `t`
    each input's buffer at its block and window 8's at `outsAt3`'s first component; the invariant `PhiS3`; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = (outsAt3 V c t.val t.isLt).1 := by dsimp only [dat3]

/-! ## The body's branch conditions -/

/-- The condition of the body's first `scf.if` (is this the first grid point?), from the grid coordinates. -/
abbrev cond3_0 (i : grid3.Coords) : Prop := (Scalar.cmpi .ne (Scalar.extui (Scalar.cmpi .eq (BitVec.ofNat 32 (i 0).val) 0#32)) 0#32) = 1#1
/-- The condition of the body's second `scf.if` (is this the last grid point?). -/
abbrev cond3_1 (i : grid3.Coords) : Prop := k3_cond2 i = 1#1

/-- The zero offsets of every whole-buffer access of the body. -/
theorem hz2 : (![0, 0] : Fin 2 → Nat) = fun _ => 0 := by funext a; fin_cases a <;> rfl

/-- A store through the whole scratch `[1,64]`, last, covers it whatever came before; -/
theorem cover3_s (p : Vec F S1x64 .f32) (L : List (View.Piece (Elt F) S1x64 .f32)) (y : S1x64.Idx) :
    ∃ pc ∈ ((⟨Rect.unit (s := S1x64) ![0, 0] S1x64.size inb_S1x64_S1x64_0_0, p⟩ : View.Piece (Elt F) S1x64 .f32) :: L), y ∈ pc.1.set :=
  ⟨_, List.mem_cons.mpr (Or.inl rfl), View.mem_set_unit_zero hz2 inb_S1x64_S1x64_0_0 y⟩
/-- and one through the whole output block `[1,1]` covers that. -/
theorem cover3_o (p : Vec F S1x1 .f32) (L : List (View.Piece (Elt F) S1x1 .f32)) (y : S1x1.Idx) :
    ∃ pc ∈ ((⟨Rect.unit (s := S1x1) ![0, 0] S1x1.size inb_S1x1_S1x1_0_0, p⟩ : View.Piece (Elt F) S1x1 .f32) :: L), y ∈ pc.1.set :=
  ⟨_, List.mem_cons.mpr (Or.inl rfl), View.mem_set_unit_zero hz2 inb_S1x1_S1x1_0_0 y⟩

/-- The first conditional holds at point 0 only — decided over the grid. -/
theorem hcond3_0 : ∀ t : Fin cfg3.N, cond3_0 (grid3.coords t) ↔ t.val = 0 :=
  (by decide +kernel : ∀ t : Fin grid3.N, cond3_0 (grid3.coords t) ↔ t.val = 0)
/-- The second conditional holds at point 9 only — decided over the grid. -/
theorem hcond3_1 : ∀ t : Fin cfg3.N, cond3_1 (grid3.coords t) ↔ t.val = 9 :=
  (by decide +kernel : ∀ t : Fin grid3.N, cond3_1 (grid3.coords t) ↔ t.val = 9)

/-! ## Where window 8 is idle -/

/-- Where the second conditional fails the configuration calls output window 8 idle: the body stores nothing into it, -/
theorem idleAt3_8 : ∀ t : Fin cfg3.N, ¬cond3_1 (grid3.coords t) → cfg3.idle 8 (grid3.coords t) = true := by decide +kernel
/-- and the pipeline does not write its block back there. -/
theorem noFlush3_8 : ∀ t : Fin cfg3.N, ¬cond3_1 (grid3.coords t) → (cfg3.win 8).flush t = false := by decide +kernel
/-- Where it holds the window is live: the body stores into it. -/
theorem liveAt3_8 : ∀ t : Fin cfg3.N, cond3_1 (grid3.coords t) → cfg3.idle 8 (grid3.coords t) = false := by decide +kernel

/-! ## The kernel body on any whole staging memrefs, case by case

The printed function is its skeleton; each conditional is decided by the case's hypotheses; what a store through a
whole buffer leaves reads back as its payload, and a load through a whole buffer reads the buffer's contents. -/

set_option maxHeartbeats 1000000 in
/-- CASE A (the first conditional taken, the second not: point 0). On whole staging memrefs, the four inputs the
    accumulation reads at contents `x0 … x3` and the scratch at anything, the body runs to the continuation holding the
    inputs as they were and the scratch at this block's column sums added to zero: the scratch is zeroed first, and the
    accumulation reads the zeros back. -/
theorem sound_kernel3_A (c : Dev nD) (E : Set ℕ) (i : grid3.Coords) (arg1 : Memref sig .tc .vmem S5000x64 .f32) (harg1 : arg1.IsWhole) (arg2 : Memref sig .tc .vmem S5000x1 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S32x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x64 .f32) (harg10 : arg10.IsWhole)
    (hc0 : cond3_0 i) (hc1 : ¬cond3_1 i)
    (x0 : Vec F S5000x64 .f32) (x1 : Vec F S5000x1 .f32) (x2 : Vec F S64x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg10 fullShare (k3_pay2 x0 x1 x2 x3 k3_pay1)) -∗ K ⟨⟩))
      ⊢ wp frame (wpE (defs₀ (F := F)) Variants.none c none) E (cc3__final_kernel i arg1 harg1 arg2 harg2 arg3 harg3 arg4 harg4 arg5 harg5 arg6 harg6 arg7 harg7 arg8 harg8 arg9 harg9 arg10 harg10) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0 hf1 hf2 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (cover3_s _ _),
    View.canon_cons_unit_zero (S := S1x64) hz2]
  simp only [View.readAt_eq_ld, View.readCov_unit_zero (S := S1x64) _ hz2, View.ld_unit_zero (S := S5000x64) hz2, View.ld_unit_zero (S := S5000x1) hz2, View.ld_unit_zero (S := S64x64) hz2, View.ld_unit_zero (S := S1x64) hz2, View.ld_unit_zero (S := S64x32) hz2, View.ld_unit_zero (S := S1x32) hz2, View.ld_unit_zero (S := S32x1) hz2, View.ld_unit_zero (S := S1x1) hz2]

set_option maxHeartbeats 1000000 in
/-- CASE B (neither conditional taken: points 1–8). On whole staging memrefs, the four inputs the accumulation reads
    at contents `x0 … x3` and the scratch at `xs`, the body runs to the continuation holding the inputs as they were
    and the scratch at this block's column sums added to `xs`. -/
theorem sound_kernel3_B (c : Dev nD) (E : Set ℕ) (i : grid3.Coords) (arg1 : Memref sig .tc .vmem S5000x64 .f32) (harg1 : arg1.IsWhole) (arg2 : Memref sig .tc .vmem S5000x1 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S32x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x64 .f32) (harg10 : arg10.IsWhole)
    (hc0 : ¬cond3_0 i) (hc1 : ¬cond3_1 i)
    (x0 : Vec F S5000x64 .f32) (x1 : Vec F S5000x1 .f32) (x2 : Vec F S64x64 .f32) (x3 : Vec F S1x64 .f32) (xs : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg10 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg10 fullShare (k3_pay2 x0 x1 x2 x3 xs)) -∗ K ⟨⟩))
      ⊢ wp frame (wpE (defs₀ (F := F)) Variants.none c none) E (cc3__final_kernel i arg1 harg1 arg2 harg2 arg3 harg3 arg4 harg4 arg5 harg5 arg6 harg6 arg7 harg7 arg8 harg8 arg9 harg9 arg10 harg10) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (cover3_s _ _),
    View.canon_unit_zero (S := S1x64) hz2]
  simp only [View.readAt_eq_ld, View.ld_unit_zero (S := S5000x64) hz2, View.ld_unit_zero (S := S5000x1) hz2, View.ld_unit_zero (S := S64x64) hz2, View.ld_unit_zero (S := S1x64) hz2, View.ld_unit_zero (S := S64x32) hz2, View.ld_unit_zero (S := S1x32) hz2, View.ld_unit_zero (S := S32x1) hz2, View.ld_unit_zero (S := S1x1) hz2]

set_option maxHeartbeats 1000000 in
/-- CASE C (the first conditional not taken, the second taken: point 9). On whole staging memrefs, all eight inputs
    at contents `x0 … x7`, the output's at anything and the scratch at `xs`, the body runs to the continuation holding
    the inputs as they were, the scratch at this block's column sums added to `xs`, and the output's buffer at the
    head's value of that finished sum (the scratch is read back after the accumulation's store). -/
theorem sound_kernel3_C (c : Dev nD) (E : Set ℕ) (i : grid3.Coords) (arg1 : Memref sig .tc .vmem S5000x64 .f32) (harg1 : arg1.IsWhole) (arg2 : Memref sig .tc .vmem S5000x1 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S32x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x64 .f32) (harg10 : arg10.IsWhole)
    (hc0 : ¬cond3_0 i) (hc1 : cond3_1 i)
    (x0 : Vec F S5000x64 .f32) (x1 : Vec F S5000x1 .f32) (x2 : Vec F S64x64 .f32) (x3 : Vec F S1x64 .f32)
    (x4 : Vec F S64x32 .f32) (x5 : Vec F S1x32 .f32) (x6 : Vec F S32x1 .f32) (x7 : Vec F S1x1 .f32) (xs : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ owns (c : Thread nD τ) arg10 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (k3_pay3 (k3_pay2 x0 x1 x2 x3 xs) x4 x5 x6 x7) ∗ owns (c : Thread nD τ) arg10 fullShare (k3_pay2 x0 x1 x2 x3 xs)) -∗ K ⟨⟩))
      ⊢ wp frame (wpE (defs₀ (F := F)) Variants.none c none) E (cc3__final_kernel i arg1 harg1 arg2 harg2 arg3 harg3 arg4 harg4 arg5 harg5 arg6 harg6 arg7 harg7 arg8 harg8 arg9 harg9 arg10 harg10) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
  subst hf0 hf1 hf2 hf3 hf4 hf5 hf6 hf7 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [View.read_writes_eq_canon _ _ _ (cover3_o _ _),
      View.canon_unit_zero (S := S1x1) hz2]
    simp only [View.readAt_eq_ld, View.readCov_unit_zero (S := S1x64) _ hz2, View.ld_unit_zero (S := S5000x64) hz2, View.ld_unit_zero (S := S5000x1) hz2, View.ld_unit_zero (S := S64x64) hz2, View.ld_unit_zero (S := S1x64) hz2, View.ld_unit_zero (S := S64x32) hz2, View.ld_unit_zero (S := S1x32) hz2, View.ld_unit_zero (S := S32x1) hz2, View.ld_unit_zero (S := S1x1) hz2]
  iexists _; isplitr
  swap; · iexact HS
  ipureintro
  sl_unfold_words
  rw [View.read_writes_eq_canon _ _ _ (cover3_s _ _),
    View.canon_unit_zero (S := S1x64) hz2]
  simp only [View.readAt_eq_ld, View.ld_unit_zero (S := S5000x64) hz2, View.ld_unit_zero (S := S5000x1) hz2, View.ld_unit_zero (S := S64x64) hz2, View.ld_unit_zero (S := S1x64) hz2, View.ld_unit_zero (S := S64x32) hz2, View.ld_unit_zero (S := S1x32) hz2, View.ld_unit_zero (S := S32x1) hz2, View.ld_unit_zero (S := S1x1) hz2]

/-- The class invariant with the scratch operand as a memref owned at some contents, beside the other scoped buffers
    (unopened) and the generator register: what the body obligation hands the body at the first point. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

theorem PhiS3_zero (c : Dev nD) (n : ℕ) (h : n ≤ cfg3.N) (hz : n = 0) : PhiS3 V c n h = Pipeline.ΦA spec3 c := by
  subst hz; rfl

/-- After point `n` (before point `n + 1`): the carried scratch at that point's contents. -/
theorem PhiS3_succ (c : Dev nD) (n : ℕ) (hn : n < cfg3.N) :
    PhiS3 V c (n + 1) hn = iprop(iprop(owns (c : Thread nD τ) scM3 fullShare ((outsAt3 V c n hn).2)
      ∗ Pipeline.scopedRestBut (Ix := Unit) (Name := ℕ) (U := UR sig nD τ) (Lvl := ℕ) (Val := Elt F) spec3 c [cc3_scratch0]) ∗ (∃ r, prngReg c r)) := rfl

/-- Before a point that is not the first: the carried scratch at what the point before left. -/
theorem PhiS3_pos (c : Dev nD) (n : ℕ) (h : n ≤ cfg3.N) (hz : n ≠ 0) :
    PhiS3 V c n h = iprop(iprop(owns (c : Thread nD τ) scM3 fullShare ((outsAt3 V c (n - 1) (by omega)).2)
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The invariant at a point's start (the proof data at `t.castSucc`), restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- Each input's current staging buffer holds its block at every point, fetched there or not: an input window whose
    body leaves its block in place holds what a fetch there would put in it (unfetched, the block index has not moved). -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl) (fun t => by rw [after3_6]; unfold Dat.blockOf iblk3; rw [A_eq3]; try rfl) t d).trans
    (by unfold Dat.fetched Dat.blockOf iblk3; rw [A_eq3]; try rfl)
theorem before3_7 (c : Dev nD) (t : Fin cfg3.N) (d) : (dat3 V c).before 7 t d = iblk3 V c 7 t :=
  ((dat3 V c).before_in_eq_fetched 7 rfl (fun _ => rfl) (fun _ _ _ => rfl) (fun t => by rw [after3_7]; unfold Dat.blockOf iblk3; rw [A_eq3]; try rfl) t d).trans
    (by unfold Dat.fetched Dat.blockOf iblk3; rw [A_eq3]; try rfl)

/-! ## The body obligation, at a generic point -/

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t)

/-- An input window is never idle: the body leaves its buffer at the block. -/
theorem leaves3_0 (c : Dev nD) (t : Fin cfg3.N) :
    (dat3 V c).leavesExact 0 t = owns (c : Thread nD τ) (st3_0 t) fullShare (iblk3 V c 0 t) := by
  rw [← after3_0]
theorem leaves3_1 (c : Dev nD) (t : Fin cfg3.N) :
    (dat3 V c).leavesExact 1 t = owns (c : Thread nD τ) (st3_1 t) fullShare (iblk3 V c 1 t) := by
  rw [← after3_1]
theorem leaves3_2 (c : Dev nD) (t : Fin cfg3.N) :
    (dat3 V c).leavesExact 2 t = owns (c : Thread nD τ) (st3_2 t) fullShare (iblk3 V c 2 t) := by
  rw [← after3_2]
theorem leaves3_3 (c : Dev nD) (t : Fin cfg3.N) :
    (dat3 V c).leavesExact 3 t = owns (c : Thread nD τ) (st3_3 t) fullShare (iblk3 V c 3 t) := by
  rw [← after3_3]
theorem leaves3_4 (c : Dev nD) (t : Fin cfg3.N) :
    (dat3 V c).leavesExact 4 t = owns (c : Thread nD τ) (st3_4 t) fullShare (iblk3 V c 4 t) := by
  rw [← after3_4]
theorem leaves3_5 (c : Dev nD) (t : Fin cfg3.N) :
    (dat3 V c).leavesExact 5 t = owns (c : Thread nD τ) (st3_5 t) fullShare (iblk3 V c 5 t) := by
  rw [← after3_5]
theorem leaves3_6 (c : Dev nD) (t : Fin cfg3.N) :
    (dat3 V c).leavesExact 6 t = owns (c : Thread nD τ) (st3_6 t) fullShare (iblk3 V c 6 t) := by
  rw [← after3_6]
theorem leaves3_7 (c : Dev nD) (t : Fin cfg3.N) :
    (dat3 V c).leavesExact 7 t = owns (c : Thread nD τ) (st3_7 t) fullShare (iblk3 V c 7 t) := by
  rw [← after3_7]

set_option maxHeartbeats 4800000 in
/-- The body at any point. The inputs' memrefs hold their blocks (`before3_w`); the closed forms of the conditions
    say which case the point is in; the invariant hands the body the carried scratch at what the point before left
    (at anything at the first point), and takes it back at this point's contents; window 8 is handed back untouched
    where it is idle (points 0–8) and at the head's value at point 9; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3, leaves3_4, leaves3_5, leaves3_6, leaves3_7]
  have hN : t.val < 10 := lt_of_lt_of_eq t.isLt (show cfg3.N = 10 from N_3)
  by_cases h0 : t.val = 0
  · -- case A: point 0
    have h1 : ¬ t.val = 9 := by omega
    have hc0 : cond3_0 (grid3.coords t) := (hcond3_0 t).mpr h0
    have hc1 : ¬ cond3_1 (grid3.coords t) := fun h => h1 ((hcond3_1 t).mp h)
    rw [Dat.leavesExact_idle (dat3 V c) 8 t (idleAt3_8 t hc1) (noFlush3_8 t hc1)]
    rw [PhiS3_castSucc V c t, PhiS3_zero V c _ _ h0, PhiA3_eq]
    obtain ⟨n, hn⟩ := t
    obtain rfl : n = 0 := h0
    rw [acc3_zero]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel3_A c Set.univ _ _ _ _ _ _ _ _ _ _ _ _ _ _ _ _ _ _ _ _ _ hc0 hc1 (iblk3 V c 0 _) (iblk3 V c 1 _) (iblk3 V c 2 _) (iblk3 V c 3 _) _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · by_cases h1 : t.val = 9
    · -- case C: point 9
      have hc0 : ¬ cond3_0 (grid3.coords t) := fun h => h0 ((hcond3_0 t).mp h)
      have hc1 : cond3_1 (grid3.coords t) := (hcond3_1 t).mpr h1
      rw [show (dat3 V c).leavesExact 8 t = owns (c : Thread nD τ) (st3_8 t) fullShare ((dat3 V c).after 8 t) from by
        unfold Dat.leavesExact; rw [liveAt3_8 t hc1], after3_8]
      rw [PhiS3_castSucc V c t, PhiS3_pos V c _ _ h0]
      obtain ⟨n, hn⟩ := t
      obtain rfl : n = 9 := h1
      rw [out3_last, acc3_succ]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel3_C c Set.univ _ _ _ _ _ _ _ _ _ _ _ _ _ _ _ _ _ _ _ _ _ hc0 hc1 (iblk3 V c 0 _) (iblk3 V c 1 _) (iblk3 V c 2 _) (iblk3 V c 3 _) (iblk3 V c 4 _) (iblk3 V c 5 _) (iblk3 V c 6 _) (iblk3 V c 7 _) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, H8, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · -- case B: points 1–8
      have hc0 : ¬ cond3_0 (grid3.coords t) := fun h => h0 ((hcond3_0 t).mp h)
      have hc1 : ¬ cond3_1 (grid3.coords t) := fun h => h1 ((hcond3_1 t).mp h)
      rw [Dat.leavesExact_idle (dat3 V c) 8 t (idleAt3_8 t hc1) (noFlush3_8 t hc1)]
      rw [PhiS3_castSucc V c t, PhiS3_pos V c _ _ h0]
      obtain ⟨n, hn⟩ := t
      have h0' : n ≠ 0 := h0
      obtain ⟨k, rfl⟩ : ∃ k, n = k + 1 := ⟨n - 1, by omega⟩
      rw [acc3_succ]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel3_B c Set.univ _ _ _ _ _ _ _ _ _ _ _ _ _ _ _ _ _ _ _ _ _ hc0 hc1 (iblk3 V c 0 _) (iblk3 V c 1 _) (iblk3 V c 2 _) (iblk3 V c 3 _) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region (`ΦA`) is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives `ΦA` back: the carried scratch's named contents are forgotten. -/
theorem Phi3_out (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, Hr⟩, Hg⟩
  isplitl [HS Hr]
  · isplitl [HS]
    · iexists _; iexact HS
    iexact Hr
  iexact Hg

/-- The same after the last point. -/
theorem hout3 (c : Dev nD) : (dat3 V c).Φ (Fin.last cfg3.N) ⊢ Pipeline.ΦA spec3 c :=
  Phi3_out V c _ (by rw [Fin.val_last]; have : cfg3.N = 10 := N_3; omega)

end Cert.Kernel.Hand

end
-- ==== Proof.KChain.lean ====
import proofs.«408152_j74947179315796_1_alg».proof.Proof.KReg0
import proofs.«408152_j74947179315796_1_alg».proof.Proof.KReg1
import proofs.«408152_j74947179315796_1_alg».proof.Proof.KReg2
import proofs.«408152_j74947179315796_1_alg».proof.Proof.KReg3
import proofs.«408152_j74947179315796_1_alg».proof.Proof.Gen.Kernel.Regions
import Idealize.ShloMosaic.Lib.Pipeline.FrameSuffix
import Idealize.ShloMosaic.Lib.Pipeline.Cells
import Idealize.ShloMosaic.Lib.StableHlo.Run

-- membership of a reference in a stretch's list of written references is decided over the program's 171 references
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! # The buffer contents at each boundary of @main's 16 items: a fold from the launch memory

`W j` is what core `c`'s buffers hold after item `j − 1`: a host stretch rewrites the buffers its operations write
(`StableHlo.after`); a kernel region leaves its windows' arrays at what its write-backs fold to (`Dat.arrAt … N`: an
input array as entered, the output array block by block) and every other buffer as entered (`Pipeline.withArrays`).
`V j` is the same read at the TensorCore's references: what a region's proof data take as entry contents. -/

/-- Core `c`'s buffers at launch. -/
abbrev W0 : Dev nD → Valuation τ sig (Elt F) := fun c b => (s₀ m ρ).mem ((c : Dev nD), b)
/-- After item 0, the host stretch `hostOps0`. -/
abbrev W1 : Dev nD → Valuation τ sig (Elt F) := fun c => StableHlo.after hostOps0 (W0 m ρ c)
/-- A reference the stretch `hostOps0` does not write keeps its contents across item 0. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- After item 1, the host stretch `hostOps0_1`. -/
abbrev W2 : Dev nD → Valuation τ sig (Elt F) := fun c => StableHlo.after hostOps0_1 (W1 m ρ c)
/-- A reference the stretch `hostOps0_1` does not write keeps its contents across item 1. -/
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
/-- After item 2, the host stretch `hostOps0_2`. -/
abbrev W3 : Dev nD → Valuation τ sig (Elt F) := fun c => StableHlo.after hostOps0_2 (W2 m ρ c)
/-- A reference the stretch `hostOps0_2` does not write keeps its contents across item 2. -/
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
/-- After item 3, the host stretch `hostOps0_3`. -/
abbrev W4 : Dev nD → Valuation τ sig (Elt F) := fun c => StableHlo.after hostOps0_3 (W3 m ρ c)
/-- A reference the stretch `hostOps0_3` does not write keeps its contents across item 3. -/
theorem W4_of (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h
/-- After item 4, the host stretch `hostOps0_4`. -/
abbrev W5 : Dev nD → Valuation τ sig (Elt F) := fun c => StableHlo.after hostOps0_4 (W4 m ρ c)
/-- A reference the stretch `hostOps0_4` does not write keeps its contents across item 4. -/
theorem W5_of (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h
/-- The same read at the TensorCore's references: region 0's entry contents. -/
abbrev V5 : (c : Dev nD) → (b : Ref sig .tc) → Buf (Elt F) ((c : Thread nD τ).loc b) := fun c b => W5 m ρ c b

/-- After item 5, region 0 (custom_call 0): its arrays at what the pipeline leaves (each input as entered, the
    output `main_v19` with every write-back folded in), every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- An input window's array leaves region 0 as it entered: no write-back touches it. -/
theorem W6_in (c : Dev nD) (w : Fin cfg0.W) (hin : (cfg0.win w).isOut = false) :
    W6 m ρ c (Proc.devRef .tc (Pipeline.arrRef spec0 w)) = W5 m ρ c (Proc.devRef .tc (Pipeline.arrRef spec0 w)) :=
  (W6_arr m ρ c w).trans (((dat0 (V5 m ρ) c).arrAt_in w hin _).trans (A_eq0 (V5 m ρ) c w))
/-- The same read at the TensorCore's references: region 0's exit contents. -/
abbrev V6 : (c : Dev nD) → (b : Ref sig .tc) → Buf (Elt F) ((c : Thread nD τ).loc b) := fun c b => W6 m ρ c b
/-- At region 0's exit each of its arrays holds what the pipeline leaves (`hF0`) and every other buffer what it held
    at entry (`hrest0`): the two hypotheses of `Pipeline.unscopedBufs_of_arrays`. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After item 6, the host stretch `hostOps1`. -/
abbrev W7 : Dev nD → Valuation τ sig (Elt F) := fun c => StableHlo.after hostOps1 (W6 m ρ c)
/-- A reference the stretch `hostOps1` does not write keeps its contents across item 6. -/
theorem W7_of (c : Dev nD) (r : Ref sig .tc) (h : r ∉ hostOps1_W) :
    W7 m ρ c (Proc.devRef .tc r) = W6 m ρ c (Proc.devRef .tc r) :=
  StableHlo.after_of_writes_sub hostOps1 _ hostOps1_writes h
/-- After item 7, the host stretch `hostOps1_1`. -/
abbrev W8 : Dev nD → Valuation τ sig (Elt F) := fun c => StableHlo.after hostOps1_1 (W7 m ρ c)
/-- A reference the stretch `hostOps1_1` does not write keeps its contents across item 7. -/
theorem W8_of (c : Dev nD) (r : Ref sig .tc) (h : r ∉ hostOps1_1_W) :
    W8 m ρ c (Proc.devRef .tc r) = W7 m ρ c (Proc.devRef .tc r) :=
  StableHlo.after_of_writes_sub hostOps1_1 _ hostOps1_1_writes h
/-- The same read at the TensorCore's references: region 1's entry contents. -/
abbrev V8 : (c : Dev nD) → (b : Ref sig .tc) → Buf (Elt F) ((c : Thread nD τ).loc b) := fun c b => W8 m ρ c b

/-- After item 8, region 1 (custom_call 1): its arrays at what the pipeline leaves (each input as entered, the
    output `main_v25` with every write-back folded in), every other buffer as entered. -/
def W9 (c : Dev nD) : Valuation τ sig (Elt F) :=
  Pipeline.withArrays spec1 c (W8 m ρ c) fun w => (dat1 (V8 m ρ) c).arrAt w cfg1.N
theorem W9_arr (c : Dev nD) (w : Fin cfg1.W) :
    W9 m ρ c (Proc.devRef .tc (Pipeline.arrRef spec1 w)) = (dat1 (V8 m ρ) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb
/-- An input window's array leaves region 1 as it entered: no write-back touches it. -/
theorem W9_in (c : Dev nD) (w : Fin cfg1.W) (hin : (cfg1.win w).isOut = false) :
    W9 m ρ c (Proc.devRef .tc (Pipeline.arrRef spec1 w)) = W8 m ρ c (Proc.devRef .tc (Pipeline.arrRef spec1 w)) :=
  (W9_arr m ρ c w).trans (((dat1 (V8 m ρ) c).arrAt_in w hin _).trans (A_eq1 (V8 m ρ) c w))
/-- The same read at the TensorCore's references: region 1's exit contents. -/
abbrev V9 : (c : Dev nD) → (b : Ref sig .tc) → Buf (Elt F) ((c : Thread nD τ).loc b) := fun c b => W9 m ρ c b
/-- At region 1's exit each of its arrays holds what the pipeline leaves (`hF1`) and every other buffer what it held
    at entry (`hrest1`): the two hypotheses of `Pipeline.unscopedBufs_of_arrays`. -/
theorem hF1 (c : Dev nD) (w : Fin cfg1.W) : (dat1 (V8 m ρ) c).arrAt w cfg1.N = V9 m ρ c (Pipeline.arrRef spec1 w) :=
  (W9_arr m ρ c w).symm
theorem hrest1 (c : Dev nD) : ∀ b, b ∉ Finset.univ.image (Pipeline.arrRef spec1) → V9 m ρ c b = V8 m ρ c b :=
  fun b hb => W9_of_ne m ρ c b fun w e => hb (Finset.mem_image.mpr ⟨w, Finset.mem_univ _, e⟩)

/-- After item 9, the host stretch `hostOps2`. -/
abbrev W10 : Dev nD → Valuation τ sig (Elt F) := fun c => StableHlo.after hostOps2 (W9 m ρ c)
/-- A reference the stretch `hostOps2` does not write keeps its contents across item 9. -/
theorem W10_of (c : Dev nD) (r : Ref sig .tc) (h : r ∉ hostOps2_W) :
    W10 m ρ c (Proc.devRef .tc r) = W9 m ρ c (Proc.devRef .tc r) :=
  StableHlo.after_of_writes_sub hostOps2 _ hostOps2_writes h
/-- After item 10, the host stretch `hostOps2_1`. -/
abbrev W11 : Dev nD → Valuation τ sig (Elt F) := fun c => StableHlo.after hostOps2_1 (W10 m ρ c)
/-- A reference the stretch `hostOps2_1` does not write keeps its contents across item 10. -/
theorem W11_of (c : Dev nD) (r : Ref sig .tc) (h : r ∉ hostOps2_1_W) :
    W11 m ρ c (Proc.devRef .tc r) = W10 m ρ c (Proc.devRef .tc r) :=
  StableHlo.after_of_writes_sub hostOps2_1 _ hostOps2_1_writes h
/-- The same read at the TensorCore's references: region 2's entry contents. -/
abbrev V11 : (c : Dev nD) → (b : Ref sig .tc) → Buf (Elt F) ((c : Thread nD τ).loc b) := fun c b => W11 m ρ c b

/-- After item 11, region 2 (custom_call 2): its arrays at what the pipeline leaves (each input as entered, the
    output `main_v31` with every write-back folded in), every other buffer as entered. -/
def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
/-- An input window's array leaves region 2 as it entered: no write-back touches it. -/
theorem W12_in (c : Dev nD) (w : Fin cfg2.W) (hin : (cfg2.win w).isOut = false) :
    W12 m ρ c (Proc.devRef .tc (Pipeline.arrRef spec2 w)) = W11 m ρ c (Proc.devRef .tc (Pipeline.arrRef spec2 w)) :=
  (W12_arr m ρ c w).trans (((dat2 (V11 m ρ) c).arrAt_in w hin _).trans (A_eq2 (V11 m ρ) c w))
/-- The same read at the TensorCore's references: region 2's exit contents. -/
abbrev V12 : (c : Dev nD) → (b : Ref sig .tc) → Buf (Elt F) ((c : Thread nD τ).loc b) := fun c b => W12 m ρ c b
/-- At region 2's exit each of its arrays holds what the pipeline leaves (`hF2`) and every other buffer what it held
    at entry (`hrest2`): the two hypotheses of `Pipeline.unscopedBufs_of_arrays`. -/
theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)

/-- After item 12, the host stretch `hostOps3`. -/
abbrev W13 : Dev nD → Valuation τ sig (Elt F) := fun c => StableHlo.after hostOps3 (W12 m ρ c)
/-- A reference the stretch `hostOps3` does not write keeps its contents across item 12. -/
theorem W13_of (c : Dev nD) (r : Ref sig .tc) (h : r ∉ hostOps3_W) :
    W13 m ρ c (Proc.devRef .tc r) = W12 m ρ c (Proc.devRef .tc r) :=
  StableHlo.after_of_writes_sub hostOps3 _ hostOps3_writes h
/-- After item 13, the host stretch `hostOps3_1`. -/
abbrev W14 : Dev nD → Valuation τ sig (Elt F) := fun c => StableHlo.after hostOps3_1 (W13 m ρ c)
/-- A reference the stretch `hostOps3_1` does not write keeps its contents across item 13. -/
theorem W14_of (c : Dev nD) (r : Ref sig .tc) (h : r ∉ hostOps3_1_W) :
    W14 m ρ c (Proc.devRef .tc r) = W13 m ρ c (Proc.devRef .tc r) :=
  StableHlo.after_of_writes_sub hostOps3_1 _ hostOps3_1_writes h
/-- The same read at the TensorCore's references: region 3's entry contents. -/
abbrev V14 : (c : Dev nD) → (b : Ref sig .tc) → Buf (Elt F) ((c : Thread nD τ).loc b) := fun c b => W14 m ρ c b

/-- After item 14, region 3 (custom_call 3): its arrays at what the pipeline leaves (each input as entered, the
    output `main_v39` with every write-back folded in), every other buffer as entered. -/
def W15 (c : Dev nD) : Valuation τ sig (Elt F) :=
  Pipeline.withArrays spec3 c (W14 m ρ c) fun w => (dat3 (V14 m ρ) c).arrAt w cfg3.N
theorem W15_arr (c : Dev nD) (w : Fin cfg3.W) :
    W15 m ρ c (Proc.devRef .tc (Pipeline.arrRef spec3 w)) = (dat3 (V14 m ρ) c).arrAt w cfg3.N := by
  unfold W15; exact Pipeline.withArrays_arr spec3 launch3.win.arr_inj c _ _ w
theorem W15_of_ne (c : Dev nD) (b : Ref sig .tc) (hb : ∀ w, Pipeline.arrRef spec3 w ≠ b) :
    W15 m ρ c (Proc.devRef .tc b) = W14 m ρ c (Proc.devRef .tc b) := by
  unfold W15; exact Pipeline.withArrays_of_ne spec3 c _ _ b hb
/-- An input window's array leaves region 3 as it entered: no write-back touches it. -/
theorem W15_in (c : Dev nD) (w : Fin cfg3.W) (hin : (cfg3.win w).isOut = false) :
    W15 m ρ c (Proc.devRef .tc (Pipeline.arrRef spec3 w)) = W14 m ρ c (Proc.devRef .tc (Pipeline.arrRef spec3 w)) :=
  (W15_arr m ρ c w).trans (((dat3 (V14 m ρ) c).arrAt_in w hin _).trans (A_eq3 (V14 m ρ) c w))
/-- The same read at the TensorCore's references: region 3's exit contents. -/
abbrev V15 : (c : Dev nD) → (b : Ref sig .tc) → Buf (Elt F) ((c : Thread nD τ).loc b) := fun c b => W15 m ρ c b
/-- At region 3's exit each of its arrays holds what the pipeline leaves (`hF3`) and every other buffer what it held
    at entry (`hrest3`): the two hypotheses of `Pipeline.unscopedBufs_of_arrays`. -/
theorem hF3 (c : Dev nD) (w : Fin cfg3.W) : (dat3 (V14 m ρ) c).arrAt w cfg3.N = V15 m ρ c (Pipeline.arrRef spec3 w) :=
  (W15_arr m ρ c w).symm
theorem hrest3 (c : Dev nD) : ∀ b, b ∉ Finset.univ.image (Pipeline.arrRef spec3) → V15 m ρ c b = V14 m ρ c b :=
  fun b hb => W15_of_ne m ρ c b fun w e => hb (Finset.mem_image.mpr ⟨w, Finset.mem_univ _, e⟩)

/-- After item 15, the host stretch `hostOps4`. -/
abbrev W16 : Dev nD → Valuation τ sig (Elt F) := fun c => StableHlo.after hostOps4 (W15 m ρ c)
/-- A reference the stretch `hostOps4` does not write keeps its contents across item 15. -/
theorem W16_of (c : Dev nD) (r : Ref sig .tc) (h : r ∉ hostOps4_W) :
    W16 m ρ c (Proc.devRef .tc r) = W15 m ρ c (Proc.devRef .tc r) :=
  StableHlo.after_of_writes_sub hostOps4 _ hostOps4_writes h

/-! ## The arguments end as launched

No host operation writes an argument, and a region either reads it through an input window (whose array no write-back
touches) or bypasses it: the fold at an argument's buffer walks back through the 16 items to the launch memory. -/

theorem W16_main_arg0 (c : Dev nD) : W16 m ρ c (Proc.devRef .tc main_arg0) = m ((c : Thread nD τ).loc main_arg0) :=
  calc W16 m ρ c (Proc.devRef .tc main_arg0)
    _ = W15 m ρ c (Proc.devRef .tc main_arg0) := W16_of m ρ c main_arg0 (by decide)
    _ = W14 m ρ c (Proc.devRef .tc main_arg0) := W15_of_ne m ρ c main_arg0 (by decide)
    _ = W13 m ρ c (Proc.devRef .tc main_arg0) := W14_of m ρ c main_arg0 (by decide)
    _ = W12 m ρ c (Proc.devRef .tc main_arg0) := W13_of m ρ c main_arg0 (by decide)
    _ = W11 m ρ c (Proc.devRef .tc main_arg0) := W12_of_ne m ρ c main_arg0 (by decide)
    _ = W10 m ρ c (Proc.devRef .tc main_arg0) := W11_of m ρ c main_arg0 (by decide)
    _ = W9 m ρ c (Proc.devRef .tc main_arg0) := W10_of m ρ c main_arg0 (by decide)
    _ = W8 m ρ c (Proc.devRef .tc main_arg0) := W9_of_ne m ρ c main_arg0 (by decide)
    _ = W7 m ρ c (Proc.devRef .tc main_arg0) := W8_of m ρ c main_arg0 (by decide)
    _ = W6 m ρ c (Proc.devRef .tc main_arg0) := W7_of m ρ c main_arg0 (by decide)
    _ = W5 m ρ c (Proc.devRef .tc main_arg0) := W6_in m ρ c 0 rfl
    _ = W4 m ρ c (Proc.devRef .tc main_arg0) := W5_of m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := W2_of m ρ c main_arg0 (by decide)
    _ = W0 m ρ c (Proc.devRef .tc main_arg0) := W1_of m ρ c main_arg0 (by decide)
    _ = m ((c : Thread nD τ).loc main_arg0) := rfl

theorem W16_main_arg1 (c : Dev nD) : W16 m ρ c (Proc.devRef .tc main_arg1) = m ((c : Thread nD τ).loc main_arg1) :=
  calc W16 m ρ c (Proc.devRef .tc main_arg1)
    _ = W15 m ρ c (Proc.devRef .tc main_arg1) := W16_of m ρ c main_arg1 (by decide)
    _ = W14 m ρ c (Proc.devRef .tc main_arg1) := W15_of_ne m ρ c main_arg1 (by decide)
    _ = W13 m ρ c (Proc.devRef .tc main_arg1) := W14_of m ρ c main_arg1 (by decide)
    _ = W12 m ρ c (Proc.devRef .tc main_arg1) := W13_of m ρ c main_arg1 (by decide)
    _ = W11 m ρ c (Proc.devRef .tc main_arg1) := W12_of_ne m ρ c main_arg1 (by decide)
    _ = W10 m ρ c (Proc.devRef .tc main_arg1) := W11_of m ρ c main_arg1 (by decide)
    _ = W9 m ρ c (Proc.devRef .tc main_arg1) := W10_of m ρ c main_arg1 (by decide)
    _ = W8 m ρ c (Proc.devRef .tc main_arg1) := W9_in m ρ c 3 rfl
    _ = W7 m ρ c (Proc.devRef .tc main_arg1) := W8_of m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of m ρ c main_arg1 (by decide)
    _ = W2 m ρ c (Proc.devRef .tc main_arg1) := W3_of m ρ c main_arg1 (by decide)
    _ = W1 m ρ c (Proc.devRef .tc main_arg1) := W2_of m ρ c main_arg1 (by decide)
    _ = W0 m ρ c (Proc.devRef .tc main_arg1) := W1_of m ρ c main_arg1 (by decide)
    _ = m ((c : Thread nD τ).loc main_arg1) := rfl

theorem W16_main_arg2 (c : Dev nD) : W16 m ρ c (Proc.devRef .tc main_arg2) = m ((c : Thread nD τ).loc main_arg2) :=
  calc W16 m ρ c (Proc.devRef .tc main_arg2)
    _ = W15 m ρ c (Proc.devRef .tc main_arg2) := W16_of m ρ c main_arg2 (by decide)
    _ = W14 m ρ c (Proc.devRef .tc main_arg2) := W15_of_ne m ρ c main_arg2 (by decide)
    _ = W13 m ρ c (Proc.devRef .tc main_arg2) := W14_of m ρ c main_arg2 (by decide)
    _ = W12 m ρ c (Proc.devRef .tc main_arg2) := W13_of m ρ c main_arg2 (by decide)
    _ = W11 m ρ c (Proc.devRef .tc main_arg2) := W12_of_ne m ρ c main_arg2 (by decide)
    _ = W10 m ρ c (Proc.devRef .tc main_arg2) := W11_of m ρ c main_arg2 (by decide)
    _ = W9 m ρ c (Proc.devRef .tc main_arg2) := W10_of m ρ c main_arg2 (by decide)
    _ = W8 m ρ c (Proc.devRef .tc main_arg2) := W9_of_ne m ρ c main_arg2 (by decide)
    _ = W7 m ρ c (Proc.devRef .tc main_arg2) := W8_of m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of m ρ c main_arg2 (by decide)
    _ = W2 m ρ c (Proc.devRef .tc main_arg2) := W3_of m ρ c main_arg2 (by decide)
    _ = W1 m ρ c (Proc.devRef .tc main_arg2) := W2_of m ρ c main_arg2 (by decide)
    _ = W0 m ρ c (Proc.devRef .tc main_arg2) := W1_of m ρ c main_arg2 (by decide)
    _ = m ((c : Thread nD τ).loc main_arg2) := rfl

theorem W16_main_arg3 (c : Dev nD) : W16 m ρ c (Proc.devRef .tc main_arg3) = m ((c : Thread nD τ).loc main_arg3) :=
  calc W16 m ρ c (Proc.devRef .tc main_arg3)
    _ = W15 m ρ c (Proc.devRef .tc main_arg3) := W16_of m ρ c main_arg3 (by decide)
    _ = W14 m ρ c (Proc.devRef .tc main_arg3) := W15_of_ne m ρ c main_arg3 (by decide)
    _ = W13 m ρ c (Proc.devRef .tc main_arg3) := W14_of m ρ c main_arg3 (by decide)
    _ = W12 m ρ c (Proc.devRef .tc main_arg3) := W13_of m ρ c main_arg3 (by decide)
    _ = W11 m ρ c (Proc.devRef .tc main_arg3) := W12_in m ρ c 3 rfl
    _ = W10 m ρ c (Proc.devRef .tc main_arg3) := W11_of m ρ c main_arg3 (by decide)
    _ = W9 m ρ c (Proc.devRef .tc main_arg3) := W10_of m ρ c main_arg3 (by decide)
    _ = W8 m ρ c (Proc.devRef .tc main_arg3) := W9_of_ne m ρ c main_arg3 (by decide)
    _ = W7 m ρ c (Proc.devRef .tc main_arg3) := W8_of m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of m ρ c main_arg3 (by decide)
    _ = W2 m ρ c (Proc.devRef .tc main_arg3) := W3_of m ρ c main_arg3 (by decide)
    _ = W1 m ρ c (Proc.devRef .tc main_arg3) := W2_of m ρ c main_arg3 (by decide)
    _ = W0 m ρ c (Proc.devRef .tc main_arg3) := W1_of m ρ c main_arg3 (by decide)
    _ = m ((c : Thread nD τ).loc main_arg3) := rfl

theorem W16_main_arg4 (c : Dev nD) : W16 m ρ c (Proc.devRef .tc main_arg4) = m ((c : Thread nD τ).loc main_arg4) :=
  calc W16 m ρ c (Proc.devRef .tc main_arg4)
    _ = W15 m ρ c (Proc.devRef .tc main_arg4) := W16_of m ρ c main_arg4 (by decide)
    _ = W14 m ρ c (Proc.devRef .tc main_arg4) := W15_of_ne m ρ c main_arg4 (by decide)
    _ = W13 m ρ c (Proc.devRef .tc main_arg4) := W14_of m ρ c main_arg4 (by decide)
    _ = W12 m ρ c (Proc.devRef .tc main_arg4) := W13_of m ρ c main_arg4 (by decide)
    _ = W11 m ρ c (Proc.devRef .tc main_arg4) := W12_of_ne m ρ c main_arg4 (by decide)
    _ = W10 m ρ c (Proc.devRef .tc main_arg4) := W11_of m ρ c main_arg4 (by decide)
    _ = W9 m ρ c (Proc.devRef .tc main_arg4) := W10_of m ρ c main_arg4 (by decide)
    _ = W8 m ρ c (Proc.devRef .tc main_arg4) := W9_of_ne m ρ c main_arg4 (by decide)
    _ = W7 m ρ c (Proc.devRef .tc main_arg4) := W8_of m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of m ρ c main_arg4 (by decide)
    _ = W2 m ρ c (Proc.devRef .tc main_arg4) := W3_of m ρ c main_arg4 (by decide)
    _ = W1 m ρ c (Proc.devRef .tc main_arg4) := W2_of m ρ c main_arg4 (by decide)
    _ = W0 m ρ c (Proc.devRef .tc main_arg4) := W1_of m ρ c main_arg4 (by decide)
    _ = m ((c : Thread nD τ).loc main_arg4) := rfl

theorem W16_main_arg5 (c : Dev nD) : W16 m ρ c (Proc.devRef .tc main_arg5) = m ((c : Thread nD τ).loc main_arg5) :=
  calc W16 m ρ c (Proc.devRef .tc main_arg5)
    _ = W15 m ρ c (Proc.devRef .tc main_arg5) := W16_of m ρ c main_arg5 (by decide)
    _ = W14 m ρ c (Proc.devRef .tc main_arg5) := W15_in m ρ c 2 rfl
    _ = W13 m ρ c (Proc.devRef .tc main_arg5) := W14_of m ρ c main_arg5 (by decide)
    _ = W12 m ρ c (Proc.devRef .tc main_arg5) := W13_of m ρ c main_arg5 (by decide)
    _ = W11 m ρ c (Proc.devRef .tc main_arg5) := W12_of_ne m ρ c main_arg5 (by decide)
    _ = W10 m ρ c (Proc.devRef .tc main_arg5) := W11_of m ρ c main_arg5 (by decide)
    _ = W9 m ρ c (Proc.devRef .tc main_arg5) := W10_of m ρ c main_arg5 (by decide)
    _ = W8 m ρ c (Proc.devRef .tc main_arg5) := W9_of_ne m ρ c main_arg5 (by decide)
    _ = W7 m ρ c (Proc.devRef .tc main_arg5) := W8_of m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of m ρ c main_arg5 (by decide)
    _ = W2 m ρ c (Proc.devRef .tc main_arg5) := W3_of m ρ c main_arg5 (by decide)
    _ = W1 m ρ c (Proc.devRef .tc main_arg5) := W2_of m ρ c main_arg5 (by decide)
    _ = W0 m ρ c (Proc.devRef .tc main_arg5) := W1_of m ρ c main_arg5 (by decide)
    _ = m ((c : Thread nD τ).loc main_arg5) := rfl

theorem W16_main_arg6 (c : Dev nD) : W16 m ρ c (Proc.devRef .tc main_arg6) = m ((c : Thread nD τ).loc main_arg6) :=
  calc W16 m ρ c (Proc.devRef .tc main_arg6)
    _ = W15 m ρ c (Proc.devRef .tc main_arg6) := W16_of m ρ c main_arg6 (by decide)
    _ = W14 m ρ c (Proc.devRef .tc main_arg6) := W15_of_ne m ρ c main_arg6 (by decide)
    _ = W13 m ρ c (Proc.devRef .tc main_arg6) := W14_of m ρ c main_arg6 (by decide)
    _ = W12 m ρ c (Proc.devRef .tc main_arg6) := W13_of m ρ c main_arg6 (by decide)
    _ = W11 m ρ c (Proc.devRef .tc main_arg6) := W12_of_ne m ρ c main_arg6 (by decide)
    _ = W10 m ρ c (Proc.devRef .tc main_arg6) := W11_of m ρ c main_arg6 (by decide)
    _ = W9 m ρ c (Proc.devRef .tc main_arg6) := W10_of m ρ c main_arg6 (by decide)
    _ = W8 m ρ c (Proc.devRef .tc main_arg6) := W9_of_ne m ρ c main_arg6 (by decide)
    _ = W7 m ρ c (Proc.devRef .tc main_arg6) := W8_of m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of m ρ c main_arg6 (by decide)
    _ = W2 m ρ c (Proc.devRef .tc main_arg6) := W3_of m ρ c main_arg6 (by decide)
    _ = W1 m ρ c (Proc.devRef .tc main_arg6) := W2_of m ρ c main_arg6 (by decide)
    _ = W0 m ρ c (Proc.devRef .tc main_arg6) := W1_of m ρ c main_arg6 (by decide)
    _ = m ((c : Thread nD τ).loc main_arg6) := rfl

theorem W16_main_arg7 (c : Dev nD) : W16 m ρ c (Proc.devRef .tc main_arg7) = m ((c : Thread nD τ).loc main_arg7) :=
  calc W16 m ρ c (Proc.devRef .tc main_arg7)
    _ = W15 m ρ c (Proc.devRef .tc main_arg7) := W16_of m ρ c main_arg7 (by decide)
    _ = W14 m ρ c (Proc.devRef .tc main_arg7) := W15_in m ρ c 4 rfl
    _ = W13 m ρ c (Proc.devRef .tc main_arg7) := W14_of m ρ c main_arg7 (by decide)
    _ = W12 m ρ c (Proc.devRef .tc main_arg7) := W13_of m ρ c main_arg7 (by decide)
    _ = W11 m ρ c (Proc.devRef .tc main_arg7) := W12_of_ne m ρ c main_arg7 (by decide)
    _ = W10 m ρ c (Proc.devRef .tc main_arg7) := W11_of m ρ c main_arg7 (by decide)
    _ = W9 m ρ c (Proc.devRef .tc main_arg7) := W10_of m ρ c main_arg7 (by decide)
    _ = W8 m ρ c (Proc.devRef .tc main_arg7) := W9_of_ne m ρ c main_arg7 (by decide)
    _ = W7 m ρ c (Proc.devRef .tc main_arg7) := W8_of m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of m ρ c main_arg7 (by decide)
    _ = W2 m ρ c (Proc.devRef .tc main_arg7) := W3_of m ρ c main_arg7 (by decide)
    _ = W1 m ρ c (Proc.devRef .tc main_arg7) := W2_of m ρ c main_arg7 (by decide)
    _ = W0 m ρ c (Proc.devRef .tc main_arg7) := W1_of m ρ c main_arg7 (by decide)
    _ = m ((c : Thread nD τ).loc main_arg7) := rfl

theorem W16_main_arg8 (c : Dev nD) : W16 m ρ c (Proc.devRef .tc main_arg8) = m ((c : Thread nD τ).loc main_arg8) :=
  calc W16 m ρ c (Proc.devRef .tc main_arg8)
    _ = W15 m ρ c (Proc.devRef .tc main_arg8) := W16_of m ρ c main_arg8 (by decide)
    _ = W14 m ρ c (Proc.devRef .tc main_arg8) := W15_of_ne m ρ c main_arg8 (by decide)
    _ = W13 m ρ c (Proc.devRef .tc main_arg8) := W14_of m ρ c main_arg8 (by decide)
    _ = W12 m ρ c (Proc.devRef .tc main_arg8) := W13_of m ρ c main_arg8 (by decide)
    _ = W11 m ρ c (Proc.devRef .tc main_arg8) := W12_of_ne m ρ c main_arg8 (by decide)
    _ = W10 m ρ c (Proc.devRef .tc main_arg8) := W11_of m ρ c main_arg8 (by decide)
    _ = W9 m ρ c (Proc.devRef .tc main_arg8) := W10_of m ρ c main_arg8 (by decide)
    _ = W8 m ρ c (Proc.devRef .tc main_arg8) := W9_of_ne m ρ c main_arg8 (by decide)
    _ = W7 m ρ c (Proc.devRef .tc main_arg8) := W8_of m ρ c main_arg8 (by decide)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of m ρ c main_arg8 (by decide)
    _ = W2 m ρ c (Proc.devRef .tc main_arg8) := W3_of m ρ c main_arg8 (by decide)
    _ = W1 m ρ c (Proc.devRef .tc main_arg8) := W2_of m ρ c main_arg8 (by decide)
    _ = W0 m ρ c (Proc.devRef .tc main_arg8) := W1_of m ρ c main_arg8 (by decide)
    _ = m ((c : Thread nD τ).loc main_arg8) := rfl

theorem W16_main_arg9 (c : Dev nD) : W16 m ρ c (Proc.devRef .tc main_arg9) = m ((c : Thread nD τ).loc main_arg9) :=
  calc W16 m ρ c (Proc.devRef .tc main_arg9)
    _ = W15 m ρ c (Proc.devRef .tc main_arg9) := W16_of m ρ c main_arg9 (by decide)
    _ = W14 m ρ c (Proc.devRef .tc main_arg9) := W15_in m ρ c 6 rfl
    _ = W13 m ρ c (Proc.devRef .tc main_arg9) := W14_of m ρ c main_arg9 (by decide)
    _ = W12 m ρ c (Proc.devRef .tc main_arg9) := W13_of m ρ c main_arg9 (by decide)
    _ = W11 m ρ c (Proc.devRef .tc main_arg9) := W12_of_ne m ρ c main_arg9 (by decide)
    _ = W10 m ρ c (Proc.devRef .tc main_arg9) := W11_of m ρ c main_arg9 (by decide)
    _ = W9 m ρ c (Proc.devRef .tc main_arg9) := W10_of m ρ c main_arg9 (by decide)
    _ = W8 m ρ c (Proc.devRef .tc main_arg9) := W9_of_ne m ρ c main_arg9 (by decide)
    _ = W7 m ρ c (Proc.devRef .tc main_arg9) := W8_of m ρ c main_arg9 (by decide)
    _ = W6 m ρ c (Proc.devRef .tc main_arg9) := W7_of m ρ c main_arg9 (by decide)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of m ρ c main_arg9 (by decide)
    _ = W2 m ρ c (Proc.devRef .tc main_arg9) := W3_of m ρ c main_arg9 (by decide)
    _ = W1 m ρ c (Proc.devRef .tc main_arg9) := W2_of m ρ c main_arg9 (by decide)
    _ = W0 m ρ c (Proc.devRef .tc main_arg9) := W1_of m ρ c main_arg9 (by decide)
    _ = m ((c : Thread nD τ).loc main_arg9) := rfl

theorem W16_main_arg10 (c : Dev nD) : W16 m ρ c (Proc.devRef .tc main_arg10) = m ((c : Thread nD τ).loc main_arg10) :=
  calc W16 m ρ c (Proc.devRef .tc main_arg10)
    _ = W15 m ρ c (Proc.devRef .tc main_arg10) := W16_of m ρ c main_arg10 (by decide)
    _ = W14 m ρ c (Proc.devRef .tc main_arg10) := W15_of_ne m ρ c main_arg10 (by decide)
    _ = W13 m ρ c (Proc.devRef .tc main_arg10) := W14_of m ρ c main_arg10 (by decide)
    _ = W12 m ρ c (Proc.devRef .tc main_arg10) := W13_of m ρ c main_arg10 (by decide)
    _ = W11 m ρ c (Proc.devRef .tc main_arg10) := W12_of_ne m ρ c main_arg10 (by decide)
    _ = W10 m ρ c (Proc.devRef .tc main_arg10) := W11_of m ρ c main_arg10 (by decide)
    _ = W9 m ρ c (Proc.devRef .tc main_arg10) := W10_of m ρ c main_arg10 (by decide)
    _ = W8 m ρ c (Proc.devRef .tc main_arg10) := W9_of_ne m ρ c main_arg10 (by decide)
    _ = W7 m ρ c (Proc.devRef .tc main_arg10) := W8_of m ρ c main_arg10 (by decide)
    _ = W6 m ρ c (Proc.devRef .tc main_arg10) := W7_of m ρ c main_arg10 (by decide)
    _ = W5 m ρ c (Proc.devRef .tc main_arg10) := W6_of_ne m ρ c main_arg10 (by decide)
    _ = W4 m ρ c (Proc.devRef .tc main_arg10) := W5_of m ρ c main_arg10 (by decide)
    _ = W3 m ρ c (Proc.devRef .tc main_arg10) := W4_of m ρ c main_arg10 (by decide)
    _ = W2 m ρ c (Proc.devRef .tc main_arg10) := W3_of m ρ c main_arg10 (by decide)
    _ = W1 m ρ c (Proc.devRef .tc main_arg10) := W2_of m ρ c main_arg10 (by decide)
    _ = W0 m ρ c (Proc.devRef .tc main_arg10) := W1_of m ρ c main_arg10 (by decide)
    _ = m ((c : Thread nD τ).loc main_arg10) := rfl

theorem W16_main_arg11 (c : Dev nD) : W16 m ρ c (Proc.devRef .tc main_arg11) = m ((c : Thread nD τ).loc main_arg11) :=
  calc W16 m ρ c (Proc.devRef .tc main_arg11)
    _ = W15 m ρ c (Proc.devRef .tc main_arg11) := W16_of m ρ c main_arg11 (by decide)
    _ = W14 m ρ c (Proc.devRef .tc main_arg11) := W15_of_ne m ρ c main_arg11 (by decide)
    _ = W13 m ρ c (Proc.devRef .tc main_arg11) := W14_of m ρ c main_arg11 (by decide)
    _ = W12 m ρ c (Proc.devRef .tc main_arg11) := W13_of m ρ c main_arg11 (by decide)
    _ = W11 m ρ c (Proc.devRef .tc main_arg11) := W12_of_ne m ρ c main_arg11 (by decide)
    _ = W10 m ρ c (Proc.devRef .tc main_arg11) := W11_of m ρ c main_arg11 (by decide)
    _ = W9 m ρ c (Proc.devRef .tc main_arg11) := W10_of m ρ c main_arg11 (by decide)
    _ = W8 m ρ c (Proc.devRef .tc main_arg11) := W9_of_ne m ρ c main_arg11 (by decide)
    _ = W7 m ρ c (Proc.devRef .tc main_arg11) := W8_of m ρ c main_arg11 (by decide)
    _ = W6 m ρ c (Proc.devRef .tc main_arg11) := W7_of m ρ c main_arg11 (by decide)
    _ = W5 m ρ c (Proc.devRef .tc main_arg11) := W6_of_ne m ρ c main_arg11 (by decide)
    _ = W4 m ρ c (Proc.devRef .tc main_arg11) := W5_of m ρ c main_arg11 (by decide)
    _ = W3 m ρ c (Proc.devRef .tc main_arg11) := W4_of m ρ c main_arg11 (by decide)
    _ = W2 m ρ c (Proc.devRef .tc main_arg11) := W3_of m ρ c main_arg11 (by decide)
    _ = W1 m ρ c (Proc.devRef .tc main_arg11) := W2_of m ρ c main_arg11 (by decide)
    _ = W0 m ρ c (Proc.devRef .tc main_arg11) := W1_of m ρ c main_arg11 (by decide)
    _ = m ((c : Thread nD τ).loc main_arg11) := rfl

end Cert.Kernel.Hand

end
-- ==== Proof.KIReg0.lean ====
import proofs.«408152_j74947179315796_1_alg».proof.Proof.Gen.KernelIdeal.Launch
import proofs.«408152_j74947179315796_1_alg».proof.Proof.Gen.KernelIdeal.Skeleton
import proofs.«408152_j74947179315796_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows (`View.cover_of_tiled`) recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0: `cc0__scale_kernel`, out = x * (s broadcast along the columns), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (x, a 5000×128 row block): its current staging buffer holds its block at every point, for any
    proof data whose array is `V`'s (`hA`) and whose body leaves the block in place (`hafter`); the window is
    uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (s, a 5000×1 row block): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r0_0 : Rect S5000x128 := Rect.unit (s := S5000x128) ![0, 0] S5000x128.size inb_S5000x128_S5000x128_0_0
abbrev r0_1 : Rect S5000x1 := Rect.unit (s := S5000x1) ![0, 0] S5000x1.size inb_S5000x1_S5000x1_0_0

/-! ## What the body leaves in the output window's buffer -/

/-- Window 2's staging buffer after the body, from the input windows' blocks: its one store, of the product
    x * broadcast s, over the whole buffer. -/
def out0_2 (x0 : Vec F S5000x128 .f32) (x1 : Vec F S5000x1 .f32) : Vec F S5000x128 .f32 :=
  View.canon [⟨r0_0, k0_pay1 (View.ld x0 r0_0) (View.ld x1 r0_1)⟩]

/-- The store is over the whole buffer, so it covers it. -/
theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the inputs' at read contents `x0`, `x1` and the output's at anything
    (the body loads it before the store and drops the value), runs to the continuation holding the inputs' as they
    were and the output's at `out0_2` of the inputs'. -/
theorem sound_kernel0 (c : Dev nD) (E : Set ℕ) (i : grid0.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point
    `t` each input's buffer at its block and the output's at `out0_2` of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIReg1.lean ====
import proofs.«408152_j74947179315796_1_alg».proof.Proof.Gen.KernelIdeal.Launch
import proofs.«408152_j74947179315796_1_alg».proof.Proof.Gen.KernelIdeal.Skeleton
import proofs.«408152_j74947179315796_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows (`View.cover_of_tiled`) recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1: `cc1__layer_kernel`, out = max((agg * nd) W + b, 0) * ns (nd, ns broadcast along the columns, b along the
    rows), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (agg, a 5000-row block): its current staging buffer holds its block at every point, fetched there
    or not, for any proof data whose array is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (nd, a 5000×1 row block): its current staging buffer holds its block at every point, fetched there
    or not, for any proof data whose array is `V`'s (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 (ns, a 5000×1 row block): its current staging buffer holds its block at every point, fetched there
    or not, for any proof data whose array is `V`'s (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 (W, the whole matrix, the same block at every point): its current staging buffer holds its block at every point, fetched there
    or not, for any proof data whose array is `V`'s (`hA`) and whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 (b, the whole row, the same block at every point): its current staging buffer holds its block at every point, fetched there
    or not, for any proof data whose array is `V`'s (`hA`) and whose body leaves the block in place (`hafter`). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev r1_0 : Rect S5000x128 := Rect.unit (s := S5000x128) ![0, 0] S5000x128.size inb_S5000x128_S5000x128_0_0
abbrev r1_1 : Rect S5000x1 := Rect.unit (s := S5000x1) ![0, 0] S5000x1.size inb_S5000x1_S5000x1_0_0
abbrev r1_2 : Rect S128x64 := Rect.unit (s := S128x64) ![0, 0] S128x64.size inb_S128x64_S128x64_0_0
abbrev r1_3 : Rect S1x64 := Rect.unit (s := S1x64) ![0, 0] S1x64.size inb_S1x64_S1x64_0_0
abbrev r1_4 : Rect S5000x64 := Rect.unit (s := S5000x64) ![0, 0] S5000x64.size inb_S5000x64_S5000x64_0_0

/-! ## What the body leaves in the output window's buffer -/

/-- Window 5's staging buffer after the body, from the input windows' blocks (in window order: agg, nd, ns, W, b):
    its one store over the whole buffer. The payload takes them in the order the body loads them: agg, nd, W, b, ns. -/
def out1_5 (x0 : Vec F S5000x128 .f32) (x1 : Vec F S5000x1 .f32) (x2 : Vec F S5000x1 .f32) (x3 : Vec F S128x64 .f32) (x4 : Vec F S1x64 .f32) : Vec F S5000x64 .f32 :=
  View.canon [⟨r1_4, k1_pay1 (View.ld x0 r1_0) (View.ld x1 r1_1) (View.ld x3 r1_2) (View.ld x4 r1_3) (View.ld x2 r1_1)⟩]

/-- The store is over the whole buffer, so it covers it. -/
theorem cover1_5 (p0 : Vec F S5000x64 .f32) (y : S5000x64.Idx) :
    ∃ pc ∈ ([⟨r1_4, p0⟩] : List (View.Piece (Elt F) S5000x64 .f32)), y ∈ pc.1.set :=
  View.cover_of_tiled [⟨r1_4, p0⟩] S5000x64.size (by rfl) y

/-! ## The body's triple -/

set_option maxHeartbeats 1000000 in
/-- The kernel body on whole staging memrefs, the inputs' at read contents `x0 … x4` and the output's at anything (the
    body loads it before the store and drops the value), runs to the continuation holding the inputs' as they were
    and the output's at `out1_5` of the inputs'. -/
theorem sound_kernel1 (c : Dev nD) (E : Set ℕ) (i : grid1.Coords) (arg1 : Memref sig .tc .vmem S5000x128 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x128 .f32) (x1 : Vec F S5000x1 .f32) (x2 : Vec F S5000x1 .f32) (x3 : Vec F S128x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__layer_kernel i arg1 harg1 arg2 harg2 arg3 harg3 arg4 harg4 arg5 harg5 arg6 harg6) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at point
    `t` each input's buffer at its block and the output's at `out1_5` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIReg2.lean ====
import proofs.«408152_j74947179315796_1_alg».proof.Proof.Gen.KernelIdeal.Launch
import proofs.«408152_j74947179315796_1_alg».proof.Proof.Gen.KernelIdeal.Skeleton
import proofs.«408152_j74947179315796_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows (`View.cover_of_tiled`) recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2: `cc2__layer_kernel`, out = max((agg * nd) W + b, 0) * ns (nd, ns broadcast along the columns, b along the
    rows), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (agg, a 5000-row block): its current staging buffer holds its block at every point, fetched there
    or not, for any proof data whose array is `V`'s (`hA`) and whose body leaves the block in place (`hafter`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 (nd, a 5000×1 row block): its current staging buffer holds its block at every point, fetched there
    or not, for any proof data whose array is `V`'s (`hA`) and whose body leaves the block in place (`hafter`). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2 (ns, a 5000×1 row block): its current staging buffer holds its block at every point, fetched there
    or not, for any proof data whose array is `V`'s (`hA`) and whose body leaves the block in place (`hafter`). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3 (W, the whole matrix, the same block at every point): its current staging buffer holds its block at every point, fetched there
    or not, for any proof data whose array is `V`'s (`hA`) and whose body leaves the block in place (`hafter`). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4 (b, the whole row, the same block at every point): its current staging buffer holds its block at every point, fetched there
    or not, for any proof data whose array is `V`'s (`hA`) and whose body leaves the block in place (`hafter`). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer whole -/

abbrev r2_0 : Rect S5000x64 := Rect.unit (s := S5000x64) ![0, 0] S5000x64.size inb_S5000x64_S5000x64_0_0
abbrev r2_1 : Rect S5000x1 := Rect.unit (s := S5000x1) ![0, 0] S5000x1.size inb_S5000x1_S5000x1_0_0
abbrev r2_2 : Rect S64x64 := Rect.unit (s := S64x64) ![0, 0] S64x64.size inb_S64x64_S64x64_0_0
abbrev r2_3 : Rect S1x64 := Rect.unit (s := S1x64) ![0, 0] S1x64.size inb_S1x64_S1x64_0_0
abbrev r2_4 : Rect S5000x64 := Rect.unit (s := S5000x64) ![0, 0] S5000x64.size inb_S5000x64_S5000x64_0_0

/-! ## What the body leaves in the output window's buffer -/

/-- Window 5's staging buffer after the body, from the input windows' blocks (in window order: agg, nd, ns, W, b):
    its one store over the whole buffer. The payload takes them in the order the body loads them: agg, nd, W, b, ns. -/
def out2_5 (x0 : Vec F S5000x64 .f32) (x1 : Vec F S5000x1 .f32) (x2 : Vec F S5000x1 .f32) (x3 : Vec F S64x64 .f32) (x4 : Vec F S1x64 .f32) : Vec F S5000x64 .f32 :=
  View.canon [⟨r2_4, k2_pay1 (View.ld x0 r2_0) (View.ld x1 r2_1) (View.ld x3 r2_2) (View.ld x4 r2_3) (View.ld x2 r2_1)⟩]

/-- The store is over the whole buffer, so it covers it. -/
theorem cover2_5 (p0 : Vec F S5000x64 .f32) (y : S5000x64.Idx) :
    ∃ pc ∈ ([⟨r2_4, p0⟩] : List (View.Piece (Elt F) S5000x64 .f32)), y ∈ pc.1.set :=
  View.cover_of_tiled [⟨r2_4, p0⟩] S5000x64.size (by rfl) y

/-! ## The body's triple -/

set_option maxHeartbeats 1000000 in
/-- The kernel body on whole staging memrefs, the inputs' at read contents `x0 … x4` and the output's at anything (the
    body loads it before the store and drops the value), runs to the continuation holding the inputs' as they were
    and the output's at `out2_5` of the inputs'. -/
theorem sound_kernel2 (c : Dev nD) (E : Set ℕ) (i : grid2.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S5000x1 .f32) (x2 : Vec F S5000x1 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__layer_kernel i arg1 harg1 arg2 harg2 arg3 harg3 arg4 harg4 arg5 harg5 arg6 harg6) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at point
    `t` each input's buffer at its block and the output's at `out2_5` of the input blocks; the invariant is the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIReg3.lean ====
import proofs.«408152_j74947179315796_1_alg».proof.Proof.Gen.KernelIdeal.Launch
import proofs.«408152_j74947179315796_1_alg».proof.Proof.Gen.KernelIdeal.Skeleton
import proofs.«408152_j74947179315796_1_alg».proof.Proof.Gen.KernelIdeal.Points
import Idealize.ShloMosaic.Lib.Pipeline.FrameBody
import Idealize.ShloMosaic.Lib.Pipeline.Value
import Idealize.ShloMosaic.Lib.Tactic

/-! # Region 3 (`cc3__final_kernel`) at a parameter `V` of region-entry contents

The kernel carries a scratch accumulator `[1,64]` across its 10 grid points: point 0 zeroes it, every point adds the
column sums of `max((agg * nd) @ W3 + b3, 0)` of its block of rows, and point 9 alone computes the output
`logistic(max((acc * inv_50000) @ Wf1 + bf1, 0) @ Wf2 + bf2)` from the finished sum and stores it into window 8.
Three control cases: A (point 0), B (points 1–8), C (point 9). -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What the output window and the scratch hold after each point -/

/-- THE ACCUMULATION. After the body at position `n`: the scratch holds the column sums of this point's block added to
    what the point before left (to zero at point 0); window 8's staging buffer is named at the head's value of that
    sum (the kernel stores it at point 9 only; at the other points the window is idle and this component is not
    consulted). -/
def outsAt3 (c : Dev nD) : (n : ℕ) → n < cfg3.N → Vec F S1x1 .f32 × Vec F S1x64 .f32
  | 0, h =>
    (k3_pay3 (k3_pay2 (iblk3 V c 0 ⟨0, h⟩) (iblk3 V c 1 ⟨0, h⟩) (iblk3 V c 2 ⟨0, h⟩) (iblk3 V c 3 ⟨0, h⟩) k3_pay1)
        (iblk3 V c 4 ⟨0, h⟩) (iblk3 V c 5 ⟨0, h⟩) (iblk3 V c 6 ⟨0, h⟩) (iblk3 V c 7 ⟨0, h⟩),
      k3_pay2 (iblk3 V c 0 ⟨0, h⟩) (iblk3 V c 1 ⟨0, h⟩) (iblk3 V c 2 ⟨0, h⟩) (iblk3 V c 3 ⟨0, h⟩) k3_pay1)
  | n + 1, h =>
    (k3_pay3 (k3_pay2 (iblk3 V c 0 ⟨n + 1, h⟩) (iblk3 V c 1 ⟨n + 1, h⟩) (iblk3 V c 2 ⟨n + 1, h⟩) (iblk3 V c 3 ⟨n + 1, h⟩) (outsAt3 c n (Nat.lt_of_succ_lt h)).2)
        (iblk3 V c 4 ⟨n + 1, h⟩) (iblk3 V c 5 ⟨n + 1, h⟩) (iblk3 V c 6 ⟨n + 1, h⟩) (iblk3 V c 7 ⟨n + 1, h⟩),
      k3_pay2 (iblk3 V c 0 ⟨n + 1, h⟩) (iblk3 V c 1 ⟨n + 1, h⟩) (iblk3 V c 2 ⟨n + 1, h⟩) (iblk3 V c 3 ⟨n + 1, h⟩) (outsAt3 c n (Nat.lt_of_succ_lt h)).2)

/-- The scratch after point 0: the first block's column sums over zero. -/
theorem acc3_zero (c : Dev nD) (h : 0 < cfg3.N) :
    (outsAt3 V c 0 h).2 = k3_pay2 (iblk3 V c 0 ⟨0, h⟩) (iblk3 V c 1 ⟨0, h⟩) (iblk3 V c 2 ⟨0, h⟩) (iblk3 V c 3 ⟨0, h⟩) k3_pay1 := by
  rw [outsAt3]

/-- The scratch after point `n + 1`: that block's column sums over what point `n` left. -/
theorem acc3_succ (c : Dev nD) (n : ℕ) (h : n + 1 < cfg3.N) :
    (outsAt3 V c (n + 1) h).2 = k3_pay2 (iblk3 V c 0 ⟨n + 1, h⟩) (iblk3 V c 1 ⟨n + 1, h⟩) (iblk3 V c 2 ⟨n + 1, h⟩) (iblk3 V c 3 ⟨n + 1, h⟩) (outsAt3 V c n (Nat.lt_of_succ_lt h)).2 := by
  rw [outsAt3]

/-- The output after point 9: the head applied to the finished sum. -/
theorem out3_last (c : Dev nD) (h : 9 < cfg3.N) :
    (outsAt3 V c 9 h).1 = k3_pay3 (outsAt3 V c 9 h).2 (iblk3 V c 4 ⟨9, h⟩) (iblk3 V c 5 ⟨9, h⟩) (iblk3 V c 6 ⟨9, h⟩) (iblk3 V c 7 ⟨9, h⟩) := by
  rw [outsAt3]

/-! ## The carried scratch and the region invariant -/

/-- The scratch operand: a whole scoped buffer of the kernel's own, passed beside the windows. -/
abbrev scM3 : Memref sig .tc .vmem S1x64 .f32 := Memref.whole cc3_scratch0

/-- The region invariant before position `n`: before the first point the class's (every scoped buffer that is no
    staging buffer at anything, the generator register at some state); afterwards the same with the carried scratch
    at what the point before left in it (`outsAt3`'s second component). -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2)
      ∗ Pipeline.scopedRestBut (Ix := Unit) (Name := ℕ) (U := UR sig nD τ) (Lvl := ℕ) (Val := Elt F) spec3 c [cc3_scratch0]) ∗ (∃ r, prngReg c r))

/-! ## The pipeline's proof data -/

/-- The proof data of pipeline 3 on core `c`: the arrays as the region finds them (`V`); after the body at point `t`
    each input's buffer at its block and window 8's at `outsAt3`'s first component; the invariant `PhiS3`; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = (outsAt3 V c t.val t.isLt).1 := by dsimp only [dat3]

/-! ## The body's branch conditions -/

/-- The condition of the body's first `scf.if` (is this the first grid point?), from the grid coordinates. -/
abbrev cond3_0 (i : grid3.Coords) : Prop := (Scalar.cmpi .ne (Scalar.extui (Scalar.cmpi .eq (BitVec.ofNat 32 (i 0).val) 0#32)) 0#32) = 1#1
/-- The condition of the body's second `scf.if` (is this the last grid point?). -/
abbrev cond3_1 (i : grid3.Coords) : Prop := k3_cond2 i = 1#1

/-- The zero offsets of every whole-buffer access of the body. -/
theorem hz2 : (![0, 0] : Fin 2 → Nat) = fun _ => 0 := by funext a; fin_cases a <;> rfl

/-- A store through the whole scratch `[1,64]`, last, covers it whatever came before; -/
theorem cover3_s (p : Vec F S1x64 .f32) (L : List (View.Piece (Elt F) S1x64 .f32)) (y : S1x64.Idx) :
    ∃ pc ∈ ((⟨Rect.unit (s := S1x64) ![0, 0] S1x64.size inb_S1x64_S1x64_0_0, p⟩ : View.Piece (Elt F) S1x64 .f32) :: L), y ∈ pc.1.set :=
  ⟨_, List.mem_cons.mpr (Or.inl rfl), View.mem_set_unit_zero hz2 inb_S1x64_S1x64_0_0 y⟩
/-- and one through the whole output block `[1,1]` covers that. -/
theorem cover3_o (p : Vec F S1x1 .f32) (L : List (View.Piece (Elt F) S1x1 .f32)) (y : S1x1.Idx) :
    ∃ pc ∈ ((⟨Rect.unit (s := S1x1) ![0, 0] S1x1.size inb_S1x1_S1x1_0_0, p⟩ : View.Piece (Elt F) S1x1 .f32) :: L), y ∈ pc.1.set :=
  ⟨_, List.mem_cons.mpr (Or.inl rfl), View.mem_set_unit_zero hz2 inb_S1x1_S1x1_0_0 y⟩

/-- The first conditional holds at point 0 only — decided over the grid. -/
theorem hcond3_0 : ∀ t : Fin cfg3.N, cond3_0 (grid3.coords t) ↔ t.val = 0 :=
  (by decide +kernel : ∀ t : Fin grid3.N, cond3_0 (grid3.coords t) ↔ t.val = 0)
/-- The second conditional holds at point 9 only — decided over the grid. -/
theorem hcond3_1 : ∀ t : Fin cfg3.N, cond3_1 (grid3.coords t) ↔ t.val = 9 :=
  (by decide +kernel : ∀ t : Fin grid3.N, cond3_1 (grid3.coords t) ↔ t.val = 9)

/-! ## Where window 8 is idle -/

/-- Where the second conditional fails the configuration calls output window 8 idle: the body stores nothing into it, -/
theorem idleAt3_8 : ∀ t : Fin cfg3.N, ¬cond3_1 (grid3.coords t) → cfg3.idle 8 (grid3.coords t) = true := by decide +kernel
/-- and the pipeline does not write its block back there. -/
theorem noFlush3_8 : ∀ t : Fin cfg3.N, ¬cond3_1 (grid3.coords t) → (cfg3.win 8).flush t = false := by decide +kernel
/-- Where it holds the window is live: the body stores into it. -/
theorem liveAt3_8 : ∀ t : Fin cfg3.N, cond3_1 (grid3.coords t) → cfg3.idle 8 (grid3.coords t) = false := by decide +kernel

/-! ## The kernel body on any whole staging memrefs, case by case

The printed function is its skeleton; each conditional is decided by the case's hypotheses; what a store through a
whole buffer leaves reads back as its payload, and a load through a whole buffer reads the buffer's contents. -/

set_option maxHeartbeats 1000000 in
/-- CASE A (the first conditional taken, the second not: point 0). On whole staging memrefs, the four inputs the
    accumulation reads at contents `x0 … x3` and the scratch at anything, the body runs to the continuation holding the
    inputs as they were and the scratch at this block's column sums added to zero: the scratch is zeroed first, and the
    accumulation reads the zeros back. -/
theorem sound_kernel3_A (c : Dev nD) (E : Set ℕ) (i : grid3.Coords) (arg1 : Memref sig .tc .vmem S5000x64 .f32) (harg1 : arg1.IsWhole) (arg2 : Memref sig .tc .vmem S5000x1 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S32x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x64 .f32) (harg10 : arg10.IsWhole)
    (hc0 : cond3_0 i) (hc1 : ¬cond3_1 i)
    (x0 : Vec F S5000x64 .f32) (x1 : Vec F S5000x1 .f32) (x2 : Vec F S64x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg10 fullShare (k3_pay2 x0 x1 x2 x3 k3_pay1)) -∗ K ⟨⟩))
      ⊢ wp frame (wpE (defs₀ (F := F)) Variants.none c none) E (cc3__final_kernel i arg1 harg1 arg2 harg2 arg3 harg3 arg4 harg4 arg5 harg5 arg6 harg6 arg7 harg7 arg8 harg8 arg9 harg9 arg10 harg10) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0 hf1 hf2 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (cover3_s _ _),
    View.canon_cons_unit_zero (S := S1x64) hz2]
  simp only [View.readAt_eq_ld, View.readCov_unit_zero (S := S1x64) _ hz2, View.ld_unit_zero (S := S5000x64) hz2, View.ld_unit_zero (S := S5000x1) hz2, View.ld_unit_zero (S := S64x64) hz2, View.ld_unit_zero (S := S1x64) hz2, View.ld_unit_zero (S := S64x32) hz2, View.ld_unit_zero (S := S1x32) hz2, View.ld_unit_zero (S := S32x1) hz2, View.ld_unit_zero (S := S1x1) hz2]

set_option maxHeartbeats 1000000 in
/-- CASE B (neither conditional taken: points 1–8). On whole staging memrefs, the four inputs the accumulation reads
    at contents `x0 … x3` and the scratch at `xs`, the body runs to the continuation holding the inputs as they were
    and the scratch at this block's column sums added to `xs`. -/
theorem sound_kernel3_B (c : Dev nD) (E : Set ℕ) (i : grid3.Coords) (arg1 : Memref sig .tc .vmem S5000x64 .f32) (harg1 : arg1.IsWhole) (arg2 : Memref sig .tc .vmem S5000x1 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S32x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x64 .f32) (harg10 : arg10.IsWhole)
    (hc0 : ¬cond3_0 i) (hc1 : ¬cond3_1 i)
    (x0 : Vec F S5000x64 .f32) (x1 : Vec F S5000x1 .f32) (x2 : Vec F S64x64 .f32) (x3 : Vec F S1x64 .f32) (xs : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg10 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg10 fullShare (k3_pay2 x0 x1 x2 x3 xs)) -∗ K ⟨⟩))
      ⊢ wp frame (wpE (defs₀ (F := F)) Variants.none c none) E (cc3__final_kernel i arg1 harg1 arg2 harg2 arg3 harg3 arg4 harg4 arg5 harg5 arg6 harg6 arg7 harg7 arg8 harg8 arg9 harg9 arg10 harg10) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (cover3_s _ _),
    View.canon_unit_zero (S := S1x64) hz2]
  simp only [View.readAt_eq_ld, View.ld_unit_zero (S := S5000x64) hz2, View.ld_unit_zero (S := S5000x1) hz2, View.ld_unit_zero (S := S64x64) hz2, View.ld_unit_zero (S := S1x64) hz2, View.ld_unit_zero (S := S64x32) hz2, View.ld_unit_zero (S := S1x32) hz2, View.ld_unit_zero (S := S32x1) hz2, View.ld_unit_zero (S := S1x1) hz2]

set_option maxHeartbeats 1000000 in
/-- CASE C (the first conditional not taken, the second taken: point 9). On whole staging memrefs, all eight inputs
    at contents `x0 … x7`, the output's at anything and the scratch at `xs`, the body runs to the continuation holding
    the inputs as they were, the scratch at this block's column sums added to `xs`, and the output's buffer at the
    head's value of that finished sum (the scratch is read back after the accumulation's store). -/
theorem sound_kernel3_C (c : Dev nD) (E : Set ℕ) (i : grid3.Coords) (arg1 : Memref sig .tc .vmem S5000x64 .f32) (harg1 : arg1.IsWhole) (arg2 : Memref sig .tc .vmem S5000x1 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S32x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x64 .f32) (harg10 : arg10.IsWhole)
    (hc0 : ¬cond3_0 i) (hc1 : cond3_1 i)
    (x0 : Vec F S5000x64 .f32) (x1 : Vec F S5000x1 .f32) (x2 : Vec F S64x64 .f32) (x3 : Vec F S1x64 .f32)
    (x4 : Vec F S64x32 .f32) (x5 : Vec F S1x32 .f32) (x6 : Vec F S32x1 .f32) (x7 : Vec F S1x1 .f32) (xs : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ owns (c : Thread nD τ) arg10 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (k3_pay3 (k3_pay2 x0 x1 x2 x3 xs) x4 x5 x6 x7) ∗ owns (c : Thread nD τ) arg10 fullShare (k3_pay2 x0 x1 x2 x3 xs)) -∗ K ⟨⟩))
      ⊢ wp frame (wpE (defs₀ (F := F)) Variants.none c none) E (cc3__final_kernel i arg1 harg1 arg2 harg2 arg3 harg3 arg4 harg4 arg5 harg5 arg6 harg6 arg7 harg7 arg8 harg8 arg9 harg9 arg10 harg10) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
  subst hf0 hf1 hf2 hf3 hf4 hf5 hf6 hf7 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [View.read_writes_eq_canon _ _ _ (cover3_o _ _),
      View.canon_unit_zero (S := S1x1) hz2]
    simp only [View.readAt_eq_ld, View.readCov_unit_zero (S := S1x64) _ hz2, View.ld_unit_zero (S := S5000x64) hz2, View.ld_unit_zero (S := S5000x1) hz2, View.ld_unit_zero (S := S64x64) hz2, View.ld_unit_zero (S := S1x64) hz2, View.ld_unit_zero (S := S64x32) hz2, View.ld_unit_zero (S := S1x32) hz2, View.ld_unit_zero (S := S32x1) hz2, View.ld_unit_zero (S := S1x1) hz2]
  iexists _; isplitr
  swap; · iexact HS
  ipureintro
  sl_unfold_words
  rw [View.read_writes_eq_canon _ _ _ (cover3_s _ _),
    View.canon_unit_zero (S := S1x64) hz2]
  simp only [View.readAt_eq_ld, View.ld_unit_zero (S := S5000x64) hz2, View.ld_unit_zero (S := S5000x1) hz2, View.ld_unit_zero (S := S64x64) hz2, View.ld_unit_zero (S := S1x64) hz2, View.ld_unit_zero (S := S64x32) hz2, View.ld_unit_zero (S := S1x32) hz2, View.ld_unit_zero (S := S32x1) hz2, View.ld_unit_zero (S := S1x1) hz2]

/-- The class invariant with the scratch operand as a memref owned at some contents, beside the other scoped buffers
    (unopened) and the generator register: what the body obligation hands the body at the first point. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

theorem PhiS3_zero (c : Dev nD) (n : ℕ) (h : n ≤ cfg3.N) (hz : n = 0) : PhiS3 V c n h = Pipeline.ΦA spec3 c := by
  subst hz; rfl

/-- After point `n` (before point `n + 1`): the carried scratch at that point's contents. -/
theorem PhiS3_succ (c : Dev nD) (n : ℕ) (hn : n < cfg3.N) :
    PhiS3 V c (n + 1) hn = iprop(iprop(owns (c : Thread nD τ) scM3 fullShare ((outsAt3 V c n hn).2)
      ∗ Pipeline.scopedRestBut (Ix := Unit) (Name := ℕ) (U := UR sig nD τ) (Lvl := ℕ) (Val := Elt F) spec3 c [cc3_scratch0]) ∗ (∃ r, prngReg c r)) := rfl

/-- Before a point that is not the first: the carried scratch at what the point before left. -/
theorem PhiS3_pos (c : Dev nD) (n : ℕ) (h : n ≤ cfg3.N) (hz : n ≠ 0) :
    PhiS3 V c n h = iprop(iprop(owns (c : Thread nD τ) scM3 fullShare ((outsAt3 V c (n - 1) (by omega)).2)
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The invariant at a point's start (the proof data at `t.castSucc`), restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- Each input's current staging buffer holds its block at every point, fetched there or not: an input window whose
    body leaves its block in place holds what a fetch there would put in it (unfetched, the block index has not moved). -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl) (fun t => by rw [after3_6]; unfold Dat.blockOf iblk3; rw [A_eq3]; try rfl) t d).trans
    (by unfold Dat.fetched Dat.blockOf iblk3; rw [A_eq3]; try rfl)
theorem before3_7 (c : Dev nD) (t : Fin cfg3.N) (d) : (dat3 V c).before 7 t d = iblk3 V c 7 t :=
  ((dat3 V c).before_in_eq_fetched 7 rfl (fun _ => rfl) (fun _ _ _ => rfl) (fun t => by rw [after3_7]; unfold Dat.blockOf iblk3; rw [A_eq3]; try rfl) t d).trans
    (by unfold Dat.fetched Dat.blockOf iblk3; rw [A_eq3]; try rfl)

/-! ## The body obligation, at a generic point -/

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t)

/-- An input window is never idle: the body leaves its buffer at the block. -/
theorem leaves3_0 (c : Dev nD) (t : Fin cfg3.N) :
    (dat3 V c).leavesExact 0 t = owns (c : Thread nD τ) (st3_0 t) fullShare (iblk3 V c 0 t) := by
  rw [← after3_0]
theorem leaves3_1 (c : Dev nD) (t : Fin cfg3.N) :
    (dat3 V c).leavesExact 1 t = owns (c : Thread nD τ) (st3_1 t) fullShare (iblk3 V c 1 t) := by
  rw [← after3_1]
theorem leaves3_2 (c : Dev nD) (t : Fin cfg3.N) :
    (dat3 V c).leavesExact 2 t = owns (c : Thread nD τ) (st3_2 t) fullShare (iblk3 V c 2 t) := by
  rw [← after3_2]
theorem leaves3_3 (c : Dev nD) (t : Fin cfg3.N) :
    (dat3 V c).leavesExact 3 t = owns (c : Thread nD τ) (st3_3 t) fullShare (iblk3 V c 3 t) := by
  rw [← after3_3]
theorem leaves3_4 (c : Dev nD) (t : Fin cfg3.N) :
    (dat3 V c).leavesExact 4 t = owns (c : Thread nD τ) (st3_4 t) fullShare (iblk3 V c 4 t) := by
  rw [← after3_4]
theorem leaves3_5 (c : Dev nD) (t : Fin cfg3.N) :
    (dat3 V c).leavesExact 5 t = owns (c : Thread nD τ) (st3_5 t) fullShare (iblk3 V c 5 t) := by
  rw [← after3_5]
theorem leaves3_6 (c : Dev nD) (t : Fin cfg3.N) :
    (dat3 V c).leavesExact 6 t = owns (c : Thread nD τ) (st3_6 t) fullShare (iblk3 V c 6 t) := by
  rw [← after3_6]
theorem leaves3_7 (c : Dev nD) (t : Fin cfg3.N) :
    (dat3 V c).leavesExact 7 t = owns (c : Thread nD τ) (st3_7 t) fullShare (iblk3 V c 7 t) := by
  rw [← after3_7]

set_option maxHeartbeats 4800000 in
/-- The body at any point. The inputs' memrefs hold their blocks (`before3_w`); the closed forms of the conditions
    say which case the point is in; the invariant hands the body the carried scratch at what the point before left
    (at anything at the first point), and takes it back at this point's contents; window 8 is handed back untouched
    where it is idle (points 0–8) and at the head's value at point 9; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3, leaves3_4, leaves3_5, leaves3_6, leaves3_7]
  have hN : t.val < 10 := lt_of_lt_of_eq t.isLt (show cfg3.N = 10 from N_3)
  by_cases h0 : t.val = 0
  · -- case A: point 0
    have h1 : ¬ t.val = 9 := by omega
    have hc0 : cond3_0 (grid3.coords t) := (hcond3_0 t).mpr h0
    have hc1 : ¬ cond3_1 (grid3.coords t) := fun h => h1 ((hcond3_1 t).mp h)
    rw [Dat.leavesExact_idle (dat3 V c) 8 t (idleAt3_8 t hc1) (noFlush3_8 t hc1)]
    rw [PhiS3_castSucc V c t, PhiS3_zero V c _ _ h0, PhiA3_eq]
    obtain ⟨n, hn⟩ := t
    obtain rfl : n = 0 := h0
    rw [acc3_zero]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel3_A c Set.univ _ _ _ _ _ _ _ _ _ _ _ _ _ _ _ _ _ _ _ _ _ hc0 hc1 (iblk3 V c 0 _) (iblk3 V c 1 _) (iblk3 V c 2 _) (iblk3 V c 3 _) _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · by_cases h1 : t.val = 9
    · -- case C: point 9
      have hc0 : ¬ cond3_0 (grid3.coords t) := fun h => h0 ((hcond3_0 t).mp h)
      have hc1 : cond3_1 (grid3.coords t) := (hcond3_1 t).mpr h1
      rw [show (dat3 V c).leavesExact 8 t = owns (c : Thread nD τ) (st3_8 t) fullShare ((dat3 V c).after 8 t) from by
        unfold Dat.leavesExact; rw [liveAt3_8 t hc1], after3_8]
      rw [PhiS3_castSucc V c t, PhiS3_pos V c _ _ h0]
      obtain ⟨n, hn⟩ := t
      obtain rfl : n = 9 := h1
      rw [out3_last, acc3_succ]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel3_C c Set.univ _ _ _ _ _ _ _ _ _ _ _ _ _ _ _ _ _ _ _ _ _ hc0 hc1 (iblk3 V c 0 _) (iblk3 V c 1 _) (iblk3 V c 2 _) (iblk3 V c 3 _) (iblk3 V c 4 _) (iblk3 V c 5 _) (iblk3 V c 6 _) (iblk3 V c 7 _) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, H8, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · -- case B: points 1–8
      have hc0 : ¬ cond3_0 (grid3.coords t) := fun h => h0 ((hcond3_0 t).mp h)
      have hc1 : ¬ cond3_1 (grid3.coords t) := fun h => h1 ((hcond3_1 t).mp h)
      rw [Dat.leavesExact_idle (dat3 V c) 8 t (idleAt3_8 t hc1) (noFlush3_8 t hc1)]
      rw [PhiS3_castSucc V c t, PhiS3_pos V c _ _ h0]
      obtain ⟨n, hn⟩ := t
      have h0' : n ≠ 0 := h0
      obtain ⟨k, rfl⟩ : ∃ k, n = k + 1 := ⟨n - 1, by omega⟩
      rw [acc3_succ]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel3_B c Set.univ _ _ _ _ _ _ _ _ _ _ _ _ _ _ _ _ _ _ _ _ _ hc0 hc1 (iblk3 V c 0 _) (iblk3 V c 1 _) (iblk3 V c 2 _) (iblk3 V c 3 _) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region (`ΦA`) is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives `ΦA` back: the carried scratch's named contents are forgotten. -/
theorem Phi3_out (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, Hr⟩, Hg⟩
  isplitl [HS Hr]
  · isplitl [HS]
    · iexists _; iexact HS
    iexact Hr
  iexact Hg

/-- The same after the last point. -/
theorem hout3 (c : Dev nD) : (dat3 V c).Φ (Fin.last cfg3.N) ⊢ Pipeline.ΦA spec3 c :=
  Phi3_out V c _ (by rw [Fin.val_last]; have : cfg3.N = 10 := N_3; omega)

end Cert.KernelIdeal.Hand

end
-- ==== Proof.KIChain.lean ====
import proofs.«408152_j74947179315796_1_alg».proof.Proof.KIReg0
import proofs.«408152_j74947179315796_1_alg».proof.Proof.KIReg1
import proofs.«408152_j74947179315796_1_alg».proof.Proof.KIReg2
import proofs.«408152_j74947179315796_1_alg».proof.Proof.KIReg3
import proofs.«408152_j74947179315796_1_alg».proof.Proof.Gen.KernelIdeal.Regions
import Idealize.ShloMosaic.Lib.Pipeline.FrameSuffix
import Idealize.ShloMosaic.Lib.Pipeline.Cells
import Idealize.ShloMosaic.Lib.StableHlo.Run

-- membership of a reference in a stretch's list of written references is decided over the program's 171 references
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! # The buffer contents at each boundary of @main's 16 items: a fold from the launch memory

`W j` is what core `c`'s buffers hold after item `j − 1`: a host stretch rewrites the buffers its operations write
(`StableHlo.after`); a kernel region leaves its windows' arrays at what its write-backs fold to (`Dat.arrAt … N`: an
input array as entered, the output array block by block) and every other buffer as entered (`Pipeline.withArrays`).
`V j` is the same read at the TensorCore's references: what a region's proof data take as entry contents. -/

/-- Core `c`'s buffers at launch. -/
abbrev W0 : Dev nD → Valuation τ sig (Elt F) := fun c b => (s₀ m ρ).mem ((c : Dev nD), b)
/-- After item 0, the host stretch `hostOps0`. -/
abbrev W1 : Dev nD → Valuation τ sig (Elt F) := fun c => StableHlo.after hostOps0 (W0 m ρ c)
/-- A reference the stretch `hostOps0` does not write keeps its contents across item 0. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- After item 1, the host stretch `hostOps0_1`. -/
abbrev W2 : Dev nD → Valuation τ sig (Elt F) := fun c => StableHlo.after hostOps0_1 (W1 m ρ c)
/-- A reference the stretch `hostOps0_1` does not write keeps its contents across item 1. -/
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
/-- After item 2, the host stretch `hostOps0_2`. -/
abbrev W3 : Dev nD → Valuation τ sig (Elt F) := fun c => StableHlo.after hostOps0_2 (W2 m ρ c)
/-- A reference the stretch `hostOps0_2` does not write keeps its contents across item 2. -/
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
/-- After item 3, the host stretch `hostOps0_3`. -/
abbrev W4 : Dev nD → Valuation τ sig (Elt F) := fun c => StableHlo.after hostOps0_3 (W3 m ρ c)
/-- A reference the stretch `hostOps0_3` does not write keeps its contents across item 3. -/
theorem W4_of (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h
/-- After item 4, the host stretch `hostOps0_4`. -/
abbrev W5 : Dev nD → Valuation τ sig (Elt F) := fun c => StableHlo.after hostOps0_4 (W4 m ρ c)
/-- A reference the stretch `hostOps0_4` does not write keeps its contents across item 4. -/
theorem W5_of (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h
/-- The same read at the TensorCore's references: region 0's entry contents. -/
abbrev V5 : (c : Dev nD) → (b : Ref sig .tc) → Buf (Elt F) ((c : Thread nD τ).loc b) := fun c b => W5 m ρ c b

/-- After item 5, region 0 (custom_call 0): its arrays at what the pipeline leaves (each input as entered, the
    output `main_v19` with every write-back folded in), every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- An input window's array leaves region 0 as it entered: no write-back touches it. -/
theorem W6_in (c : Dev nD) (w : Fin cfg0.W) (hin : (cfg0.win w).isOut = false) :
    W6 m ρ c (Proc.devRef .tc (Pipeline.arrRef spec0 w)) = W5 m ρ c (Proc.devRef .tc (Pipeline.arrRef spec0 w)) :=
  (W6_arr m ρ c w).trans (((dat0 (V5 m ρ) c).arrAt_in w hin _).trans (A_eq0 (V5 m ρ) c w))
/-- The same read at the TensorCore's references: region 0's exit contents. -/
abbrev V6 : (c : Dev nD) → (b : Ref sig .tc) → Buf (Elt F) ((c : Thread nD τ).loc b) := fun c b => W6 m ρ c b
/-- At region 0's exit each of its arrays holds what the pipeline leaves (`hF0`) and every other buffer what it held
    at entry (`hrest0`): the two hypotheses of `Pipeline.unscopedBufs_of_arrays`. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After item 6, the host stretch `hostOps1`. -/
abbrev W7 : Dev nD → Valuation τ sig (Elt F) := fun c => StableHlo.after hostOps1 (W6 m ρ c)
/-- A reference the stretch `hostOps1` does not write keeps its contents across item 6. -/
theorem W7_of (c : Dev nD) (r : Ref sig .tc) (h : r ∉ hostOps1_W) :
    W7 m ρ c (Proc.devRef .tc r) = W6 m ρ c (Proc.devRef .tc r) :=
  StableHlo.after_of_writes_sub hostOps1 _ hostOps1_writes h
/-- After item 7, the host stretch `hostOps1_1`. -/
abbrev W8 : Dev nD → Valuation τ sig (Elt F) := fun c => StableHlo.after hostOps1_1 (W7 m ρ c)
/-- A reference the stretch `hostOps1_1` does not write keeps its contents across item 7. -/
theorem W8_of (c : Dev nD) (r : Ref sig .tc) (h : r ∉ hostOps1_1_W) :
    W8 m ρ c (Proc.devRef .tc r) = W7 m ρ c (Proc.devRef .tc r) :=
  StableHlo.after_of_writes_sub hostOps1_1 _ hostOps1_1_writes h
/-- The same read at the TensorCore's references: region 1's entry contents. -/
abbrev V8 : (c : Dev nD) → (b : Ref sig .tc) → Buf (Elt F) ((c : Thread nD τ).loc b) := fun c b => W8 m ρ c b

/-- After item 8, region 1 (custom_call 1): its arrays at what the pipeline leaves (each input as entered, the
    output `main_v25` with every write-back folded in), every other buffer as entered. -/
def W9 (c : Dev nD) : Valuation τ sig (Elt F) :=
  Pipeline.withArrays spec1 c (W8 m ρ c) fun w => (dat1 (V8 m ρ) c).arrAt w cfg1.N
theorem W9_arr (c : Dev nD) (w : Fin cfg1.W) :
    W9 m ρ c (Proc.devRef .tc (Pipeline.arrRef spec1 w)) = (dat1 (V8 m ρ) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb
/-- An input window's array leaves region 1 as it entered: no write-back touches it. -/
theorem W9_in (c : Dev nD) (w : Fin cfg1.W) (hin : (cfg1.win w).isOut = false) :
    W9 m ρ c (Proc.devRef .tc (Pipeline.arrRef spec1 w)) = W8 m ρ c (Proc.devRef .tc (Pipeline.arrRef spec1 w)) :=
  (W9_arr m ρ c w).trans (((dat1 (V8 m ρ) c).arrAt_in w hin _).trans (A_eq1 (V8 m ρ) c w))
/-- The same read at the TensorCore's references: region 1's exit contents. -/
abbrev V9 : (c : Dev nD) → (b : Ref sig .tc) → Buf (Elt F) ((c : Thread nD τ).loc b) := fun c b => W9 m ρ c b
/-- At region 1's exit each of its arrays holds what the pipeline leaves (`hF1`) and every other buffer what it held
    at entry (`hrest1`): the two hypotheses of `Pipeline.unscopedBufs_of_arrays`. -/
theorem hF1 (c : Dev nD) (w : Fin cfg1.W) : (dat1 (V8 m ρ) c).arrAt w cfg1.N = V9 m ρ c (Pipeline.arrRef spec1 w) :=
  (W9_arr m ρ c w).symm
theorem hrest1 (c : Dev nD) : ∀ b, b ∉ Finset.univ.image (Pipeline.arrRef spec1) → V9 m ρ c b = V8 m ρ c b :=
  fun b hb => W9_of_ne m ρ c b fun w e => hb (Finset.mem_image.mpr ⟨w, Finset.mem_univ _, e⟩)

/-- After item 9, the host stretch `hostOps2`. -/
abbrev W10 : Dev nD → Valuation τ sig (Elt F) := fun c => StableHlo.after hostOps2 (W9 m ρ c)
/-- A reference the stretch `hostOps2` does not write keeps its contents across item 9. -/
theorem W10_of (c : Dev nD) (r : Ref sig .tc) (h : r ∉ hostOps2_W) :
    W10 m ρ c (Proc.devRef .tc r) = W9 m ρ c (Proc.devRef .tc r) :=
  StableHlo.after_of_writes_sub hostOps2 _ hostOps2_writes h
/-- After item 10, the host stretch `hostOps2_1`. -/
abbrev W11 : Dev nD → Valuation τ sig (Elt F) := fun c => StableHlo.after hostOps2_1 (W10 m ρ c)
/-- A reference the stretch `hostOps2_1` does not write keeps its contents across item 10. -/
theorem W11_of (c : Dev nD) (r : Ref sig .tc) (h : r ∉ hostOps2_1_W) :
    W11 m ρ c (Proc.devRef .tc r) = W10 m ρ c (Proc.devRef .tc r) :=
  StableHlo.after_of_writes_sub hostOps2_1 _ hostOps2_1_writes h
/-- The same read at the TensorCore's references: region 2's entry contents. -/
abbrev V11 : (c : Dev nD) → (b : Ref sig .tc) → Buf (Elt F) ((c : Thread nD τ).loc b) := fun c b => W11 m ρ c b

/-- After item 11, region 2 (custom_call 2): its arrays at what the pipeline leaves (each input as entered, the
    output `main_v31` with every write-back folded in), every other buffer as entered. -/
def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
/-- An input window's array leaves region 2 as it entered: no write-back touches it. -/
theorem W12_in (c : Dev nD) (w : Fin cfg2.W) (hin : (cfg2.win w).isOut = false) :
    W12 m ρ c (Proc.devRef .tc (Pipeline.arrRef spec2 w)) = W11 m ρ c (Proc.devRef .tc (Pipeline.arrRef spec2 w)) :=
  (W12_arr m ρ c w).trans (((dat2 (V11 m ρ) c).arrAt_in w hin _).trans (A_eq2 (V11 m ρ) c w))
/-- The same read at the TensorCore's references: region 2's exit contents. -/
abbrev V12 : (c : Dev nD) → (b : Ref sig .tc) → Buf (Elt F) ((c : Thread nD τ).loc b) := fun c b => W12 m ρ c b
/-- At region 2's exit each of its arrays holds what the pipeline leaves (`hF2`) and every other buffer what it held
    at entry (`hrest2`): the two hypotheses of `Pipeline.unscopedBufs_of_arrays`. -/
theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)

/-- After item 12, the host stretch `hostOps3`. -/
abbrev W13 : Dev nD → Valuation τ sig (Elt F) := fun c => StableHlo.after hostOps3 (W12 m ρ c)
/-- A reference the stretch `hostOps3` does not write keeps its contents across item 12. -/
theorem W13_of (c : Dev nD) (r : Ref sig .tc) (h : r ∉ hostOps3_W) :
    W13 m ρ c (Proc.devRef .tc r) = W12 m ρ c (Proc.devRef .tc r) :=
  StableHlo.after_of_writes_sub hostOps3 _ hostOps3_writes h
/-- After item 13, the host stretch `hostOps3_1`. -/
abbrev W14 : Dev nD → Valuation τ sig (Elt F) := fun c => StableHlo.after hostOps3_1 (W13 m ρ c)
/-- A reference the stretch `hostOps3_1` does not write keeps its contents across item 13. -/
theorem W14_of (c : Dev nD) (r : Ref sig .tc) (h : r ∉ hostOps3_1_W) :
    W14 m ρ c (Proc.devRef .tc r) = W13 m ρ c (Proc.devRef .tc r) :=
  StableHlo.after_of_writes_sub hostOps3_1 _ hostOps3_1_writes h
/-- The same read at the TensorCore's references: region 3's entry contents. -/
abbrev V14 : (c : Dev nD) → (b : Ref sig .tc) → Buf (Elt F) ((c : Thread nD τ).loc b) := fun c b => W14 m ρ c b

/-- After item 14, region 3 (custom_call 3): its arrays at what the pipeline leaves (each input as entered, the
    output `main_v39` with every write-back folded in), every other buffer as entered. -/
def W15 (c : Dev nD) : Valuation τ sig (Elt F) :=
  Pipeline.withArrays spec3 c (W14 m ρ c) fun w => (dat3 (V14 m ρ) c).arrAt w cfg3.N
theorem W15_arr (c : Dev nD) (w : Fin cfg3.W) :
    W15 m ρ c (Proc.devRef .tc (Pipeline.arrRef spec3 w)) = (dat3 (V14 m ρ) c).arrAt w cfg3.N := by
  unfold W15; exact Pipeline.withArrays_arr spec3 launch3.win.arr_inj c _ _ w
theorem W15_of_ne (c : Dev nD) (b : Ref sig .tc) (hb : ∀ w, Pipeline.arrRef spec3 w ≠ b) :
    W15 m ρ c (Proc.devRef .tc b) = W14 m ρ c (Proc.devRef .tc b) := by
  unfold W15; exact Pipeline.withArrays_of_ne spec3 c _ _ b hb
/-- An input window's array leaves region 3 as it entered: no write-back touches it. -/
theorem W15_in (c : Dev nD) (w : Fin cfg3.W) (hin : (cfg3.win w).isOut = false) :
    W15 m ρ c (Proc.devRef .tc (Pipeline.arrRef spec3 w)) = W14 m ρ c (Proc.devRef .tc (Pipeline.arrRef spec3 w)) :=
  (W15_arr m ρ c w).trans (((dat3 (V14 m ρ) c).arrAt_in w hin _).trans (A_eq3 (V14 m ρ) c w))
/-- The same read at the TensorCore's references: region 3's exit contents. -/
abbrev V15 : (c : Dev nD) → (b : Ref sig .tc) → Buf (Elt F) ((c : Thread nD τ).loc b) := fun c b => W15 m ρ c b
/-- At region 3's exit each of its arrays holds what the pipeline leaves (`hF3`) and every other buffer what it held
    at entry (`hrest3`): the two hypotheses of `Pipeline.unscopedBufs_of_arrays`. -/
theorem hF3 (c : Dev nD) (w : Fin cfg3.W) : (dat3 (V14 m ρ) c).arrAt w cfg3.N = V15 m ρ c (Pipeline.arrRef spec3 w) :=
  (W15_arr m ρ c w).symm
theorem hrest3 (c : Dev nD) : ∀ b, b ∉ Finset.univ.image (Pipeline.arrRef spec3) → V15 m ρ c b = V14 m ρ c b :=
  fun b hb => W15_of_ne m ρ c b fun w e => hb (Finset.mem_image.mpr ⟨w, Finset.mem_univ _, e⟩)

/-- After item 15, the host stretch `hostOps4`. -/
abbrev W16 : Dev nD → Valuation τ sig (Elt F) := fun c => StableHlo.after hostOps4 (W15 m ρ c)
/-- A reference the stretch `hostOps4` does not write keeps its contents across item 15. -/
theorem W16_of (c : Dev nD) (r : Ref sig .tc) (h : r ∉ hostOps4_W) :
    W16 m ρ c (Proc.devRef .tc r) = W15 m ρ c (Proc.devRef .tc r) :=
  StableHlo.after_of_writes_sub hostOps4 _ hostOps4_writes h

/-! ## The arguments end as launched

No host operation writes an argument, and a region either reads it through an input window (whose array no write-back
touches) or bypasses it: the fold at an argument's buffer walks back through the 16 items to the launch memory. -/

theorem W16_main_arg0 (c : Dev nD) : W16 m ρ c (Proc.devRef .tc main_arg0) = m ((c : Thread nD τ).loc main_arg0) :=
  calc W16 m ρ c (Proc.devRef .tc main_arg0)
    _ = W15 m ρ c (Proc.devRef .tc main_arg0) := W16_of m ρ c main_arg0 (by decide)
    _ = W14 m ρ c (Proc.devRef .tc main_arg0) := W15_of_ne m ρ c main_arg0 (by decide)
    _ = W13 m ρ c (Proc.devRef .tc main_arg0) := W14_of m ρ c main_arg0 (by decide)
    _ = W12 m ρ c (Proc.devRef .tc main_arg0) := W13_of m ρ c main_arg0 (by decide)
    _ = W11 m ρ c (Proc.devRef .tc main_arg0) := W12_of_ne m ρ c main_arg0 (by decide)
    _ = W10 m ρ c (Proc.devRef .tc main_arg0) := W11_of m ρ c main_arg0 (by decide)
    _ = W9 m ρ c (Proc.devRef .tc main_arg0) := W10_of m ρ c main_arg0 (by decide)
    _ = W8 m ρ c (Proc.devRef .tc main_arg0) := W9_of_ne m ρ c main_arg0 (by decide)
    _ = W7 m ρ c (Proc.devRef .tc main_arg0) := W8_of m ρ c main_arg0 (by decide)
    _ = W6 m ρ c (Proc.devRef .tc main_arg0) := W7_of m ρ c main_arg0 (by decide)
    _ = W5 m ρ c (Proc.devRef .tc main_arg0) := W6_in m ρ c 0 rfl
    _ = W4 m ρ c (Proc.devRef .tc main_arg0) := W5_of m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := W2_of m ρ c main_arg0 (by decide)
    _ = W0 m ρ c (Proc.devRef .tc main_arg0) := W1_of m ρ c main_arg0 (by decide)
    _ = m ((c : Thread nD τ).loc main_arg0) := rfl

theorem W16_main_arg1 (c : Dev nD) : W16 m ρ c (Proc.devRef .tc main_arg1) = m ((c : Thread nD τ).loc main_arg1) :=
  calc W16 m ρ c (Proc.devRef .tc main_arg1)
    _ = W15 m ρ c (Proc.devRef .tc main_arg1) := W16_of m ρ c main_arg1 (by decide)
    _ = W14 m ρ c (Proc.devRef .tc main_arg1) := W15_of_ne m ρ c main_arg1 (by decide)
    _ = W13 m ρ c (Proc.devRef .tc main_arg1) := W14_of m ρ c main_arg1 (by decide)
    _ = W12 m ρ c (Proc.devRef .tc main_arg1) := W13_of m ρ c main_arg1 (by decide)
    _ = W11 m ρ c (Proc.devRef .tc main_arg1) := W12_of_ne m ρ c main_arg1 (by decide)
    _ = W10 m ρ c (Proc.devRef .tc main_arg1) := W11_of m ρ c main_arg1 (by decide)
    _ = W9 m ρ c (Proc.devRef .tc main_arg1) := W10_of m ρ c main_arg1 (by decide)
    _ = W8 m ρ c (Proc.devRef .tc main_arg1) := W9_in m ρ c 3 rfl
    _ = W7 m ρ c (Proc.devRef .tc main_arg1) := W8_of m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of m ρ c main_arg1 (by decide)
    _ = W2 m ρ c (Proc.devRef .tc main_arg1) := W3_of m ρ c main_arg1 (by decide)
    _ = W1 m ρ c (Proc.devRef .tc main_arg1) := W2_of m ρ c main_arg1 (by decide)
    _ = W0 m ρ c (Proc.devRef .tc main_arg1) := W1_of m ρ c main_arg1 (by decide)
    _ = m ((c : Thread nD τ).loc main_arg1) := rfl

theorem W16_main_arg2 (c : Dev nD) : W16 m ρ c (Proc.devRef .tc main_arg2) = m ((c : Thread nD τ).loc main_arg2) :=
  calc W16 m ρ c (Proc.devRef .tc main_arg2)
    _ = W15 m ρ c (Proc.devRef .tc main_arg2) := W16_of m ρ c main_arg2 (by decide)
    _ = W14 m ρ c (Proc.devRef .tc main_arg2) := W15_of_ne m ρ c main_arg2 (by decide)
    _ = W13 m ρ c (Proc.devRef .tc main_arg2) := W14_of m ρ c main_arg2 (by decide)
    _ = W12 m ρ c (Proc.devRef .tc main_arg2) := W13_of m ρ c main_arg2 (by decide)
    _ = W11 m ρ c (Proc.devRef .tc main_arg2) := W12_of_ne m ρ c main_arg2 (by decide)
    _ = W10 m ρ c (Proc.devRef .tc main_arg2) := W11_of m ρ c main_arg2 (by decide)
    _ = W9 m ρ c (Proc.devRef .tc main_arg2) := W10_of m ρ c main_arg2 (by decide)
    _ = W8 m ρ c (Proc.devRef .tc main_arg2) := W9_of_ne m ρ c main_arg2 (by decide)
    _ = W7 m ρ c (Proc.devRef .tc main_arg2) := W8_of m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of m ρ c main_arg2 (by decide)
    _ = W2 m ρ c (Proc.devRef .tc main_arg2) := W3_of m ρ c main_arg2 (by decide)
    _ = W1 m ρ c (Proc.devRef .tc main_arg2) := W2_of m ρ c main_arg2 (by decide)
    _ = W0 m ρ c (Proc.devRef .tc main_arg2) := W1_of m ρ c main_arg2 (by decide)
    _ = m ((c : Thread nD τ).loc main_arg2) := rfl

theorem W16_main_arg3 (c : Dev nD) : W16 m ρ c (Proc.devRef .tc main_arg3) = m ((c : Thread nD τ).loc main_arg3) :=
  calc W16 m ρ c (Proc.devRef .tc main_arg3)
    _ = W15 m ρ c (Proc.devRef .tc main_arg3) := W16_of m ρ c main_arg3 (by decide)
    _ = W14 m ρ c (Proc.devRef .tc main_arg3) := W15_of_ne m ρ c main_arg3 (by decide)
    _ = W13 m ρ c (Proc.devRef .tc main_arg3) := W14_of m ρ c main_arg3 (by decide)
    _ = W12 m ρ c (Proc.devRef .tc main_arg3) := W13_of m ρ c main_arg3 (by decide)
    _ = W11 m ρ c (Proc.devRef .tc main_arg3) := W12_in m ρ c 3 rfl
    _ = W10 m ρ c (Proc.devRef .tc main_arg3) := W11_of m ρ c main_arg3 (by decide)
    _ = W9 m ρ c (Proc.devRef .tc main_arg3) := W10_of m ρ c main_arg3 (by decide)
    _ = W8 m ρ c (Proc.devRef .tc main_arg3) := W9_of_ne m ρ c main_arg3 (by decide)
    _ = W7 m ρ c (Proc.devRef .tc main_arg3) := W8_of m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of m ρ c main_arg3 (by decide)
    _ = W2 m ρ c (Proc.devRef .tc main_arg3) := W3_of m ρ c main_arg3 (by decide)
    _ = W1 m ρ c (Proc.devRef .tc main_arg3) := W2_of m ρ c main_arg3 (by decide)
    _ = W0 m ρ c (Proc.devRef .tc main_arg3) := W1_of m ρ c main_arg3 (by decide)
    _ = m ((c : Thread nD τ).loc main_arg3) := rfl

theorem W16_main_arg4 (c : Dev nD) : W16 m ρ c (Proc.devRef .tc main_arg4) = m ((c : Thread nD τ).loc main_arg4) :=
  calc W16 m ρ c (Proc.devRef .tc main_arg4)
    _ = W15 m ρ c (Proc.devRef .tc main_arg4) := W16_of m ρ c main_arg4 (by decide)
    _ = W14 m ρ c (Proc.devRef .tc main_arg4) := W15_of_ne m ρ c main_arg4 (by decide)
    _ = W13 m ρ c (Proc.devRef .tc main_arg4) := W14_of m ρ c main_arg4 (by decide)
    _ = W12 m ρ c (Proc.devRef .tc main_arg4) := W13_of m ρ c main_arg4 (by decide)
    _ = W11 m ρ c (Proc.devRef .tc main_arg4) := W12_of_ne m ρ c main_arg4 (by decide)
    _ = W10 m ρ c (Proc.devRef .tc main_arg4) := W11_of m ρ c main_arg4 (by decide)
    _ = W9 m ρ c (Proc.devRef .tc main_arg4) := W10_of m ρ c main_arg4 (by decide)
    _ = W8 m ρ c (Proc.devRef .tc main_arg4) := W9_of_ne m ρ c main_arg4 (by decide)
    _ = W7 m ρ c (Proc.devRef .tc main_arg4) := W8_of m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of m ρ c main_arg4 (by decide)
    _ = W2 m ρ c (Proc.devRef .tc main_arg4) := W3_of m ρ c main_arg4 (by decide)
    _ = W1 m ρ c (Proc.devRef .tc main_arg4) := W2_of m ρ c main_arg4 (by decide)
    _ = W0 m ρ c (Proc.devRef .tc main_arg4) := W1_of m ρ c main_arg4 (by decide)
    _ = m ((c : Thread nD τ).loc main_arg4) := rfl

theorem W16_main_arg5 (c : Dev nD) : W16 m ρ c (Proc.devRef .tc main_arg5) = m ((c : Thread nD τ).loc main_arg5) :=
  calc W16 m ρ c (Proc.devRef .tc main_arg5)
    _ = W15 m ρ c (Proc.devRef .tc main_arg5) := W16_of m ρ c main_arg5 (by decide)
    _ = W14 m ρ c (Proc.devRef .tc main_arg5) := W15_in m ρ c 2 rfl
    _ = W13 m ρ c (Proc.devRef .tc main_arg5) := W14_of m ρ c main_arg5 (by decide)
    _ = W12 m ρ c (Proc.devRef .tc main_arg5) := W13_of m ρ c main_arg5 (by decide)
    _ = W11 m ρ c (Proc.devRef .tc main_arg5) := W12_of_ne m ρ c main_arg5 (by decide)
    _ = W10 m ρ c (Proc.devRef .tc main_arg5) := W11_of m ρ c main_arg5 (by decide)
    _ = W9 m ρ c (Proc.devRef .tc main_arg5) := W10_of m ρ c main_arg5 (by decide)
    _ = W8 m ρ c (Proc.devRef .tc main_arg5) := W9_of_ne m ρ c main_arg5 (by decide)
    _ = W7 m ρ c (Proc.devRef .tc main_arg5) := W8_of m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of m ρ c main_arg5 (by decide)
    _ = W2 m ρ c (Proc.devRef .tc main_arg5) := W3_of m ρ c main_arg5 (by decide)
    _ = W1 m ρ c (Proc.devRef .tc main_arg5) := W2_of m ρ c main_arg5 (by decide)
    _ = W0 m ρ c (Proc.devRef .tc main_arg5) := W1_of m ρ c main_arg5 (by decide)
    _ = m ((c : Thread nD τ).loc main_arg5) := rfl

theorem W16_main_arg6 (c : Dev nD) : W16 m ρ c (Proc.devRef .tc main_arg6) = m ((c : Thread nD τ).loc main_arg6) :=
  calc W16 m ρ c (Proc.devRef .tc main_arg6)
    _ = W15 m ρ c (Proc.devRef .tc main_arg6) := W16_of m ρ c main_arg6 (by decide)
    _ = W14 m ρ c (Proc.devRef .tc main_arg6) := W15_of_ne m ρ c main_arg6 (by decide)
    _ = W13 m ρ c (Proc.devRef .tc main_arg6) := W14_of m ρ c main_arg6 (by decide)
    _ = W12 m ρ c (Proc.devRef .tc main_arg6) := W13_of m ρ c main_arg6 (by decide)
    _ = W11 m ρ c (Proc.devRef .tc main_arg6) := W12_of_ne m ρ c main_arg6 (by decide)
    _ = W10 m ρ c (Proc.devRef .tc main_arg6) := W11_of m ρ c main_arg6 (by decide)
    _ = W9 m ρ c (Proc.devRef .tc main_arg6) := W10_of m ρ c main_arg6 (by decide)
    _ = W8 m ρ c (Proc.devRef .tc main_arg6) := W9_of_ne m ρ c main_arg6 (by decide)
    _ = W7 m ρ c (Proc.devRef .tc main_arg6) := W8_of m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of m ρ c main_arg6 (by decide)
    _ = W2 m ρ c (Proc.devRef .tc main_arg6) := W3_of m ρ c main_arg6 (by decide)
    _ = W1 m ρ c (Proc.devRef .tc main_arg6) := W2_of m ρ c main_arg6 (by decide)
    _ = W0 m ρ c (Proc.devRef .tc main_arg6) := W1_of m ρ c main_arg6 (by decide)
    _ = m ((c : Thread nD τ).loc main_arg6) := rfl

theorem W16_main_arg7 (c : Dev nD) : W16 m ρ c (Proc.devRef .tc main_arg7) = m ((c : Thread nD τ).loc main_arg7) :=
  calc W16 m ρ c (Proc.devRef .tc main_arg7)
    _ = W15 m ρ c (Proc.devRef .tc main_arg7) := W16_of m ρ c main_arg7 (by decide)
    _ = W14 m ρ c (Proc.devRef .tc main_arg7) := W15_in m ρ c 4 rfl
    _ = W13 m ρ c (Proc.devRef .tc main_arg7) := W14_of m ρ c main_arg7 (by decide)
    _ = W12 m ρ c (Proc.devRef .tc main_arg7) := W13_of m ρ c main_arg7 (by decide)
    _ = W11 m ρ c (Proc.devRef .tc main_arg7) := W12_of_ne m ρ c main_arg7 (by decide)
    _ = W10 m ρ c (Proc.devRef .tc main_arg7) := W11_of m ρ c main_arg7 (by decide)
    _ = W9 m ρ c (Proc.devRef .tc main_arg7) := W10_of m ρ c main_arg7 (by decide)
    _ = W8 m ρ c (Proc.devRef .tc main_arg7) := W9_of_ne m ρ c main_arg7 (by decide)
    _ = W7 m ρ c (Proc.devRef .tc main_arg7) := W8_of m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of m ρ c main_arg7 (by decide)
    _ = W2 m ρ c (Proc.devRef .tc main_arg7) := W3_of m ρ c main_arg7 (by decide)
    _ = W1 m ρ c (Proc.devRef .tc main_arg7) := W2_of m ρ c main_arg7 (by decide)
    _ = W0 m ρ c (Proc.devRef .tc main_arg7) := W1_of m ρ c main_arg7 (by decide)
    _ = m ((c : Thread nD τ).loc main_arg7) := rfl

theorem W16_main_arg8 (c : Dev nD) : W16 m ρ c (Proc.devRef .tc main_arg8) = m ((c : Thread nD τ).loc main_arg8) :=
  calc W16 m ρ c (Proc.devRef .tc main_arg8)
    _ = W15 m ρ c (Proc.devRef .tc main_arg8) := W16_of m ρ c main_arg8 (by decide)
    _ = W14 m ρ c (Proc.devRef .tc main_arg8) := W15_of_ne m ρ c main_arg8 (by decide)
    _ = W13 m ρ c (Proc.devRef .tc main_arg8) := W14_of m ρ c main_arg8 (by decide)
    _ = W12 m ρ c (Proc.devRef .tc main_arg8) := W13_of m ρ c main_arg8 (by decide)
    _ = W11 m ρ c (Proc.devRef .tc main_arg8) := W12_of_ne m ρ c main_arg8 (by decide)
    _ = W10 m ρ c (Proc.devRef .tc main_arg8) := W11_of m ρ c main_arg8 (by decide)
    _ = W9 m ρ c (Proc.devRef .tc main_arg8) := W10_of m ρ c main_arg8 (by decide)
    _ = W8 m ρ c (Proc.devRef .tc main_arg8) := W9_of_ne m ρ c main_arg8 (by decide)
    _ = W7 m ρ c (Proc.devRef .tc main_arg8) := W8_of m ρ c main_arg8 (by decide)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of m ρ c main_arg8 (by decide)
    _ = W2 m ρ c (Proc.devRef .tc main_arg8) := W3_of m ρ c main_arg8 (by decide)
    _ = W1 m ρ c (Proc.devRef .tc main_arg8) := W2_of m ρ c main_arg8 (by decide)
    _ = W0 m ρ c (Proc.devRef .tc main_arg8) := W1_of m ρ c main_arg8 (by decide)
    _ = m ((c : Thread nD τ).loc main_arg8) := rfl

theorem W16_main_arg9 (c : Dev nD) : W16 m ρ c (Proc.devRef .tc main_arg9) = m ((c : Thread nD τ).loc main_arg9) :=
  calc W16 m ρ c (Proc.devRef .tc main_arg9)
    _ = W15 m ρ c (Proc.devRef .tc main_arg9) := W16_of m ρ c main_arg9 (by decide)
    _ = W14 m ρ c (Proc.devRef .tc main_arg9) := W15_in m ρ c 6 rfl
    _ = W13 m ρ c (Proc.devRef .tc main_arg9) := W14_of m ρ c main_arg9 (by decide)
    _ = W12 m ρ c (Proc.devRef .tc main_arg9) := W13_of m ρ c main_arg9 (by decide)
    _ = W11 m ρ c (Proc.devRef .tc main_arg9) := W12_of_ne m ρ c main_arg9 (by decide)
    _ = W10 m ρ c (Proc.devRef .tc main_arg9) := W11_of m ρ c main_arg9 (by decide)
    _ = W9 m ρ c (Proc.devRef .tc main_arg9) := W10_of m ρ c main_arg9 (by decide)
    _ = W8 m ρ c (Proc.devRef .tc main_arg9) := W9_of_ne m ρ c main_arg9 (by decide)
    _ = W7 m ρ c (Proc.devRef .tc main_arg9) := W8_of m ρ c main_arg9 (by decide)
    _ = W6 m ρ c (Proc.devRef .tc main_arg9) := W7_of m ρ c main_arg9 (by decide)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of m ρ c main_arg9 (by decide)
    _ = W2 m ρ c (Proc.devRef .tc main_arg9) := W3_of m ρ c main_arg9 (by decide)
    _ = W1 m ρ c (Proc.devRef .tc main_arg9) := W2_of m ρ c main_arg9 (by decide)
    _ = W0 m ρ c (Proc.devRef .tc main_arg9) := W1_of m ρ c main_arg9 (by decide)
    _ = m ((c : Thread nD τ).loc main_arg9) := rfl

theorem W16_main_arg10 (c : Dev nD) : W16 m ρ c (Proc.devRef .tc main_arg10) = m ((c : Thread nD τ).loc main_arg10) :=
  calc W16 m ρ c (Proc.devRef .tc main_arg10)
    _ = W15 m ρ c (Proc.devRef .tc main_arg10) := W16_of m ρ c main_arg10 (by decide)
    _ = W14 m ρ c (Proc.devRef .tc main_arg10) := W15_of_ne m ρ c main_arg10 (by decide)
    _ = W13 m ρ c (Proc.devRef .tc main_arg10) := W14_of m ρ c main_arg10 (by decide)
    _ = W12 m ρ c (Proc.devRef .tc main_arg10) := W13_of m ρ c main_arg10 (by decide)
    _ = W11 m ρ c (Proc.devRef .tc main_arg10) := W12_of_ne m ρ c main_arg10 (by decide)
    _ = W10 m ρ c (Proc.devRef .tc main_arg10) := W11_of m ρ c main_arg10 (by decide)
    _ = W9 m ρ c (Proc.devRef .tc main_arg10) := W10_of m ρ c main_arg10 (by decide)
    _ = W8 m ρ c (Proc.devRef .tc main_arg10) := W9_of_ne m ρ c main_arg10 (by decide)
    _ = W7 m ρ c (Proc.devRef .tc main_arg10) := W8_of m ρ c main_arg10 (by decide)
    _ = W6 m ρ c (Proc.devRef .tc main_arg10) := W7_of m ρ c main_arg10 (by decide)
    _ = W5 m ρ c (Proc.devRef .tc main_arg10) := W6_of_ne m ρ c main_arg10 (by decide)
    _ = W4 m ρ c (Proc.devRef .tc main_arg10) := W5_of m ρ c main_arg10 (by decide)
    _ = W3 m ρ c (Proc.devRef .tc main_arg10) := W4_of m ρ c main_arg10 (by decide)
    _ = W2 m ρ c (Proc.devRef .tc main_arg10) := W3_of m ρ c main_arg10 (by decide)
    _ = W1 m ρ c (Proc.devRef .tc main_arg10) := W2_of m ρ c main_arg10 (by decide)
    _ = W0 m ρ c (Proc.devRef .tc main_arg10) := W1_of m ρ c main_arg10 (by decide)
    _ = m ((c : Thread nD τ).loc main_arg10) := rfl

theorem W16_main_arg11 (c : Dev nD) : W16 m ρ c (Proc.devRef .tc main_arg11) = m ((c : Thread nD τ).loc main_arg11) :=
  calc W16 m ρ c (Proc.devRef .tc main_arg11)
    _ = W15 m ρ c (Proc.devRef .tc main_arg11) := W16_of m ρ c main_arg11 (by decide)
    _ = W14 m ρ c (Proc.devRef .tc main_arg11) := W15_of_ne m ρ c main_arg11 (by decide)
    _ = W13 m ρ c (Proc.devRef .tc main_arg11) := W14_of m ρ c main_arg11 (by decide)
    _ = W12 m ρ c (Proc.devRef .tc main_arg11) := W13_of m ρ c main_arg11 (by decide)
    _ = W11 m ρ c (Proc.devRef .tc main_arg11) := W12_of_ne m ρ c main_arg11 (by decide)
    _ = W10 m ρ c (Proc.devRef .tc main_arg11) := W11_of m ρ c main_arg11 (by decide)
    _ = W9 m ρ c (Proc.devRef .tc main_arg11) := W10_of m ρ c main_arg11 (by decide)
    _ = W8 m ρ c (Proc.devRef .tc main_arg11) := W9_of_ne m ρ c main_arg11 (by decide)
    _ = W7 m ρ c (Proc.devRef .tc main_arg11) := W8_of m ρ c main_arg11 (by decide)
    _ = W6 m ρ c (Proc.devRef .tc main_arg11) := W7_of m ρ c main_arg11 (by decide)
    _ = W5 m ρ c (Proc.devRef .tc main_arg11) := W6_of_ne m ρ c main_arg11 (by decide)
    _ = W4 m ρ c (Proc.devRef .tc main_arg11) := W5_of m ρ c main_arg11 (by decide)
    _ = W3 m ρ c (Proc.devRef .tc main_arg11) := W4_of m ρ c main_arg11 (by decide)
    _ = W2 m ρ c (Proc.devRef .tc main_arg11) := W3_of m ρ c main_arg11 (by decide)
    _ = W1 m ρ c (Proc.devRef .tc main_arg11) := W2_of m ρ c main_arg11 (by decide)
    _ = W0 m ρ c (Proc.devRef .tc main_arg11) := W1_of m ρ c main_arg11 (by decide)
    _ = m ((c : Thread nD τ).loc main_arg11) := rfl

end Cert.KernelIdeal.Hand

end
-- ==== Proof.KIBase.lean ====
import proofs.«408152_j74947179315796_1_alg».proof.Proof.KIChain

set_option maxRecDepth 16384

/-! The buffers that every later stage reads — the two index rows of the edge list, the two degree normalisers and
    the weight and bias arguments — keep, through every host stretch and every kernel region, the contents they have
    when the first region is entered: no later host operation writes them, and a region changes its output array only. -/

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F] [Named F]

variable (m : (ℓ : Loc nD τ sig) → Buf (Elt F) ℓ) (ρ : Dev nD → PrngReg)

/-- The buffers the later stages read. -/
def baseRefs : List (Ref sig .tc) :=
  [main_v1, main_v3, main_v14, main_v18, main_arg0, main_arg1, main_arg2, main_arg3, main_arg4, main_arg5, main_arg6,
    main_arg7, main_arg8, main_arg9, main_arg10]

theorem agree6 (c : Dev nD) (r : Ref sig .tc) (h : r ∈ baseRefs) :
    W6 m ρ c (Proc.devRef .tc r) = W5 m ρ c (Proc.devRef .tc r) := by
  simp only [baseRefs, List.mem_cons, List.mem_singleton, List.not_mem_nil, or_false] at h
  rcases h with rfl | rfl | rfl | rfl | rfl | rfl | rfl | rfl | rfl | rfl | rfl | rfl | rfl | rfl | rfl
  all_goals first
    | exact W6_of_ne m ρ c _ (by decide)
    | exact W6_in m ρ c 0 rfl
    | exact W6_in m ρ c 1 rfl

theorem agree8 (c : Dev nD) (r : Ref sig .tc) (h : r ∈ baseRefs) :
    W8 m ρ c (Proc.devRef .tc r) = W5 m ρ c (Proc.devRef .tc r) := by
  refine Eq.trans ?_ (agree6 m ρ c r h)
  simp only [baseRefs, List.mem_cons, List.mem_singleton, List.not_mem_nil, or_false] at h
  rcases h with rfl | rfl | rfl | rfl | rfl | rfl | rfl | rfl | rfl | rfl | rfl | rfl | rfl | rfl | rfl
  all_goals exact (W8_of m ρ c _ (by decide)).trans (W7_of m ρ c _ (by decide))

theorem agree9 (c : Dev nD) (r : Ref sig .tc) (h : r ∈ baseRefs) :
    W9 m ρ c (Proc.devRef .tc r) = W5 m ρ c (Proc.devRef .tc r) := by
  refine Eq.trans ?_ (agree8 m ρ c r h)
  simp only [baseRefs, List.mem_cons, List.mem_singleton, List.not_mem_nil, or_false] at h
  rcases h with rfl | rfl | rfl | rfl | rfl | rfl | rfl | rfl | rfl | rfl | rfl | rfl | rfl | rfl | rfl
  all_goals first
    | exact W9_of_ne m ρ c _ (by decide)
    | exact W9_in m ρ c 1 rfl
    | exact W9_in m ρ c 2 rfl
    | exact W9_in m ρ c 3 rfl

theorem agree11 (c : Dev nD) (r : Ref sig .tc) (h : r ∈ baseRefs) :
    W11 m ρ c (Proc.devRef .tc r) = W5 m ρ c (Proc.devRef .tc r) := by
  refine Eq.trans ?_ (agree9 m ρ c r h)
  simp only [baseRefs, List.mem_cons, List.mem_singleton, List.not_mem_nil, or_false] at h
  rcases h with rfl | rfl | rfl | rfl | rfl | rfl | rfl | rfl | rfl | rfl | rfl | rfl | rfl | rfl | rfl
  all_goals exact (W11_of m ρ c _ (by decide)).trans (W10_of m ρ c _ (by decide))

theorem agree12 (c : Dev nD) (r : Ref sig .tc) (h : r ∈ baseRefs) :
    W12 m ρ c (Proc.devRef .tc r) = W5 m ρ c (Proc.devRef .tc r) := by
  refine Eq.trans ?_ (agree11 m ρ c r h)
  simp only [baseRefs, List.mem_cons, List.mem_singleton, List.not_mem_nil, or_false] at h
  rcases h with rfl | rfl | rfl | rfl | rfl | rfl | rfl | rfl | rfl | rfl | rfl | rfl | rfl | rfl | rfl
  all_goals first
    | exact W12_of_ne m ρ c _ (by decide)
    | exact W12_in m ρ c 1 rfl
    | exact W12_in m ρ c 2 rfl
    | exact W12_in m ρ c 3 rfl

theorem agree14 (c : Dev nD) (r : Ref sig .tc) (h : r ∈ baseRefs) :
    W14 m ρ c (Proc.devRef .tc r) = W5 m ρ c (Proc.devRef .tc r) := by
  refine Eq.trans ?_ (agree12 m ρ c r h)
  simp only [baseRefs, List.mem_cons, List.mem_singleton, List.not_mem_nil, or_false] at h
  rcases h with rfl | rfl | rfl | rfl | rfl | rfl | rfl | rfl | rfl | rfl | rfl | rfl | rfl | rfl | rfl
  all_goals exact (W14_of m ρ c _ (by decide)).trans (W13_of m ρ c _ (by decide))

/-- An argument array still holds its launch contents when the first region is entered. -/
theorem W5_arg (c : Dev nD) (r : Ref sig .tc) (h0 : r ∉ hostOps0_W) (h1 : r ∉ hostOps0_1_W) (h2 : r ∉ hostOps0_2_W)
    (h3 : r ∉ hostOps0_3_W) (h4 : r ∉ hostOps0_4_W) :
    W5 m ρ c (Proc.devRef .tc r) = m ((c : Thread nD τ).loc r) :=
  (W5_of m ρ c r h4).trans <| (W4_of m ρ c r h3).trans <| (W3_of m ρ c r h2).trans <| (W2_of m ρ c r h1).trans <|
    (W1_of m ρ c r h0)

end Cert.KernelIdeal.Hand

end
-- ==== Proof.KIStretch.lean ====
import proofs.«408152_j74947179315796_1_alg».proof.Proof.Gen.KernelIdeal.Launch
import proofs.«408152_j74947179315796_1_alg».proof.Proof.Gen.ReferenceIdeal.Read
import Idealize.ShloMosaic.Lib.StableHlo.Run

set_option maxRecDepth 16384

/-! What the host operations between the kernel regions compute, as functions of the buffer contents each stretch
    starts from. The degree counts, their clamp at one and the power −1/2 are spelt exactly as the reference spells
    them, so those stages are stated against the reference's own stage functions. -/

noncomputable section

namespace Cert.KernelIdeal.Stretch

open Idealize.ShloMosaic Idealize.ShloMosaic.TcCoe Idealize.SL.Sem Idealize.ShloMosaic.StableHlo
open Cert.KernelIdeal Cert.KernelIdeal.Gen

variable {F : FTy → Type} [FloatOps F] [Named F]

/-- A row gather whose out-of-range reads are replaced by a fill value: the index words are wrapped once when negative,
    a row is read at the wrapped word, and the read is kept only where the wrapped word lies in [0, 49999]. Width 128. -/
def take128 (x : FVec F S50000x128 .f32) (src : IVec S800000 32) : FVec F S800000x128 .f32 :=
  let w : IVec S800000 32 := select (cmpi .slt src (broadcastInDim S800000 ![] bcast_S_S800000 (constantI S_ 32 0#32)))
    (addi src (broadcastInDim S800000 ![] bcast_S_S800000 (constantI S_ 32 50000#32))) src
  let w5 : IVec S800000x1 32 := broadcastInDim S800000x1 ![0] bcast_S800000_S800000x1_0 w
  let ok : IVec S800000 1 := (fun x v => Host.reduce IntOp.andi x v reducesTo_S800000x1_S800000_d1 h_S_)
    (andi (cmpi .sge w5 (broadcastInDim S800000x1 ![] bcast_S_S800000x1 (constantI S_ 32 0#32)))
      (cmpi .sle w5 (broadcastInDim S800000x1 ![0, 1] bcast_S1x1_S800000x1_0_1 (broadcastInDim S1x1 ![1] bcast_S1_S1x1_1 (constantI S1 32 49999#32)))))
    (constantI S_ 1 1#1)
  select (broadcastInDim S800000x128 ![0] bcast_S800000_S800000x128_0 ok)
    (Host.gather gather_S50000x128_S800000x1_S800000x128_1_0_n_n_0_1_1128 x w5)
    (broadcastInDim S800000x128 ![] bcast_S_S800000x128 (constant S_ .f32 0x7FC00000#32))

/-- The same at width 64. -/
def take64 (x : FVec F S50000x64 .f32) (src : IVec S800000 32) : FVec F S800000x64 .f32 :=
  let w : IVec S800000 32 := select (cmpi .slt src (broadcastInDim S800000 ![] bcast_S_S800000 (constantI S_ 32 0#32)))
    (addi src (broadcastInDim S800000 ![] bcast_S_S800000 (constantI S_ 32 50000#32))) src
  let w5 : IVec S800000x1 32 := broadcastInDim S800000x1 ![0] bcast_S800000_S800000x1_0 w
  let ok : IVec S800000 1 := (fun x v => Host.reduce IntOp.andi x v reducesTo_S800000x1_S800000_d1 h_S_)
    (andi (cmpi .sge w5 (broadcastInDim S800000x1 ![] bcast_S_S800000x1 (constantI S_ 32 0#32)))
      (cmpi .sle w5 (broadcastInDim S800000x1 ![0, 1] bcast_S1x1_S800000x1_0_1 (broadcastInDim S1x1 ![1] bcast_S1_S1x1_1 (constantI S1 32 49999#32)))))
    (constantI S_ 1 1#1)
  select (broadcastInDim S800000x64 ![0] bcast_S800000_S800000x64_0 ok)
    (Host.gather gather_S50000x64_S800000x1_S800000x64_1_0_n_n_0_1_164 x w5)
    (broadcastInDim S800000x64 ![] bcast_S_S800000x64 (constant S_ .f32 0x7FC00000#32))

/-! ## Reading a typed reference

A module-local function's operations are spelt over references that carry the type of the tensor value they hold; the
operation's function is stated at that type and moved to the buffer's own type along an equation. `rd F x` reads `x`'s
buffer off the contents `F` at the value's type, so that what an operation leaves is its function of what its operands
read, with no transport left in the term. -/

section Rd

variable {T Tx Ta Tb Tc Ty : BufTy}

/-- The contents of a typed reference's buffer, at the type of the value it holds. -/
def rd (G : Valuation τ sig (Elt F)) (x : TRef sig T) : T.Contents (Elt F) := x.ofBuf (G (Proc.devRef .tc x.ref))

/-- Moving a value to the buffer's type and back changes nothing. -/
theorem ofBuf_toBuf (x : TRef sig T) (v : T.Contents (Elt F)) : x.ofBuf (x.toBuf v) = v := by
  obtain ⟨r, h, d, u⟩ := x
  subst h
  rfl

theorem rd_nullary (y : TRef sig Ty) (v : Ty.Contents (Elt F)) (G : Valuation τ sig (Elt F)) :
    rd ((TRef.nullary (τ := τ) y v).result G) y = v := by
  show y.ofBuf ((StableHlo.nullary y.ref (y.toBuf v) y.dev : HloOp τ sig (Elt F)).result G (Proc.devRef .tc y.ref)) = v
  rw [nullary_result, ofBuf_toBuf]

theorem rd_unary (x : TRef sig Tx) (y : TRef sig Ty) (f : Tx.Contents (Elt F) → Ty.Contents (Elt F)) (G : Valuation τ sig (Elt F)) :
    rd ((TRef.unary (τ := τ) x y f).result G) y = f (rd G x) := by
  show y.ofBuf ((StableHlo.unary x.ref y.ref (fun u => y.toBuf (f (x.ofBuf u))) x.dev y.dev : HloOp τ sig (Elt F)).result G (Proc.devRef .tc y.ref)) = _
  rw [unary_result, ofBuf_toBuf]
  rfl

theorem rd_binary (a : TRef sig Ta) (b : TRef sig Tb) (y : TRef sig Ty)
    (f : Ta.Contents (Elt F) → Tb.Contents (Elt F) → Ty.Contents (Elt F)) (G : Valuation τ sig (Elt F)) :
    rd ((TRef.binary (τ := τ) a b y f).result G) y = f (rd G a) (rd G b) := by
  show y.ofBuf ((StableHlo.binary a.ref b.ref y.ref (fun u v => y.toBuf (f (a.ofBuf u) (b.ofBuf v))) a.dev b.dev y.dev : HloOp τ sig (Elt F)).result G (Proc.devRef .tc y.ref)) = _
  rw [binary_result, ofBuf_toBuf]
  rfl

theorem rd_ternary (c : TRef sig Tc) (a : TRef sig Ta) (b : TRef sig Tb) (y : TRef sig Ty)
    (f : Tc.Contents (Elt F) → Ta.Contents (Elt F) → Tb.Contents (Elt F) → Ty.Contents (Elt F)) (G : Valuation τ sig (Elt F)) :
    rd ((TRef.ternary (τ := τ) c a b y f).result G) y = f (rd G c) (rd G a) (rd G b) := by
  show y.ofBuf ((StableHlo.ternary c.ref a.ref b.ref y.ref (fun w u v => y.toBuf (f (c.ofBuf w) (a.ofBuf u) (b.ofBuf v))) c.dev a.dev b.dev y.dev : HloOp τ sig (Elt F)).result G (Proc.devRef .tc y.ref)) = _
  rw [ternary_result, ofBuf_toBuf]
  rfl

/-! A reference another operation writes reads what it read before. -/

theorem rd_nullary_ne (y : TRef sig Ty) (v : Ty.Contents (Elt F)) (G : Valuation τ sig (Elt F)) (z : TRef sig T) (h : z.ref ≠ y.ref) :
    rd ((TRef.nullary (τ := τ) y v).result G) z = rd G z :=
  congrArg z.ofBuf (nullary_result_ne y.ref (y.toBuf v) y.dev G h)

theorem rd_unary_ne (x : TRef sig Tx) (y : TRef sig Ty) (f : Tx.Contents (Elt F) → Ty.Contents (Elt F)) (G : Valuation τ sig (Elt F))
    (z : TRef sig T) (h : z.ref ≠ y.ref) :
    rd ((TRef.unary (τ := τ) x y f).result G) z = rd G z :=
  congrArg z.ofBuf (unary_result_ne x.ref y.ref (fun u => y.toBuf (f (x.ofBuf u))) x.dev y.dev G h)

theorem rd_binary_ne (a : TRef sig Ta) (b : TRef sig Tb) (y : TRef sig Ty)
    (f : Ta.Contents (Elt F) → Tb.Contents (Elt F) → Ty.Contents (Elt F)) (G : Valuation τ sig (Elt F)) (z : TRef sig T) (h : z.ref ≠ y.ref) :
    rd ((TRef.binary (τ := τ) a b y f).result G) z = rd G z :=
  congrArg z.ofBuf (binary_result_ne a.ref b.ref y.ref (fun u v => y.toBuf (f (a.ofBuf u) (b.ofBuf v))) a.dev b.dev y.dev G h)

theorem rd_ternary_ne (c : TRef sig Tc) (a : TRef sig Ta) (b : TRef sig Tb) (y : TRef sig Ty)
    (f : Tc.Contents (Elt F) → Ta.Contents (Elt F) → Tb.Contents (Elt F) → Ty.Contents (Elt F)) (G : Valuation τ sig (Elt F))
    (z : TRef sig T) (h : z.ref ≠ y.ref) :
    rd ((TRef.ternary (τ := τ) c a b y f).result G) z = rd G z :=
  congrArg z.ofBuf (ternary_result_ne a.ref b.ref c.ref y.ref (fun w u v => y.toBuf (f (c.ofBuf w) (a.ofBuf u) (b.ofBuf v))) c.dev a.dev b.dev y.dev G h)

end Rd

/-! ## The three gathers -/

set_option maxHeartbeats 4000000 in
/-- The gather before region 1: the stretch's last buffer holds the filled row gather of the previous region's output at
    the edges' sources. Each operation's result is read at the type of the value it holds, outermost first. -/
theorem take1_out (W : Valuation τ sig (Elt F)) :
    StableHlo.after hostOps1 W (Proc.devRef .tc main_v20) = take128 (W (Proc.devRef .tc main_v19)) (W (Proc.devRef .tc main_v1)) := by
  show rd (StableHlo.after hostOps1 W) (TRef.of main_v20 : TRef sig ⟨S800000x128, .f32⟩) = _
  simp only [after_cons, after_nil]
  repeat (first
    | rw [rd_nullary] | rw [rd_unary] | rw [rd_binary] | rw [rd_ternary]
    | (rw [rd_nullary_ne]; rotate_left; decide)
    | (rw [rd_unary_ne]; rotate_left; decide)
    | (rw [rd_binary_ne]; rotate_left; decide)
    | (rw [rd_ternary_ne]; rotate_left; decide))
  unfold take128
  rfl

/-- That stretch does not write the edges' destinations. -/
theorem take1_v3 (W : Valuation τ sig (Elt F)) :
    StableHlo.after hostOps1 W (Proc.devRef .tc main_v3) = W (Proc.devRef .tc main_v3) := by
  show rd (StableHlo.after hostOps1 W) (TRef.of main_v3 : TRef sig ⟨S800000, .i32⟩) = _
  simp only [after_cons, after_nil]
  repeat (first
    | (rw [rd_nullary_ne]; rotate_left; decide)
    | (rw [rd_unary_ne]; rotate_left; decide)
    | (rw [rd_binary_ne]; rotate_left; decide)
    | (rw [rd_ternary_ne]; rotate_left; decide))
  rfl

set_option maxHeartbeats 4000000 in
/-- The gather before region 2: the stretch's last buffer holds the filled row gather of the previous region's output at
    the edges' sources. Each operation's result is read at the type of the value it holds, outermost first. -/
theorem take2_out (W : Valuation τ sig (Elt F)) :
    StableHlo.after hostOps2 W (Proc.devRef .tc main_v26) = take64 (W (Proc.devRef .tc main_v25)) (W (Proc.devRef .tc main_v1)) := by
  show rd (StableHlo.after hostOps2 W) (TRef.of main_v26 : TRef sig ⟨S800000x64, .f32⟩) = _
  simp only [after_cons, after_nil]
  repeat (first
    | rw [rd_nullary] | rw [rd_unary] | rw [rd_binary] | rw [rd_ternary]
    | (rw [rd_nullary_ne]; rotate_left; decide)
    | (rw [rd_unary_ne]; rotate_left; decide)
    | (rw [rd_binary_ne]; rotate_left; decide)
    | (rw [rd_ternary_ne]; rotate_left; decide))
  unfold take64
  rfl

/-- That stretch does not write the edges' destinations. -/
theorem take2_v3 (W : Valuation τ sig (Elt F)) :
    StableHlo.after hostOps2 W (Proc.devRef .tc main_v3) = W (Proc.devRef .tc main_v3) := by
  show rd (StableHlo.after hostOps2 W) (TRef.of main_v3 : TRef sig ⟨S800000, .i32⟩) = _
  simp only [after_cons, after_nil]
  repeat (first
    | (rw [rd_nullary_ne]; rotate_left; decide)
    | (rw [rd_unary_ne]; rotate_left; decide)
    | (rw [rd_binary_ne]; rotate_left; decide)
    | (rw [rd_ternary_ne]; rotate_left; decide))
  rfl

set_option maxHeartbeats 4000000 in
/-- The gather before region 3: the stretch's last buffer holds the filled row gather of the previous region's output at
    the edges' sources. Each operation's result is read at the type of the value it holds, outermost first. -/
theorem take3_out (W : Valuation τ sig (Elt F)) :
    StableHlo.after hostOps3 W (Proc.devRef .tc main_v32) = take64 (W (Proc.devRef .tc main_v31)) (W (Proc.devRef .tc main_v1)) := by
  show rd (StableHlo.after hostOps3 W) (TRef.of main_v32 : TRef sig ⟨S800000x64, .f32⟩) = _
  simp only [after_cons, after_nil]
  repeat (first
    | rw [rd_nullary] | rw [rd_unary] | rw [rd_binary] | rw [rd_ternary]
    | (rw [rd_nullary_ne]; rotate_left; decide)
    | (rw [rd_unary_ne]; rotate_left; decide)
    | (rw [rd_binary_ne]; rotate_left; decide)
    | (rw [rd_ternary_ne]; rotate_left; decide))
  unfold take64
  rfl

/-- That stretch does not write the edges' destinations. -/
theorem take3_v3 (W : Valuation τ sig (Elt F)) :
    StableHlo.after hostOps3 W (Proc.devRef .tc main_v3) = W (Proc.devRef .tc main_v3) := by
  show rd (StableHlo.after hostOps3 W) (TRef.of main_v3 : TRef sig ⟨S800000, .i32⟩) = _
  simp only [after_cons, after_nil]
  repeat (first
    | (rw [rd_nullary_ne]; rotate_left; decide)
    | (rw [rd_unary_ne]; rotate_left; decide)
    | (rw [rd_binary_ne]; rotate_left; decide)
    | (rw [rd_ternary_ne]; rotate_left; decide))
  rfl

/-- The contents of every buffer once the host operations before the first kernel region have run from contents `W`. -/
abbrev entry (W : Valuation τ sig (Elt F)) : Valuation τ sig (Elt F) :=
  StableHlo.after hostOps0_4 (StableHlo.after hostOps0_3 (StableHlo.after hostOps0_2 (StableHlo.after hostOps0_1 (StableHlo.after hostOps0 W))))

/-- The source-node index of every edge: row 0 of the edge list. -/
theorem entry_v1 (W : Valuation τ sig (Elt F)) :
    entry W (Proc.devRef .tc main_v1) = Cert.ReferenceIdeal.Read.val_main_v1 (F := F) (W (Proc.devRef .tc main_arg11)) := by
  dsimp only [entry]
  after_results
  rfl

/-- The destination-node index of every edge: row 1 of the edge list. -/
theorem entry_v3 (W : Valuation τ sig (Elt F)) :
    entry W (Proc.devRef .tc main_v3) = Cert.ReferenceIdeal.Read.val_main_v3 (F := F) (W (Proc.devRef .tc main_arg11)) := by
  dsimp only [entry]
  after_results
  rfl

/-- The source-side normaliser (out-degree clamped at one, to the power −1/2), as a column. -/
theorem entry_v14 (W : Valuation τ sig (Elt F)) :
    entry W (Proc.devRef .tc main_v14)
      = shapeCast S50000x1 (Cert.ReferenceIdeal.Read.val_main_v13 (F := F) (W (Proc.devRef .tc main_arg11))) shapeCasts_S50000_S50000x1 := by
  dsimp only [entry]
  after_results
  rfl

/-- The destination-side normaliser (in-degree clamped at one, to the power −1/2), as a column. -/
theorem entry_v18 (W : Valuation τ sig (Elt F)) :
    entry W (Proc.devRef .tc main_v18)
      = shapeCast S50000x1 (Cert.ReferenceIdeal.Read.val_main_v16 (F := F) (W (Proc.devRef .tc main_arg11))) shapeCasts_S50000_S50000x1 := by
  dsimp only [entry]
  after_results
  rfl

/-- Between the first and the second region: gather the scaled features at the edges' sources, add them up at the
    edges' destinations; the first bias as a row. -/
abbrev mid1 (W : Valuation τ sig (Elt F)) : Valuation τ sig (Elt F) := StableHlo.after hostOps1_1 (StableHlo.after hostOps1 W)

theorem mid1_v23 (W : Valuation τ sig (Elt F)) :
    mid1 W (Proc.devRef .tc main_v23)
      = Host.scatterAdd scatter_S50000x128_S800000x1_S800000x128_1_0_0_1
          (broadcastInDim S50000x128 ![] bcast_S_S50000x128 (constant S_ .f32 0x00000000#32))
          (broadcastInDim S800000x1 ![0] bcast_S800000_S800000x1_0 (W (Proc.devRef .tc main_v3)))
          (take128 (W (Proc.devRef .tc main_v19)) (W (Proc.devRef .tc main_v1))) := by
  dsimp only [mid1]
  have hg := take1_out W
  have h3 := take1_v3 W
  generalize StableHlo.after hostOps1 W = X at hg h3 ⊢
  after_results
  rw [hg, h3]

theorem mid1_v24 (W : Valuation τ sig (Elt F)) :
    mid1 W (Proc.devRef .tc main_v24) = shapeCast S1x64 (W (Proc.devRef .tc main_arg2)) shapeCasts_S64_S1x64 := by
  dsimp only [mid1]
  after_results
  rfl

/-- Between the second and the third region. -/
abbrev mid2 (W : Valuation τ sig (Elt F)) : Valuation τ sig (Elt F) := StableHlo.after hostOps2_1 (StableHlo.after hostOps2 W)

theorem mid2_v29 (W : Valuation τ sig (Elt F)) :
    mid2 W (Proc.devRef .tc main_v29)
      = Host.scatterAdd scatter_S50000x64_S800000x1_S800000x64_1_0_0_1
          (broadcastInDim S50000x64 ![] bcast_S_S50000x64 (constant S_ .f32 0x00000000#32))
          (broadcastInDim S800000x1 ![0] bcast_S800000_S800000x1_0 (W (Proc.devRef .tc main_v3)))
          (take64 (W (Proc.devRef .tc main_v25)) (W (Proc.devRef .tc main_v1))) := by
  dsimp only [mid2]
  have hg := take2_out W
  have h3 := take2_v3 W
  generalize StableHlo.after hostOps2 W = X at hg h3 ⊢
  after_results
  rw [hg, h3]

theorem mid2_v30 (W : Valuation τ sig (Elt F)) :
    mid2 W (Proc.devRef .tc main_v30) = shapeCast S1x64 (W (Proc.devRef .tc main_arg4)) shapeCasts_S64_S1x64 := by
  dsimp only [mid2]
  after_results
  rfl

/-- Between the third and the fourth region. -/
abbrev mid3 (W : Valuation τ sig (Elt F)) : Valuation τ sig (Elt F) := StableHlo.after hostOps3_1 (StableHlo.after hostOps3 W)

theorem mid3_v35 (W : Valuation τ sig (Elt F)) :
    mid3 W (Proc.devRef .tc main_v35)
      = Host.scatterAdd scatter_S50000x64_S800000x1_S800000x64_1_0_0_1
          (broadcastInDim S50000x64 ![] bcast_S_S50000x64 (constant S_ .f32 0x00000000#32))
          (broadcastInDim S800000x1 ![0] bcast_S800000_S800000x1_0 (W (Proc.devRef .tc main_v3)))
          (take64 (W (Proc.devRef .tc main_v31)) (W (Proc.devRef .tc main_v1))) := by
  dsimp only [mid3]
  have hg := take3_out W
  have h3 := take3_v3 W
  generalize StableHlo.after hostOps3 W = X at hg h3 ⊢
  after_results
  rw [hg, h3]

theorem mid3_v36 (W : Valuation τ sig (Elt F)) :
    mid3 W (Proc.devRef .tc main_v36) = shapeCast S1x64 (W (Proc.devRef .tc main_arg6)) shapeCasts_S64_S1x64 := by
  dsimp only [mid3]
  after_results
  rfl

theorem mid3_v37 (W : Valuation τ sig (Elt F)) :
    mid3 W (Proc.devRef .tc main_v37) = shapeCast S1x32 (W (Proc.devRef .tc main_arg8)) shapeCasts_S32_S1x32 := by
  dsimp only [mid3]
  after_results
  rfl

theorem mid3_v38 (W : Valuation τ sig (Elt F)) :
    mid3 W (Proc.devRef .tc main_v38) = shapeCast S1x1 (W (Proc.devRef .tc main_arg10)) shapeCasts_S1_S1x1 := by
  dsimp only [mid3]
  after_results
  rfl

/-- After the last region: the 1×1 result as a vector of one entry. -/
theorem tail_v40 (W : Valuation τ sig (Elt F)) :
    StableHlo.after hostOps4 W (Proc.devRef .tc main_v40) = shapeCast S1 (W (Proc.devRef .tc main_v39)) shapeCasts_S1x1_S1 := by
  after_results
  rfl

end Cert.KernelIdeal.Stretch

end
-- ==== Proof.KIMask.lean ====
import proofs.«408152_j74947179315796_1_alg».proof.Pre_finite_inputs
import proofs.«408152_j74947179315796_1_alg».proof.KernelIdeal
import proofs.«408152_j74947179315796_1_alg».proof.Proof.KIStretch
import Idealize.ShloMosaic.Lib.ReduceAll
import Idealize.ShloMosaic.Lib.ValueIdx
import Idealize.ShloMosaic.Lib.Affine
import Idealize.ShloMosaic.PureOps.Reduce

/-! The precondition's last conjunct says that every source-node index of the edge list lies in [0, 50000). The row
    gather the program performs wraps a negative index once and then replaces, by a fill value, every row whose wrapped
    index falls outside [0, 49999]. Under the conjunct no index is negative, so none is wrapped, every wrapped index
    passes the range test, the mask is one everywhere, and the masked gather is the plain gather of the rows. -/

noncomputable section

namespace Cert.KernelIdeal.Mask

open Idealize.ShloMosaic
open Cert.KernelIdeal Cert.KernelIdeal.Facts₀

/-! ## Words: three constants read as signed integers, the wrap and the range test on a word in range -/

theorem toInt_zero32 : (0#32 : BitVec 32).toInt = 0 := by decide
theorem toInt_50000 : (50000#32 : BitVec 32).toInt = 50000 := by decide
theorem toInt_49999 : (49999#32 : BitVec 32).toInt = 49999 := by decide

/-- A word that is not negative fails the test "below zero", so the wrap (add the table's height when below zero)
    keeps it. -/
theorem wrap_keep (b : BitVec 32) (h0 : 0 ≤ b.toInt) :
    Scalar.select (IntOp.cmpi .slt b 0#32) (IntOp.addi b 50000#32) b = b := by
  unfold Scalar.select
  rw [if_neg]
  intro h
  have := IntOp.cmpi_slt.1 h
  rw [toInt_zero32] at this
  omega

/-- A word in [0, 50000) passes the test "at least 0 and at most 49999". -/
theorem range_test (b : BitVec 32) (h0 : 0 ≤ b.toInt) (h1 : b.toInt < 50000) :
    IntOp.andi (IntOp.cmpi .sge b 0#32) (IntOp.cmpi .sle b 49999#32) = 1#1 := by
  rw [IntOp.andi_eq_one, IntOp.cmpi_sge, IntOp.cmpi_sle, toInt_zero32, toInt_49999]
  omega

/-! ## A reduction by and of a mask that is one everywhere, from one, is one -/

/-- A left fold by and, from one, over words that are all one is one. -/
theorem foldl_andi_ones {ι : Type} (f : ι → BitVec 1) (l : List ι) (hf : ∀ n ∈ l, f n = 1#1) :
    l.foldl (fun r n => IntOp.andi r (f n)) 1#1 = 1#1 := by
  induction l with
  | nil => rfl
  | cons a l ih =>
    rw [List.foldl_cons, hf a (List.mem_cons_self ..), show IntOp.andi 1#1 1#1 = (1#1 : BitVec 1) from by decide]
    exact ih (fun n hn => hf n (List.mem_cons_of_mem _ hn))

/-- A reduction by and over any axes, from an initial value one, of a mask that is one at every index is one at every
    result index: the fold over the indices that reduce into it meets only ones. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones x _ (fun i _ => hx i)

/-- A select on a broadcast mask that is one everywhere keeps its first operand: whatever index of the mask a result
    index reads, the bit there is one. -/
theorem select_bcast_ones {α : Type} {s t : Shape} {dims : Fin s.rank → Fin t.rank} (h : s.BroadcastsInDim t dims) (m : IVec s 1)
    (hm : ∀ e, m e = 1#1) (a b : t.Idx → α) : select (broadcastInDim t dims h m) a b = a := by
  funext j
  show Scalar.select (m _) (a j) (b j) = a j
  rw [hm]
  rfl

/-! ## The source-node index of every edge, and its range under the precondition -/

/-- Row 0 of the edge list, as a vector over the edges. -/
def srcOf (a11 : IVec S2x800000 32) : IVec S800000 32 :=
  shapeCast S800000 (extractStridedSlice S1x800000 ![0, 0] a11 slices_S2x800000_S1x800000_0_0) shapeCasts_S1x800000_S800000

/-- It is the reference's own spelling of the same row. -/
theorem srcOf_eq_ref {F : FTy → Type} (a11 : IVec S2x800000 32) :
    srcOf a11 = Cert.ReferenceIdeal.Read.val_main_v1 (F := F) a11 := rfl

/-- The precondition is a conjunction whose last conjunct is the all-reduction by and, over the edges, of
    "row 0 of the edge list is at least 0 and below 50000". The conjunction being one makes the last conjunct one; an
    all-reduction by and that is one had a one at every edge; the bit at an edge is the and of the two signed
    comparisons of that edge's word against the constants 0 and 50000. -/
theorem src_range {F : FTy → Type} [FloatOps F] [Cert.Pre_finite_inputs.Facts]
    (a0 : FVec F S50000x128 .f32) (a1 : FVec F S128x64 .f32) (a2 : FVec F S64 .f32) (a3 : FVec F S64x64 .f32)
    (a4 : FVec F S64 .f32) (a5 : FVec F S64x64 .f32) (a6 : FVec F S64 .f32) (a7 : FVec F S64x32 .f32) (a8 : FVec F S32 .f32)
    (a9 : FVec F S32x1 .f32) (a10 : FVec F S1 .f32) (a11 : IVec S2x800000 32)
    (hpre : Cert.Pre_finite_inputs.fn (F := F) a0 a1 a2 a3 a4 a5 a6 a7 a8 a9 a10 a11 = fun _ => 1#1) :
    ∀ e : S800000.Idx, 0 ≤ (srcOf a11 e).toInt ∧ (srcOf a11 e).toInt < 50000 := by
  haveI : Subsingleton S_.Idx := ⟨fun a b => funext fun d => d.elim0⟩
  have h := congrFun hpre ValueIdx.ix0
  dsimp only [Cert.Pre_finite_inputs.fn, Cert.Pre_finite_inputs.fn_part1, Cert.Pre_finite_inputs.fn_part2,
    Cert.Pre_finite_inputs.fn_part3] at h
  -- the last conjunct: the all-reduction over the edges
  have hall := (IntOp.andi_eq_one.1 h).2
  intro e
  -- its bit at edge e, and the two comparisons it is the and of
  have he := Host.reduce_andi_all _ _ _ _ _ hall e
  obtain ⟨h0, h1⟩ := IntOp.andi_eq_one.1 he
  have h0' := IntOp.cmpi_sge.1 h0
  have h1' := IntOp.cmpi_slt.1 h1
  exact ⟨by rw [← toInt_zero32]; exact h0', by rw [← toInt_50000]; exact h1'⟩

/-! ## The masked row gather under the range -/

section Take
variable {F : FTy → Type} [FloatOps F]

/-- The wrapped index words: a negative word has the table's height added once. -/
abbrev wrapped (src : IVec S800000 32) : IVec S800000 32 :=
  select (cmpi .slt src (broadcastInDim S800000 ![] bcast_S_S800000 (constantI S_ 32 0#32)))
    (addi src (broadcastInDim S800000 ![] bcast_S_S800000 (constantI S_ 32 50000#32))) src

/-- Under the range no word is wrapped. -/
theorem wrapped_eq (src : IVec S800000 32) (hr : ∀ e, 0 ≤ (src e).toInt ∧ (src e).toInt < 50000) : wrapped src = src := by
  funext e
  exact wrap_keep (src e) (hr e).1

/-- The range test of the wrapped words (as a column), reduced by and over the column's unit axis, is one at every
    edge: every entry of the column is a word of the index vector, which is in range. -/
theorem ok_all (src : IVec S800000 32) (hr : ∀ e, 0 ≤ (src e).toInt ∧ (src e).toInt < 50000) (e : S800000.Idx) :
    Host.reduce IntOp.andi
      (andi (cmpi .sge (broadcastInDim S800000x1 ![0] bcast_S800000_S800000x1_0 (wrapped src)) (broadcastInDim S800000x1 ![] bcast_S_S800000x1 (constantI S_ 32 0#32)))
        (cmpi .sle (broadcastInDim S800000x1 ![0] bcast_S800000_S800000x1_0 (wrapped src)) (broadcastInDim S800000x1 ![0, 1] bcast_S1x1_S800000x1_0_1 (broadcastInDim S1x1 ![1] bcast_S1_S1x1_1 (constantI S1 32 49999#32)))))
      (constantI S_ 1 1#1) reducesTo_S800000x1_S800000_d1 h_S_ e = 1#1 := by
  refine reduce_andi_of_all _ _ _ _ rfl (fun i => ?_) e
  rw [wrapped_eq src hr]
  exact range_test _ (hr _).1 (hr _).2

/-- Width 128: under the range the masked gather is the gather of the rows at the (wrapped) indices. -/
theorem take_eq_gather_128 (src : IVec S800000 32) (hr : ∀ e, 0 ≤ (src e).toInt ∧ (src e).toInt < 50000)
    (x : FVec F S50000x128 .f32) :
    Stretch.take128 x src = Host.gather gather_S50000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)) := by
  unfold Stretch.take128
  exact select_bcast_ones _ _ (ok_all src hr) _ _

/-- Width 64: the same. -/
theorem take_eq_gather_64 (src : IVec S800000 32) (hr : ∀ e, 0 ≤ (src e).toInt ∧ (src e).toInt < 50000)
    (x : FVec F S50000x64 .f32) :
    Stretch.take64 x src = Host.gather gather_S50000x64_S800000x1_S800000x64_1_0_n_n_0_1_164 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)) := by
  unfold Stretch.take64
  exact select_bcast_ones _ _ (ok_all src hr) _ _

end Take

end Cert.KernelIdeal.Mask
-- ==== Proof.KISpec.lean ====
import proofs.«408152_j74947179315796_1_alg».proof.KernelIdeal
import Idealize.ShloMosaic.Lib.ValueIdx
import Idealize.ShloMosaic.PureOps.Ideal
import Idealize.ShloMosaic.PureOps.Ideal.Laws

/-!
# The three scaling and layer stages as whole-array functions

Each of the first three stages of the graph convolution writes one array. Here each of those arrays is given as ONE
function of the stage's input arrays, entry by entry, at the ideal values (extended reals, exact operations).

* `G0`: the prescale. Row `p` of `x` is multiplied by the row's factor `s (p, 0)`.
* `G1`, `G2`: a layer. Row `p` of the aggregate is scaled by `nd (p, 0)`, multiplied into the weight matrix
  (entry `(p, q)` is the sum over `k` of the scaled row's entry `k` times `W (k, q)`), the bias `b (0, q)` is added,
  the result is clamped below at zero, and the row is scaled by `ns (p, 0)`.

An entry of the result depends on ONE row of the row-indexed inputs (and on the whole of `W` and `b`): this is what lets a
block of rows be computed from the same block of rows of the inputs.
-/

noncomputable section

open scoped BigOperators

namespace Cert.KernelIdeal.Spec

open Idealize.ShloMosaic Idealize.ShloMosaic.ValueIdx Cert.KernelIdeal

/-- The row coordinate of a rank-2 index, typed by the literal row count. -/
abbrev rowOf {n0 n1 : Nat} (i : (⟨2, ![n0, n1]⟩ : Shape).Idx) : Fin n0 := ⟨(i 0).val, idx2_lt0 i⟩
/-- The column coordinate of a rank-2 index, typed by the literal column count. -/
abbrev colOf {n0 n1 : Nat} (i : (⟨2, ![n0, n1]⟩ : Shape).Idx) : Fin n1 := ⟨(i 1).val, idx2_lt1 i⟩

/-- The zero the clamp compares with: the f32 word of all zero bits, read at the ideal values. -/
abbrev zeroWord : EReal := Ideal.ofBits .f32 0x00000000#32

/-! ## The prescale -/

/-- Entry `(p, q)` of the prescaled features: `x (p, q) * s (p, 0)`. -/
def g0 (x : Vec Ideal S50000x128 .f32) (s : Vec Ideal S50000x1 .f32) (p : Fin 50000) (q : Fin 128) : EReal :=
  x (ix2 p q) * s (ix2 p (0 : Fin 1))

/-- The prescaled features as one function of the features and the per-row factors. -/
def G0 (x : Vec Ideal S50000x128 .f32) (s : Vec Ideal S50000x1 .f32) : Vec Ideal S50000x128 .f32 :=
  fun i => g0 x s (rowOf i) (colOf i)

theorem G0_apply (x : Vec Ideal S50000x128 .f32) (s : Vec Ideal S50000x1 .f32) (p : Fin 50000) (q : Fin 128) :
    G0 x s (ix2 p q) = x (ix2 p q) * s (ix2 p (0 : Fin 1)) := rfl

/-! ## The first layer: 128 input features, 64 output features -/

/-- Entry `(p, q)` of the first layer's output:
    `max ((∑ k, (agg (p, k) * nd (p, 0)) * W (k, q)) + b (0, q)) 0 * ns (p, 0)`. -/
def g1 (agg : Vec Ideal S50000x128 .f32) (nd ns : Vec Ideal S50000x1 .f32) (W : Vec Ideal S128x64 .f32)
    (b : Vec Ideal S1x64 .f32) (p : Fin 50000) (q : Fin 64) : EReal :=
  max ((∑ k : Fin 128, (agg (ix2 p k) * nd (ix2 p (0 : Fin 1))) * W (ix2 k q)) + b (ix2 (0 : Fin 1) q)) zeroWord
    * ns (ix2 p (0 : Fin 1))

/-- The first layer's output as one function of the aggregate, the two per-row factors, the weights and the bias. -/
def G1 (agg : Vec Ideal S50000x128 .f32) (nd ns : Vec Ideal S50000x1 .f32) (W : Vec Ideal S128x64 .f32)
    (b : Vec Ideal S1x64 .f32) : Vec Ideal S50000x64 .f32 :=
  fun i => g1 agg nd ns W b (rowOf i) (colOf i)

theorem G1_apply (agg : Vec Ideal S50000x128 .f32) (nd ns : Vec Ideal S50000x1 .f32) (W : Vec Ideal S128x64 .f32)
    (b : Vec Ideal S1x64 .f32) (p : Fin 50000) (q : Fin 64) :
    G1 agg nd ns W b (ix2 p q)
      = max ((∑ k : Fin 128, (agg (ix2 p k) * nd (ix2 p (0 : Fin 1))) * W (ix2 k q)) + b (ix2 (0 : Fin 1) q)) zeroWord
          * ns (ix2 p (0 : Fin 1)) := rfl

/-! ## The second layer: 64 input features, 64 output features -/

/-- Entry `(p, q)` of the second layer's output: the first layer's formula with 64 input features. -/
def g2 (agg : Vec Ideal S50000x64 .f32) (nd ns : Vec Ideal S50000x1 .f32) (W : Vec Ideal S64x64 .f32)
    (b : Vec Ideal S1x64 .f32) (p : Fin 50000) (q : Fin 64) : EReal :=
  max ((∑ k : Fin 64, (agg (ix2 p k) * nd (ix2 p (0 : Fin 1))) * W (ix2 k q)) + b (ix2 (0 : Fin 1) q)) zeroWord
    * ns (ix2 p (0 : Fin 1))

/-- The second layer's output as one function of the aggregate, the two per-row factors, the weights and the bias. -/
def G2 (agg : Vec Ideal S50000x64 .f32) (nd ns : Vec Ideal S50000x1 .f32) (W : Vec Ideal S64x64 .f32)
    (b : Vec Ideal S1x64 .f32) : Vec Ideal S50000x64 .f32 :=
  fun i => g2 agg nd ns W b (rowOf i) (colOf i)

theorem G2_apply (agg : Vec Ideal S50000x64 .f32) (nd ns : Vec Ideal S50000x1 .f32) (W : Vec Ideal S64x64 .f32)
    (b : Vec Ideal S1x64 .f32) (p : Fin 50000) (q : Fin 64) :
    G2 agg nd ns W b (ix2 p q)
      = max ((∑ k : Fin 64, (agg (ix2 p k) * nd (ix2 p (0 : Fin 1))) * W (ix2 k q)) + b (ix2 (0 : Fin 1) q)) zeroWord
          * ns (ix2 p (0 : Fin 1)) := rfl

end Cert.KernelIdeal.Spec

end
-- ==== Proof.KIRefEq.lean ====
import proofs.«408152_j74947179315796_1_alg».proof.Proof.KISpec
import proofs.«408152_j74947179315796_1_alg».proof.Proof.Gen.ReferenceIdeal.Read
import Idealize.ShloMosaic.Lib.Pipeline.Value
import Idealize.ShloMosaic.Lib.ValueIdx
import Idealize.ShloMosaic.PureOps.Ideal.Laws

/-!
# The reference's stages are the whole-array functions

The reference computes each stage by a chain of whole-array operations: a per-row factor `[50000]` is broadcast to a
column `[50000, 1]` and then along the columns; a bias `[64]` to a row `[1, 64]` and then along the rows; the matrix
product is a `dot_general` contracting the feature axis; the clamp is a maximum with the broadcast zero. Read at an entry
`(p, q)`, each broadcast is its operand at row `p` (or column `q`), the product is the sum over the feature index, and
the chain is the entry of `G0`, `G1`, `G2`. The kernel's side reshapes the same `[50000]` and `[64]` arrays to
`[50000, 1]` and `[1, 64]`: a reshape to a column (a row) keeps entry `p` (`q`) where the broadcast puts it, so the two
agree.
-/

noncomputable section

open scoped BigOperators

namespace Cert.KernelIdeal.Spec

open Idealize.ShloMosaic Idealize.ShloMosaic.ValueIdx Cert.KernelIdeal

/-! ## Columns and rows: a reshape and a broadcast put the same entry in the same place -/

/-- The `[50000]` array reshaped to a column, at row `p`: entry `p`. -/
theorem col_cast (v : Vec Ideal S50000 .f32) (h : S50000.ShapeCasts S50000x1) (p : Fin 50000) :
    shapeCast S50000x1 v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- The `[50000]` array broadcast to a column, at row `p`: entry `p`. -/
theorem col_bcast (v : Vec Ideal S50000 .f32) (h : S50000.BroadcastsInDim S50000x1 (![0] : Fin 1 → Fin S50000x1.rank))
    (p : Fin 50000) : broadcastInDim S50000x1 ![0] h v (ix2 p (0 : Fin 1)) = v (ix1 p) :=
  broadcastInDim_apply _ h v (ix2 p (0 : Fin 1)) (ix1 p) (fun a => match a with
    | ⟨0, _⟩ => by show p.val = if (50000 : Nat) = 1 then 0 else p.val; rw [if_neg (by decide)])

/-- A column broadcast along 128 columns, at `(p, q)`: the column's entry at row `p`. -/
theorem bcast_col128 (w : Vec Ideal S50000x1 .f32)
    (h : S50000x1.BroadcastsInDim S50000x128 (![0, 1] : Fin 2 → Fin S50000x128.rank)) (p : Fin 50000) (q : Fin 128) :
    broadcastInDim S50000x128 ![0, 1] h w (ix2 p q) = w (ix2 p (0 : Fin 1)) :=
  broadcastInDim_apply _ h w (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])

/-- A column broadcast along 64 columns, at `(p, q)`: the column's entry at row `p`. -/
theorem bcast_col64 (w : Vec Ideal S50000x1 .f32)
    (h : S50000x1.BroadcastsInDim S50000x64 (![0, 1] : Fin 2 → Fin S50000x64.rank)) (p : Fin 50000) (q : Fin 64) :
    broadcastInDim S50000x64 ![0, 1] h w (ix2 p q) = w (ix2 p (0 : Fin 1)) :=
  broadcastInDim_apply _ h w (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])

/-- The `[64]` array reshaped to a row, at column `q`: entry `q`. -/
theorem row_cast (v : Vec Ideal S64 .f32) (h : S64.ShapeCasts S1x64) (q : Fin 64) :
    shapeCast S1x64 v h (ix2 (0 : Fin 1) q) = v (ix1 q) := by
  refine shapeCast_apply v h (ix2 (0 : Fin 1) q) (ix1 q) ?_
  rw [Shape.rowMajor_val_one, Shape.rowMajor_val_two]
  show q.val = 0 * 64 + q.val
  omega

/-- The `[64]` array broadcast to a row, at column `q`: entry `q`. -/
theorem row_bcast (v : Vec Ideal S64 .f32) (h : S64.BroadcastsInDim S1x64 (![1] : Fin 1 → Fin S1x64.rank)) (q : Fin 64) :
    broadcastInDim S1x64 ![1] h v (ix2 (0 : Fin 1) q) = v (ix1 q) :=
  broadcastInDim_apply _ h v (ix2 (0 : Fin 1) q) (ix1 q) (fun a => match a with
    | ⟨0, _⟩ => by show q.val = if (64 : Nat) = 1 then 0 else q.val; rw [if_neg (by decide)])

/-- A row broadcast along the 50000 rows, at `(p, q)`: the row's entry at column `q`. -/
theorem bcast_row (w : Vec Ideal S1x64 .f32)
    (h : S1x64.BroadcastsInDim S50000x64 (![0, 1] : Fin 2 → Fin S50000x64.rank)) (p : Fin 50000) (q : Fin 64) :
    broadcastInDim S50000x64 ![0, 1] h w (ix2 p q) = w (ix2 (0 : Fin 1) q) :=
  broadcastInDim_apply _ h w (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-- The scalar zero broadcast to the whole array, at any entry: the zero word's value. -/
theorem bcast_zero (h : Cert.ReferenceIdeal.S_.BroadcastsInDim S50000x64 (![] : Fin 0 → Fin S50000x64.rank))
    (i : S50000x64.Idx) :
    broadcastInDim S50000x64 ![] h (constant (F := Ideal) Cert.ReferenceIdeal.S_ .f32 0x00000000#32) i = zeroWord :=
  broadcastInDim_apply _ h (constant (F := Ideal) Cert.ReferenceIdeal.S_ .f32 0x00000000#32) i (fun a => a.elim0)
    (fun a => a.elim0)

/-! ## The matrix product at an entry

The product contracts the left operand's column axis with the right operand's row axis: entry `(p, q)` is the sum over
the one contraction index `k` of the left operand at `(p, k)` times the right at `(k, q)`. The four lemmas before each
read one coordinate of an operand's index at an output index and a contraction index. -/

theorem lhs128_0 (i : S50000x64.Idx) (k : Cert.ReferenceIdeal.dot_S50000x128_S128x64_S50000x64_1_0_0_1_n_n.contr.Idx) :
    (Cert.ReferenceIdeal.dot_S50000x128_S128x64_S50000x64_1_0_0_1_n_n.lhsIdx i k 0).val = (i 0).val := by
  unfold DotDims.lhsIdx
  rw [dif_neg (show ¬(0 : Fin S50000x128.rank) ∈ Cert.ReferenceIdeal.dot_S50000x128_S128x64_S50000x64_1_0_0_1_n_n.lhsBatch from List.not_mem_nil), dif_pos (show (0 : Fin S50000x128.rank) ∈ Cert.ReferenceIdeal.dot_S50000x128_S128x64_S50000x64_1_0_0_1_n_n.lhsNonContracting from List.mem_singleton.mpr rfl)]
  rfl
theorem lhs128_1 (i : S50000x64.Idx) (k : Cert.ReferenceIdeal.dot_S50000x128_S128x64_S50000x64_1_0_0_1_n_n.contr.Idx) :
    (Cert.ReferenceIdeal.dot_S50000x128_S128x64_S50000x64_1_0_0_1_n_n.lhsIdx i k 1).val = (k ⟨0, (show 0 < Cert.ReferenceIdeal.dot_S50000x128_S128x64_S50000x64_1_0_0_1_n_n.contr.rank from Nat.one_pos)⟩).val :=
  Cert.ReferenceIdeal.dot_S50000x128_S128x64_S50000x64_1_0_0_1_n_n.lhsIdx_val_of_single rfl i k
theorem rhs128_0 (i : S50000x64.Idx) (k : Cert.ReferenceIdeal.dot_S50000x128_S128x64_S50000x64_1_0_0_1_n_n.contr.Idx) :
    (Cert.ReferenceIdeal.dot_S50000x128_S128x64_S50000x64_1_0_0_1_n_n.rhsIdx i k 0).val = (k ⟨0, (show 0 < Cert.ReferenceIdeal.dot_S50000x128_S128x64_S50000x64_1_0_0_1_n_n.contr.rank from Nat.one_pos)⟩).val :=
  Cert.ReferenceIdeal.dot_S50000x128_S128x64_S50000x64_1_0_0_1_n_n.rhsIdx_val_of_single rfl i k
theorem rhs128_1 (i : S50000x64.Idx) (k : Cert.ReferenceIdeal.dot_S50000x128_S128x64_S50000x64_1_0_0_1_n_n.contr.Idx) :
    (Cert.ReferenceIdeal.dot_S50000x128_S128x64_S50000x64_1_0_0_1_n_n.rhsIdx i k 1).val = (i 1).val := by
  unfold DotDims.rhsIdx
  rw [dif_neg (show ¬(1 : Fin S128x64.rank) ∈ Cert.ReferenceIdeal.dot_S50000x128_S128x64_S50000x64_1_0_0_1_n_n.rhsBatch from List.not_mem_nil), dif_pos (show (1 : Fin S128x64.rank) ∈ Cert.ReferenceIdeal.dot_S50000x128_S128x64_S50000x64_1_0_0_1_n_n.rhsNonContracting from List.mem_singleton.mpr rfl)]
  rfl

/-- The `[50000, 128] × [128, 64]` product at entry `(p, q)`: the sum over the 128 features. -/
theorem dot128_apply (A : Vec Ideal S50000x128 .f32) (W : Vec Ideal S128x64 .f32) (p : Fin 50000) (q : Fin 64) :
    Host.dotGeneral (F := Ideal) (φ₁ := .f32) (φ₂ := .f32) Cert.ReferenceIdeal.dot_S50000x128_S128x64_S50000x64_1_0_0_1_n_n none A W (ix2 p q) = ∑ k : Fin 128, A (ix2 p k) * W (ix2 k q) := by
  simp only [Host.dotGeneral]
  rw [Ideal.dotGeneral_apply, ← Equiv.sum_comp (contrEquiv1 Cert.ReferenceIdeal.dot_S50000x128_S128x64_S50000x64_1_0_0_1_n_n 128 rfl rfl).symm]
  refine Finset.sum_congr rfl fun k _ => ?_
  have hk := contrEquiv1_symm_val Cert.ReferenceIdeal.dot_S50000x128_S128x64_S50000x64_1_0_0_1_n_n 128 rfl rfl k
  have el : Cert.ReferenceIdeal.dot_S50000x128_S128x64_S50000x64_1_0_0_1_n_n.lhsIdx (ix2 p q) ((contrEquiv1 Cert.ReferenceIdeal.dot_S50000x128_S128x64_S50000x64_1_0_0_1_n_n 128 rfl rfl).symm k) = ix2 p k := funext fun a => Fin.ext (by
    match a with
    | ⟨0, _⟩ => exact lhs128_0 _ _
    | ⟨1, _⟩ => exact (lhs128_1 _ _).trans hk)
  have er : Cert.ReferenceIdeal.dot_S50000x128_S128x64_S50000x64_1_0_0_1_n_n.rhsIdx (ix2 p q) ((contrEquiv1 Cert.ReferenceIdeal.dot_S50000x128_S128x64_S50000x64_1_0_0_1_n_n 128 rfl rfl).symm k) = ix2 k q := funext fun a => Fin.ext (by
    match a with
    | ⟨0, _⟩ => exact (rhs128_0 _ _).trans hk
    | ⟨1, _⟩ => exact rhs128_1 _ _)
  rw [el, er]

theorem lhs64_0 (i : S50000x64.Idx) (k : Cert.ReferenceIdeal.dot_S50000x64_S64x64_S50000x64_1_0_0_1_n_n.contr.Idx) :
    (Cert.ReferenceIdeal.dot_S50000x64_S64x64_S50000x64_1_0_0_1_n_n.lhsIdx i k 0).val = (i 0).val := by
  unfold DotDims.lhsIdx
  rw [dif_neg (show ¬(0 : Fin S50000x64.rank) ∈ Cert.ReferenceIdeal.dot_S50000x64_S64x64_S50000x64_1_0_0_1_n_n.lhsBatch from List.not_mem_nil), dif_pos (show (0 : Fin S50000x64.rank) ∈ Cert.ReferenceIdeal.dot_S50000x64_S64x64_S50000x64_1_0_0_1_n_n.lhsNonContracting from List.mem_singleton.mpr rfl)]
  rfl
theorem lhs64_1 (i : S50000x64.Idx) (k : Cert.ReferenceIdeal.dot_S50000x64_S64x64_S50000x64_1_0_0_1_n_n.contr.Idx) :
    (Cert.ReferenceIdeal.dot_S50000x64_S64x64_S50000x64_1_0_0_1_n_n.lhsIdx i k 1).val = (k ⟨0, (show 0 < Cert.ReferenceIdeal.dot_S50000x64_S64x64_S50000x64_1_0_0_1_n_n.contr.rank from Nat.one_pos)⟩).val :=
  Cert.ReferenceIdeal.dot_S50000x64_S64x64_S50000x64_1_0_0_1_n_n.lhsIdx_val_of_single rfl i k
theorem rhs64_0 (i : S50000x64.Idx) (k : Cert.ReferenceIdeal.dot_S50000x64_S64x64_S50000x64_1_0_0_1_n_n.contr.Idx) :
    (Cert.ReferenceIdeal.dot_S50000x64_S64x64_S50000x64_1_0_0_1_n_n.rhsIdx i k 0).val = (k ⟨0, (show 0 < Cert.ReferenceIdeal.dot_S50000x64_S64x64_S50000x64_1_0_0_1_n_n.contr.rank from Nat.one_pos)⟩).val :=
  Cert.ReferenceIdeal.dot_S50000x64_S64x64_S50000x64_1_0_0_1_n_n.rhsIdx_val_of_single rfl i k
theorem rhs64_1 (i : S50000x64.Idx) (k : Cert.ReferenceIdeal.dot_S50000x64_S64x64_S50000x64_1_0_0_1_n_n.contr.Idx) :
    (Cert.ReferenceIdeal.dot_S50000x64_S64x64_S50000x64_1_0_0_1_n_n.rhsIdx i k 1).val = (i 1).val := by
  unfold DotDims.rhsIdx
  rw [dif_neg (show ¬(1 : Fin S64x64.rank) ∈ Cert.ReferenceIdeal.dot_S50000x64_S64x64_S50000x64_1_0_0_1_n_n.rhsBatch from List.not_mem_nil), dif_pos (show (1 : Fin S64x64.rank) ∈ Cert.ReferenceIdeal.dot_S50000x64_S64x64_S50000x64_1_0_0_1_n_n.rhsNonContracting from List.mem_singleton.mpr rfl)]
  rfl

/-- The `[50000, 64] × [64, 64]` product at entry `(p, q)`: the sum over the 64 features. -/
theorem dot64_apply (A : Vec Ideal S50000x64 .f32) (W : Vec Ideal S64x64 .f32) (p : Fin 50000) (q : Fin 64) :
    Host.dotGeneral (F := Ideal) (φ₁ := .f32) (φ₂ := .f32) Cert.ReferenceIdeal.dot_S50000x64_S64x64_S50000x64_1_0_0_1_n_n none A W (ix2 p q) = ∑ k : Fin 64, A (ix2 p k) * W (ix2 k q) := by
  simp only [Host.dotGeneral]
  rw [Ideal.dotGeneral_apply, ← Equiv.sum_comp (contrEquiv1 Cert.ReferenceIdeal.dot_S50000x64_S64x64_S50000x64_1_0_0_1_n_n 64 rfl rfl).symm]
  refine Finset.sum_congr rfl fun k _ => ?_
  have hk := contrEquiv1_symm_val Cert.ReferenceIdeal.dot_S50000x64_S64x64_S50000x64_1_0_0_1_n_n 64 rfl rfl k
  have el : Cert.ReferenceIdeal.dot_S50000x64_S64x64_S50000x64_1_0_0_1_n_n.lhsIdx (ix2 p q) ((contrEquiv1 Cert.ReferenceIdeal.dot_S50000x64_S64x64_S50000x64_1_0_0_1_n_n 64 rfl rfl).symm k) = ix2 p k := funext fun a => Fin.ext (by
    match a with
    | ⟨0, _⟩ => exact lhs64_0 _ _
    | ⟨1, _⟩ => exact (lhs64_1 _ _).trans hk)
  have er : Cert.ReferenceIdeal.dot_S50000x64_S64x64_S50000x64_1_0_0_1_n_n.rhsIdx (ix2 p q) ((contrEquiv1 Cert.ReferenceIdeal.dot_S50000x64_S64x64_S50000x64_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-- The product of the operand whose rows are scaled by a column: entry `(p, q)` is the sum over `k` of
    `(A (p, k) * w (p, 0)) * W (k, q)`. -/
theorem scaled_dot128_apply (A : Vec Ideal S50000x128 .f32) (w : Vec Ideal S50000x1 .f32)
    (h : S50000x1.BroadcastsInDim S50000x128 (![0, 1] : Fin 2 → Fin S50000x128.rank)) (W : Vec Ideal S128x64 .f32)
    (p : Fin 50000) (q : Fin 64) :
    Host.dotGeneral (F := Ideal) (φ₁ := .f32) (φ₂ := .f32) Cert.ReferenceIdeal.dot_S50000x128_S128x64_S50000x64_1_0_0_1_n_n none
        (mulf (F := Ideal) (φ := .f32) A (broadcastInDim S50000x128 ![0, 1] h w)) W (ix2 p q)
      = ∑ k : Fin 128, (A (ix2 p k) * w (ix2 p (0 : Fin 1))) * W (ix2 k q) := by
  rw [dot128_apply]
  refine Finset.sum_congr rfl fun k _ => ?_
  rw [mulf_apply, bcast_col128]

/-- The product of the operand whose rows are scaled by a column: entry `(p, q)` is the sum over `k` of
    `(A (p, k) * w (p, 0)) * W (k, q)`. -/
theorem scaled_dot64_apply (A : Vec Ideal S50000x64 .f32) (w : Vec Ideal S50000x1 .f32)
    (h : S50000x1.BroadcastsInDim S50000x64 (![0, 1] : Fin 2 → Fin S50000x64.rank)) (W : Vec Ideal S64x64 .f32)
    (p : Fin 50000) (q : Fin 64) :
    Host.dotGeneral (F := Ideal) (φ₁ := .f32) (φ₂ := .f32) Cert.ReferenceIdeal.dot_S50000x64_S64x64_S50000x64_1_0_0_1_n_n none
        (mulf (F := Ideal) (φ := .f32) A (broadcastInDim S50000x64 ![0, 1] h w)) W (ix2 p q)
      = ∑ k : Fin 64, (A (ix2 p k) * w (ix2 p (0 : Fin 1))) * W (ix2 k q) := by
  rw [dot64_apply]
  refine Finset.sum_congr rfl fun k _ => ?_
  rw [mulf_apply, bcast_col64]

/-! ## The reference's three stages, each as one term of its operands

`refLayer0`, `refLayer1`, `refLayer2` are the reference's chains of whole-array operations, operation for operation, as
functions of the arrays the chain starts from. The reference's own stage values are these terms at its own operands
(`refLayer0_eq`, `refLayer1_eq`, `refLayer2_eq`: by unfolding the stage definitions). -/

/-- The reference's prescale: the features times the per-row factor, broadcast to a column and then along the columns. -/
def refLayer0 (x : Vec Ideal S50000x128 .f32) (ns : Vec Ideal S50000 .f32) : Vec Ideal S50000x128 .f32 :=
  mulf (F := Ideal) (φ := .f32) x
    (broadcastInDim Cert.ReferenceIdeal.S50000x128 ![0, 1] Cert.ReferenceIdeal.Gen.bcast_S50000x1_S50000x128_0_1
            (broadcastInDim Cert.ReferenceIdeal.S50000x1 ![0] Cert.ReferenceIdeal.Gen.bcast_S50000_S50000x1_0 ns))

/-- The reference's first layer: rows scaled by `nd`, times the weights, plus the bias broadcast to a row and along the
    rows, the maximum with the broadcast zero, rows scaled by `ns`. -/
def refLayer1 (agg : Vec Ideal S50000x128 .f32) (nd ns : Vec Ideal S50000 .f32) (W : Vec Ideal S128x64 .f32)
    (b : Vec Ideal S64 .f32) : Vec Ideal S50000x64 .f32 :=
  mulf (F := Ideal) (φ := .f32)
    (maximumf (F := Ideal) (φ := .f32)
      (addf (F := Ideal) (φ := .f32)
        (Host.dotGeneral (F := Ideal) (φ₁ := .f32) (φ₂ := .f32) Cert.ReferenceIdeal.dot_S50000x128_S128x64_S50000x64_1_0_0_1_n_n none
          (mulf (F := Ideal) (φ := .f32) agg
            (broadcastInDim Cert.ReferenceIdeal.S50000x128 ![0, 1] Cert.ReferenceIdeal.Gen.bcast_S50000x1_S50000x128_0_1
            (broadcastInDim Cert.ReferenceIdeal.S50000x1 ![0] Cert.ReferenceIdeal.Gen.bcast_S50000_S50000x1_0 nd)))
          W)
        (broadcastInDim Cert.ReferenceIdeal.S50000x64 ![0, 1] Cert.ReferenceIdeal.Gen.bcast_S1x64_S50000x64_0_1
          (broadcastInDim Cert.ReferenceIdeal.S1x64 ![1] Cert.ReferenceIdeal.Gen.bcast_S64_S1x64_1 b)))
      (broadcastInDim Cert.ReferenceIdeal.S50000x64 ![] Cert.ReferenceIdeal.Gen.bcast_S_S50000x64
        (constant (F := Ideal) Cert.ReferenceIdeal.S_ .f32 0x00000000#32)))
    (broadcastInDim Cert.ReferenceIdeal.S50000x64 ![0, 1] Cert.ReferenceIdeal.Gen.bcast_S50000x1_S50000x64_0_1
            (broadcastInDim Cert.ReferenceIdeal.S50000x1 ![0] Cert.ReferenceIdeal.Gen.bcast_S50000_S50000x1_0 ns))

/-- The reference's second layer: the first layer's chain with 64 input features. -/
def refLayer2 (agg : Vec Ideal S50000x64 .f32) (nd ns : Vec Ideal S50000 .f32) (W : Vec Ideal S64x64 .f32)
    (b : Vec Ideal S64 .f32) : Vec Ideal S50000x64 .f32 :=
  mulf (F := Ideal) (φ := .f32)
    (maximumf (F := Ideal) (φ := .f32)
      (addf (F := Ideal) (φ := .f32)
        (Host.dotGeneral (F := Ideal) (φ₁ := .f32) (φ₂ := .f32) Cert.ReferenceIdeal.dot_S50000x64_S64x64_S50000x64_1_0_0_1_n_n none
          (mulf (F := Ideal) (φ := .f32) agg
            (broadcastInDim Cert.ReferenceIdeal.S50000x64 ![0, 1] Cert.ReferenceIdeal.Gen.bcast_S50000x1_S50000x64_0_1
            (broadcastInDim Cert.ReferenceIdeal.S50000x1 ![0] Cert.ReferenceIdeal.Gen.bcast_S50000_S50000x1_0 nd)))
          W)
        (broadcastInDim Cert.ReferenceIdeal.S50000x64 ![0, 1] Cert.ReferenceIdeal.Gen.bcast_S1x64_S50000x64_0_1
          (broadcastInDim Cert.ReferenceIdeal.S1x64 ![1] Cert.ReferenceIdeal.Gen.bcast_S64_S1x64_1 b)))
      (broadcastInDim Cert.ReferenceIdeal.S50000x64 ![] Cert.ReferenceIdeal.Gen.bcast_S_S50000x64
        (constant (F := Ideal) Cert.ReferenceIdeal.S_ .f32 0x00000000#32)))
    (broadcastInDim Cert.ReferenceIdeal.S50000x64 ![0, 1] Cert.ReferenceIdeal.Gen.bcast_S50000x1_S50000x64_0_1
            (broadcastInDim Cert.ReferenceIdeal.S50000x1 ![0] Cert.ReferenceIdeal.Gen.bcast_S50000_S50000x1_0 ns))

/-- The reference's prescaled features are `refLayer0` of the features and its per-row factor. -/
theorem refLayer0_eq (x0 : (⟨Cert.ReferenceIdeal.S50000x128, .f32⟩ : BufTy).Contents (Elt Ideal)) (x11 : (⟨Cert.ReferenceIdeal.S2x800000, .i32⟩ : BufTy).Contents (Elt Ideal)) :
    Cert.ReferenceIdeal.Read.val_main_v19 (F := Ideal) x0 x11 = refLayer0 x0 (Cert.ReferenceIdeal.Read.val_main_v13 (F := Ideal) x11) := rfl

/-- The reference's first layer output is `refLayer1` of its first aggregate, its two per-row factors, the first weights
    and bias. -/
theorem refLayer1_eq (x0 : (⟨Cert.ReferenceIdeal.S50000x128, .f32⟩ : BufTy).Contents (Elt Ideal)) (x1 : (⟨Cert.ReferenceIdeal.S128x64, .f32⟩ : BufTy).Contents (Elt Ideal)) (x2 : (⟨Cert.ReferenceIdeal.S64, .f32⟩ : BufTy).Contents (Elt Ideal))
    (x11 : (⟨Cert.ReferenceIdeal.S2x800000, .i32⟩ : BufTy).Contents (Elt Ideal)) :
    Cert.ReferenceIdeal.Read.val_main_v40 (F := Ideal) x0 x1 x2 x11
      = refLayer1 (Cert.ReferenceIdeal.Read.val_main_v29 (F := Ideal) x0 x11) (Cert.ReferenceIdeal.Read.val_main_v16 (F := Ideal) x11)
          (Cert.ReferenceIdeal.Read.val_main_v13 (F := Ideal) x11) x1 x2 := rfl

/-- The reference's second layer output is `refLayer2` of its second aggregate, its two per-row factors, the second
    weights and bias. -/
theorem refLayer2_eq (x0 : (⟨Cert.ReferenceIdeal.S50000x128, .f32⟩ : BufTy).Contents (Elt Ideal)) (x1 : (⟨Cert.ReferenceIdeal.S128x64, .f32⟩ : BufTy).Contents (Elt Ideal)) (x2 : (⟨Cert.ReferenceIdeal.S64, .f32⟩ : BufTy).Contents (Elt Ideal))
    (x3 : (⟨Cert.ReferenceIdeal.S64x64, .f32⟩ : BufTy).Contents (Elt Ideal)) (x4 : (⟨Cert.ReferenceIdeal.S64, .f32⟩ : BufTy).Contents (Elt Ideal)) (x11 : (⟨Cert.ReferenceIdeal.S2x800000, .i32⟩ : BufTy).Contents (Elt Ideal)) :
    Cert.ReferenceIdeal.Read.val_main_v61 (F := Ideal) x0 x1 x2 x3 x4 x11
      = refLayer2 (Cert.ReferenceIdeal.Read.val_main_v50 (F := Ideal) x0 x1 x2 x11) (Cert.ReferenceIdeal.Read.val_main_v16 (F := Ideal) x11)
          (Cert.ReferenceIdeal.Read.val_main_v13 (F := Ideal) x11) x3 x4 := rfl

/-! ## Each stage's function is the reference's chain

The kernel's side has the per-row factors and the bias reshaped to a column and a row (`hc`, `hr`: the reshapes'
side conditions); the reference broadcasts them. Entry by entry both sides are the same expression. -/

/-- The prescale: entry `(p, q)` of both sides is `x (p, q) * ns p`. -/
theorem G0_eq (x : Vec Ideal S50000x128 .f32) (ns : Vec Ideal S50000 .f32) (hc : S50000.ShapeCasts S50000x1) :
    G0 x (shapeCast S50000x1 ns hc) = refLayer0 x ns := by
  funext i
  obtain ⟨p, q, rfl⟩ : ∃ (p : Fin 50000) (q : Fin 128), i = ix2 p q := ⟨i 0, i 1, eq_ix2 i⟩
  unfold refLayer0
  rw [G0_apply, mulf_apply, col_cast, bcast_col128, col_bcast]

/-- The first layer: entry `(p, q)` of both sides is
    `max ((∑ k, (agg (p, k) * nd p) * W (k, q)) + b q) 0 * ns p`. -/
theorem G1_eq (agg : Vec Ideal S50000x128 .f32) (nd ns : Vec Ideal S50000 .f32) (W : Vec Ideal S128x64 .f32)
    (b : Vec Ideal S64 .f32) (hc : S50000.ShapeCasts S50000x1) (hr : S64.ShapeCasts S1x64) :
    G1 agg (shapeCast S50000x1 nd hc) (shapeCast S50000x1 ns hc) W (shapeCast S1x64 b hr) = refLayer1 agg nd ns W b := by
  funext i
  obtain ⟨p, q, rfl⟩ : ∃ (p : Fin 50000) (q : Fin 64), i = ix2 p q := ⟨i 0, i 1, eq_ix2 i⟩
  unfold refLayer1
  rw [G1_apply, mulf_apply, maximumf_apply, addf_apply, scaled_dot128_apply, bcast_row, row_bcast, bcast_zero,
    bcast_col64, col_bcast, col_bcast, col_cast, col_cast, row_cast]

/-- The second layer: the first layer's entry with 64 input features. -/
theorem G2_eq (agg : Vec Ideal S50000x64 .f32) (nd ns : Vec Ideal S50000 .f32) (W : Vec Ideal S64x64 .f32)
    (b : Vec Ideal S64 .f32) (hc : S50000.ShapeCasts S50000x1) (hr : S64.ShapeCasts S1x64) :
    G2 agg (shapeCast S50000x1 nd hc) (shapeCast S50000x1 ns hc) W (shapeCast S1x64 b hr) = refLayer2 agg nd ns W b := by
  funext i
  obtain ⟨p, q, rfl⟩ : ∃ (p : Fin 50000) (q : Fin 64), i = ix2 p q := ⟨i 0, i 1, eq_ix2 i⟩
  unfold refLayer2
  rw [G2_apply, mulf_apply, maximumf_apply, addf_apply, scaled_dot64_apply, bcast_row, row_bcast, bcast_zero,
    bcast_col64, col_bcast, col_bcast, col_cast, col_cast, row_cast]

end Cert.KernelIdeal.Spec

end
-- ==== Proof.LibBlockSum.lean ====
/-
  Sums over blocks of consecutive indices, and running sums: a sum over B blocks of S consecutive indices is the sum
  over all B·S indices; a sequence that starts at its first term and adds one more term at each step is the partial sum.
-/
import Mathlib.Algebra.BigOperators.Fin
import Mathlib.Data.Fintype.BigOperators
import Mathlib.Logic.Equiv.Fin.Basic

namespace Cert.BlockSum

open scoped BigOperators

/-- The `r`-th index of the `b`-th block of `S` consecutive indices, among `B` blocks, is below `B * S`. -/
theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below
    `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Twelve blocks of 1024 consecutive indices make up the 12288 indices. -/
theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

/-- Four blocks of 1536 consecutive indices make up the 6144 indices. -/
theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

/-- A running sum from its first term: if `a 0 = g 0` and `a (j + 1) = a j + g (j + 1)` for every `j`, then
    `a j` is the sum of `g` over the first `j + 1` indices. -/
theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

/-- The sum over the first twelve naturals is the sum over `Fin 12`. -/
theorem sum_range_12 {M : Type*} [AddCommMonoid M] (g : ℕ → M) :
    ∑ i ∈ Finset.range 12, g i = ∑ b : Fin 12, g b.val :=
  Finset.sum_range g

/-- The sum over the first four naturals is the sum over `Fin 4`. -/
theorem sum_range_4 {M : Type*} [AddCommMonoid M] (g : ℕ → M) :
    ∑ i ∈ Finset.range 4, g i = ∑ b : Fin 4, g b.val :=
  Finset.sum_range g

end Cert.BlockSum
-- ==== Proof.KISpec3.lean ====
/-
  The value of the last region as ONE function of the arrays it reads.

  With Y(p, q) = max((∑ k, (agg(p, k) · nd(p, 0)) · W3(k, q)) + b3(0, q), 0) for p < 50000, q < 64 (the third layer's
  output, row p, column q), the region's 1 × 1 result is

      logistic((∑ j, max((∑ q, ((∑ p, Y(p, q)) · (1 / 50000)) · Wf1(q, j)) + bf1(0, j), 0) · Wf2(j, 0)) + bf2(0, 0)):

  the mean of Y over the 50000 rows, through a two-layer head, through the logistic. All sums are sums of extended
  reals; the sum over the 50000 rows is also the sum, over the ten blocks of 5000 consecutive rows, of each block's
  column sum (addition of extended reals is commutative and associative: no finiteness is needed to regroup).
-/
import proofs.«408152_j74947179315796_1_alg».proof.KernelIdeal
import proofs.«408152_j74947179315796_1_alg».proof.Proof.LibBlockSum
import Idealize.ShloMosaic.Lib.ValueIdx
import Idealize.ShloMosaic.PureOps.Ideal

noncomputable section

namespace Cert.KernelIdeal.Spec

open Idealize.ShloMosaic Idealize.ShloMosaic.ValueIdx Cert.KernelIdeal
open scoped BigOperators

/-- Row `p`, column `q` of the third layer: the row of `agg` scaled by `nd`'s entry of that row, times `W3`, plus the
    bias row, clipped below at zero. -/
def Y3 (agg : Vec Ideal S50000x64 .f32) (nd : Vec Ideal S50000x1 .f32) (W3 : Vec Ideal S64x64 .f32)
    (b3 : Vec Ideal S1x64 .f32) (p : Fin 50000) (q : Fin 64) : EReal :=
  max ((∑ k : Fin 64, (agg (ix2 p k) * nd (ix2 p (0 : Fin 1))) * W3 (ix2 k q)) + b3 (ix2 (0 : Fin 1) q)) 0

/-- Column `q` of the pooled sum: the third layer's column summed over all 50000 rows. -/
def pool3 (agg : Vec Ideal S50000x64 .f32) (nd : Vec Ideal S50000x1 .f32) (W3 : Vec Ideal S64x64 .f32)
    (b3 : Vec Ideal S1x64 .f32) (q : Fin 64) : EReal :=
  ∑ p : Fin 50000, Y3 agg nd W3 b3 p q

/-- Row `r` of block `s` (of 5000 consecutive rows, ten blocks) is row `5000 s + r` of the array. -/
abbrev row3 (s : Fin 10) (r : Fin 5000) : Fin 50000 := ⟨5000 * s.val + r.val, by omega⟩

/-- Column `q` of block `s`'s column sums. -/
def blockSum3 (agg : Vec Ideal S50000x64 .f32) (nd : Vec Ideal S50000x1 .f32) (W3 : Vec Ideal S64x64 .f32)
    (b3 : Vec Ideal S1x64 .f32) (s : Fin 10) (q : Fin 64) : EReal :=
  ∑ r : Fin 5000, Y3 agg nd W3 b3 (row3 s r) q

/-- The pooled sum is the sum of the ten blocks' column sums. -/
theorem pool3_eq_blocks (agg : Vec Ideal S50000x64 .f32) (nd : Vec Ideal S50000x1 .f32) (W3 : Vec Ideal S64x64 .f32)
    (b3 : Vec Ideal S1x64 .f32) (q : Fin 64) :
    pool3 agg nd W3 b3 q = ∑ s : Fin 10, blockSum3 agg nd W3 b3 s q :=
  (Cert.BlockSum.sum_blocks 10 5000 fun p : Fin 50000 => Y3 agg nd W3 b3 p q).symm

/-- Entry `j` of the head's hidden layer: the mean row (the pooled sum times 1 / 50000) times `Wf1`, plus the bias
    row, clipped below at zero. -/
def hid3 (agg : Vec Ideal S50000x64 .f32) (nd : Vec Ideal S50000x1 .f32) (W3 : Vec Ideal S64x64 .f32)
    (b3 : Vec Ideal S1x64 .f32) (Wf1 : Vec Ideal S64x32 .f32) (bf1 : Vec Ideal S1x32 .f32) (j : Fin 32) : EReal :=
  max ((∑ q : Fin 64, (pool3 agg nd W3 b3 q * ((1 / 50000 : ℝ) : EReal)) * Wf1 (ix2 q j)) + bf1 (ix2 (0 : Fin 1) j)) 0

/-- The region's result: the logistic of the hidden layer times `Wf2` plus the last bias. -/
def G3 (agg : Vec Ideal S50000x64 .f32) (nd : Vec Ideal S50000x1 .f32) (W3 : Vec Ideal S64x64 .f32)
    (b3 : Vec Ideal S1x64 .f32) (Wf1 : Vec Ideal S64x32 .f32) (bf1 : Vec Ideal S1x32 .f32)
    (Wf2 : Vec Ideal S32x1 .f32) (bf2 : Vec Ideal S1x1 .f32) : Vec Ideal S1x1 .f32 :=
  fun _ => Ideal.logistic ((∑ j : Fin 32, hid3 agg nd W3 b3 Wf1 bf1 j * Wf2 (ix2 j (0 : Fin 1)))
    + bf2 (ix2 (0 : Fin 1) (0 : Fin 1)))

end Cert.KernelIdeal.Spec

end
-- ==== Proof.KIConsts.lean ====
/-
  The float constants the two programs spell, as the extended reals their bit patterns denote at the ideal values:
  the reference's divisor 50000.0 and its 1.0 (numerator and summand of the logistic as the reference writes it).
-/
import Idealize.ShloMosaic.PureOps.Ideal

noncomputable section

namespace Cert.Consts

open Idealize.ShloMosaic

/-- The pattern of `50000.0` denotes the real 50000. -/
theorem ofBits_50000 : Ideal.ofBits .f32 0x47435000#32 = ((50000 : ℝ) : EReal) := by
  simp [Ideal.ofBits, Ideal.ieee, -EReal.coe_mul]; norm_num

/-- The pattern of `1.0` denotes 1. -/
theorem ofBits_one : Ideal.ofBits .f32 0x3F800000#32 = 1 := by
  simp [Ideal.ofBits, Ideal.ieee, -EReal.coe_mul]; norm_num

end Cert.Consts

end
-- ==== Proof.KIRefEq3.lean ====
/-
  The reference's last stretch — the third layer, its mean over the 50000 rows, the two-layer head and the logistic as
  the reference writes it (negate, exponential, add one, divide one by it) — is the specification's function of the
  same arrays.

  The reference multiplies each row of `agg` by the row's entry of `nd` (broadcast from a [50000] array), takes the
  product with `W3`, adds the bias row (broadcast from a [64] array) and clips at zero; sums the 50000 rows from an
  initial 0; DIVIDES by 50000; the specification multiplies by 1 / 50000, the same extended real whatever the dividend.
  The logistic 1 / (1 + e^(-z)) is the ideal values' logistic by definition, the pattern of `1.0` denoting 1.
-/
import proofs.«408152_j74947179315796_1_alg».proof.Proof.KISpec3
import proofs.«408152_j74947179315796_1_alg».proof.Proof.KIConsts
import proofs.«408152_j74947179315796_1_alg».proof.Proof.Gen.ReferenceIdeal.Read
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.RefEq3

open Cert.ReferenceIdeal Cert.ReferenceIdeal.Gen Cert.ReferenceIdeal.Read
open Idealize.ShloMosaic Idealize.ShloMosaic.ValueIdx
open scoped BigOperators

/-! ## The reference's operations, in stages -/

/-- The third layer: `relu((agg ⊙ nd) · W3 + b3)`, `nd` and `b3` broadcast from their rank-1 arrays. -/
def refAct3 (agg : FVec Ideal S50000x64 .f32) (nd : FVec Ideal S50000 .f32) (W3 : FVec Ideal S64x64 .f32)
    (b3 : FVec Ideal S64 .f32) : FVec Ideal S50000x64 .f32 :=
  maximumf
    (addf
      (Host.dotGeneral (F := Ideal) dot_S50000x64_S64x64_S50000x64_1_0_0_1_n_n none
        (mulf agg (broadcastInDim S50000x64 ![0, 1] bcast_S50000x1_S50000x64_0_1
          (broadcastInDim S50000x1 ![0] bcast_S50000_S50000x1_0 nd)))
        W3)
      (broadcastInDim S50000x64 ![0, 1] bcast_S1x64_S50000x64_0_1 (broadcastInDim S1x64 ![1] bcast_S64_S1x64_1 b3)))
    (broadcastInDim S50000x64 ![] bcast_S_S50000x64 (constant (F := Ideal) S_ .f32 0x00000000#32))

/-- The mean row: the sum over the rows from an initial zero, as a `[1, 64]` row, divided by 50000. -/
def refMean3 (agg : FVec Ideal S50000x64 .f32) (nd : FVec Ideal S50000 .f32) (W3 : FVec Ideal S64x64 .f32)
    (b3 : FVec Ideal S64 .f32) : FVec Ideal S1x64 .f32 :=
  Host.divf (F := Ideal)
    (broadcastInDim S1x64 ![1] bcast_S64_S1x64_1
      (Host.reduceAdd (F := Ideal) (refAct3 agg nd W3 b3) (constant (F := Ideal) S_ .f32 0x00000000#32) reducesTo_S50000x64_S64_d0 h_S_))
    (broadcastInDim S1x64 ![] bcast_S_S1x64 (constant (F := Ideal) S_ .f32 0x47435000#32))

/-- The hidden row: `relu(mean · Wf1 + bf1)`. -/
def refHid3 (agg : FVec Ideal S50000x64 .f32) (nd : FVec Ideal S50000 .f32) (W3 : FVec Ideal S64x64 .f32)
    (b3 : FVec Ideal S64 .f32) (Wf1 : FVec Ideal S64x32 .f32) (bf1 : FVec Ideal S32 .f32) : FVec Ideal S1x32 .f32 :=
  maximumf
    (addf (Host.dotGeneral (F := Ideal) dot_S1x64_S64x32_S1x32_1_0_0_1_n_n none (refMean3 agg nd W3 b3) Wf1)
      (broadcastInDim S1x32 ![1] bcast_S32_S1x32_1 bf1))
    (broadcastInDim S1x32 ![] bcast_S_S1x32 (constant (F := Ideal) S_ .f32 0x00000000#32))

/-- The logistic's argument: `hidden · Wf2 + bf2`. -/
def refLogit3 (agg : FVec Ideal S50000x64 .f32) (nd : FVec Ideal S50000 .f32) (W3 : FVec Ideal S64x64 .f32)
    (b3 : FVec Ideal S64 .f32) (Wf1 : FVec Ideal S64x32 .f32) (bf1 : FVec Ideal S32 .f32) (Wf2 : FVec Ideal S32x1 .f32)
    (bf2 : FVec Ideal S1 .f32) : FVec Ideal S1x1 .f32 :=
  addf (Host.dotGeneral (F := Ideal) dot_S1x32_S32x1_S1x1_1_0_0_1_n_n none (refHid3 agg nd W3 b3 Wf1 bf1) Wf2)
    (broadcastInDim S1x1 ![1] bcast_S1_S1x1_1 bf2)

/-- The reference's result: `1 / (1 + e^(-z))` of that argument, reshaped to `[1]`. -/
def refTail3 (agg : FVec Ideal S50000x64 .f32) (nd : FVec Ideal S50000 .f32) (W3 : FVec Ideal S64x64 .f32)
    (b3 : FVec Ideal S64 .f32) (Wf1 : FVec Ideal S64x32 .f32) (bf1 : FVec Ideal S32 .f32) (Wf2 : FVec Ideal S32x1 .f32)
    (bf2 : FVec Ideal S1 .f32) : FVec Ideal S1 .f32 :=
  shapeCast _
    (Host.divf (F := Ideal) (broadcastInDim S1x1 ![] bcast_S_S1x1 (constant (F := Ideal) S_ .f32 0x3F800000#32))
      (addf (broadcastInDim S1x1 ![] bcast_S_S1x1 (constant (F := Ideal) S_ .f32 0x3F800000#32))
        (Host.exp (F := Ideal) (Host.negf (F := Ideal) (refLogit3 agg nd W3 b3 Wf1 bf1 Wf2 bf2)))))
    shapeCasts_S1x1_S1

/-- These stages ARE the reference's last operations: its result, as a function of the program's arguments, is the
    stages applied to what the operations before them computed. -/
theorem refTail3_eq (x0 : FVec Ideal S50000x128 .f32) (x1 : FVec Ideal S128x64 .f32) (x2 : FVec Ideal S64 .f32)
    (x3 : FVec Ideal S64x64 .f32) (x4 : FVec Ideal S64 .f32) (x5 : FVec Ideal S64x64 .f32) (x6 : FVec Ideal S64 .f32)
    (x7 : FVec Ideal S64x32 .f32) (x8 : FVec Ideal S32 .f32) (x9 : FVec Ideal S32x1 .f32) (x10 : FVec Ideal S1 .f32)
    (x11 : IVec S2x800000 32) :
    val_main_v97 (F := Ideal) x0 x1 x2 x3 x4 x5 x6 x7 x8 x9 x10 x11
      = refTail3 (val_main_v71 (F := Ideal) x0 x1 x2 x3 x4 x11) (val_main_v16 (F := Ideal) x11) x5 x6 x7 x8 x9 x10 := rfl

/-! ## Layout operations at an entry -/

/-- A `[a]` array cast to `[a, 1]`: entry `(i, u)` is the operand's entry `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- A `[64]` array as a `[1, 64]` row. -/
theorem bc_row64 (x : FVec Ideal S64 .f32) (q : Fin 64) :
    broadcastInDim S1x64 ![1] bcast_S64_S1x64_1 x (ix2 (0 : Fin 1) q) = x (ix1 q) :=
  broadcastInDim_apply _ bcast_S64_S1x64_1 x (ix2 (0 : Fin 1) q) (ix1 q) (fun a => match a with
    | ⟨0, _⟩ => by show q.val = if (64 : Nat) = 1 then 0 else q.val; rw [if_neg (by decide)])

/-- A `[32]` array as a `[1, 32]` row. -/
theorem bc_row32 (x : FVec Ideal S32 .f32) (j : Fin 32) :
    broadcastInDim S1x32 ![1] bcast_S32_S1x32_1 x (ix2 (0 : Fin 1) j) = x (ix1 j) :=
  broadcastInDim_apply _ bcast_S32_S1x32_1 x (ix2 (0 : Fin 1) j) (ix1 j) (fun a => match a with
    | ⟨0, _⟩ => by show j.val = if (32 : Nat) = 1 then 0 else j.val; rw [if_neg (by decide)])

/-- A `[1]` array as a `[1, 1]` array. -/
theorem bc_row1 (x : FVec Ideal S1 .f32) :
    broadcastInDim S1x1 ![1] bcast_S1_S1x1_1 x (ix2 (0 : Fin 1) (0 : Fin 1)) = x (ix1 (0 : Fin 1)) :=
  broadcastInDim_apply _ bcast_S1_S1x1_1 x (ix2 (0 : Fin 1) (0 : Fin 1)) (ix1 (0 : Fin 1)) (fun a => match a with
    | ⟨0, _⟩ => by show 0 = if (1 : Nat) = 1 then 0 else 0; rw [if_pos rfl])

/-- The per-row scale, broadcast from `[50000]` through `[50000, 1]` to `[50000, 64]`: entry `(p, k)` is entry `p`. -/
theorem bc_nd (nd : FVec Ideal S50000 .f32) (p : Fin 50000) (k : Fin 64) :
    broadcastInDim S50000x64 ![0, 1] bcast_S50000x1_S50000x64_0_1 (broadcastInDim S50000x1 ![0] bcast_S50000_S50000x1_0 nd) (ix2 p k)
      = nd (ix1 p) := by
  refine (broadcastInDim_apply _ bcast_S50000x1_S50000x64_0_1 _ (ix2 p k) (ix2 p (0 : Fin 1)) (fun a => match a with
    | ⟨0, _⟩ => by show p.val = if (50000 : Nat) = 1 then 0 else p.val; rw [if_neg (by decide)]
    | ⟨1, _⟩ => by show 0 = if (1 : Nat) = 1 then 0 else k.val; rw [if_pos rfl])).trans ?_
  exact broadcastInDim_apply _ bcast_S50000_S50000x1_0 nd (ix2 p (0 : Fin 1)) (ix1 p) (fun a => match a with
    | ⟨0, _⟩ => by show p.val = if (50000 : Nat) = 1 then 0 else p.val; rw [if_neg (by decide)])

/-- The bias row, broadcast from `[64]` through `[1, 64]` to `[50000, 64]`: entry `(p, q)` is entry `q`. -/
theorem bc_b3 (b3 : FVec Ideal S64 .f32) (p : Fin 50000) (q : Fin 64) :
    broadcastInDim S50000x64 ![0, 1] bcast_S1x64_S50000x64_0_1 (broadcastInDim S1x64 ![1] bcast_S64_S1x64_1 b3) (ix2 p q)
      = b3 (ix1 q) := by
  refine (broadcastInDim_apply _ bcast_S1x64_S50000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans ?_
  exact bc_row64 b3 q

/-! ## The host's products and its sum over the rows, at an entry -/

/-- The host's product `[50000, 64] × [64, 64]`: entry `(p, c)` is the sum over `k` of the left operand at `(p, k)` times
    the right operand at `(k, c)`. -/
theorem dg1_apply (L : FVec Ideal S50000x64 .f32) (R : FVec Ideal S64x64 .f32) (p : Fin 50000) (c : Fin 64) :
    Host.dotGeneral (F := Ideal) dot_S50000x64_S64x64_S50000x64_1_0_0_1_n_n none L R (ix2 p c) = ∑ k : Fin 64, L (ix2 p k) * R (ix2 k c) := by
  simp only [Host.dotGeneral]
  rw [Ideal.dotGeneral_apply, ← Equiv.sum_comp (ValueIdx.contrEquiv1 dot_S50000x64_S64x64_S50000x64_1_0_0_1_n_n 64 rfl rfl).symm]
  refine Finset.sum_congr rfl fun k _ => ?_
  have hk := ValueIdx.contrEquiv1_symm_val dot_S50000x64_S64x64_S50000x64_1_0_0_1_n_n 64 rfl rfl k
  have el : dot_S50000x64_S64x64_S50000x64_1_0_0_1_n_n.lhsIdx (ix2 p c) ((ValueIdx.contrEquiv1 dot_S50000x64_S64x64_S50000x64_1_0_0_1_n_n 64 rfl rfl).symm k) = ix2 p k := funext fun a => Fin.ext (by
    match a with
    | ⟨0, _⟩ => exact lhs_main_v75_0 _ _
    | ⟨1, _⟩ => exact (lhs_main_v75_1 _ _).trans hk)
  have er : dot_S50000x64_S64x64_S50000x64_1_0_0_1_n_n.rhsIdx (ix2 p c) ((ValueIdx.contrEquiv1 dot_S50000x64_S64x64_S50000x64_1_0_0_1_n_n 64 rfl rfl).symm k) = ix2 k c := funext fun a => Fin.ext (by
    match a with
    | ⟨0, _⟩ => exact (rhs_main_v75_0 _ _).trans hk
    | ⟨1, _⟩ => exact rhs_main_v75_1 _ _)
  rw [el, er]

/-- The host's product `[1, 64] × [64, 32]`: entry `(p, c)` is the sum over `k` of the left operand at `(p, k)` times
    the right operand at `(k, c)`. -/
theorem dg2_apply (L : FVec Ideal S1x64 .f32) (R : FVec Ideal S64x32 .f32) (p : Fin 1) (c : Fin 32) :
    Host.dotGeneral (F := Ideal) dot_S1x64_S64x32_S1x32_1_0_0_1_n_n none L R (ix2 p c) = ∑ k : Fin 64, L (ix2 p k) * R (ix2 k c) := by
  simp only [Host.dotGeneral]
  rw [Ideal.dotGeneral_apply, ← Equiv.sum_comp (ValueIdx.contrEquiv1 dot_S1x64_S64x32_S1x32_1_0_0_1_n_n 64 rfl rfl).symm]
  refine Finset.sum_congr rfl fun k _ => ?_
  have hk := ValueIdx.contrEquiv1_symm_val dot_S1x64_S64x32_S1x32_1_0_0_1_n_n 64 rfl rfl k
  have el : dot_S1x64_S64x32_S1x32_1_0_0_1_n_n.lhsIdx (ix2 p c) ((ValueIdx.contrEquiv1 dot_S1x64_S64x32_S1x32_1_0_0_1_n_n 64 rfl rfl).symm k) = ix2 p k := funext fun a => Fin.ext (by
    match a with
    | ⟨0, _⟩ => exact lhs_main_v84_0 _ _
    | ⟨1, _⟩ => exact (lhs_main_v84_1 _ _).trans hk)
  have er : dot_S1x64_S64x32_S1x32_1_0_0_1_n_n.rhsIdx (ix2 p c) ((ValueIdx.contrEquiv1 dot_S1x64_S64x32_S1x32_1_0_0_1_n_n 64 rfl rfl).symm k) = ix2 k c := funext fun a => Fin.ext (by
    match a with
    | ⟨0, _⟩ => exact (rhs_main_v84_0 _ _).trans hk
    | ⟨1, _⟩ => exact rhs_main_v84_1 _ _)
  rw [el, er]

/-- The host's product `[1, 32] × [32, 1]`: entry `(p, c)` is the sum over `k` of the left operand at `(p, k)` times
    the right operand at `(k, c)`. -/
theorem dg3_apply (L : FVec Ideal S1x32 .f32) (R : FVec Ideal S32x1 .f32) (p : Fin 1) (c : Fin 1) :
    Host.dotGeneral (F := Ideal) dot_S1x32_S32x1_S1x1_1_0_0_1_n_n none L R (ix2 p c) = ∑ k : Fin 32, L (ix2 p k) * R (ix2 k c) := by
  simp only [Host.dotGeneral]
  rw [Ideal.dotGeneral_apply, ← Equiv.sum_comp (ValueIdx.contrEquiv1 dot_S1x32_S32x1_S1x1_1_0_0_1_n_n 32 rfl rfl).symm]
  refine Finset.sum_congr rfl fun k _ => ?_
  have hk := ValueIdx.contrEquiv1_symm_val dot_S1x32_S32x1_S1x1_1_0_0_1_n_n 32 rfl rfl k
  have el : dot_S1x32_S32x1_S1x1_1_0_0_1_n_n.lhsIdx (ix2 p c) ((ValueIdx.contrEquiv1 dot_S1x32_S32x1_S1x1_1_0_0_1_n_n 32 rfl rfl).symm k) = ix2 p k := funext fun a => Fin.ext (by
    match a with
    | ⟨0, _⟩ => exact lhs_main_v88_0 _ _
    | ⟨1, _⟩ => exact (lhs_main_v88_1 _ _).trans hk)
  have er : dot_S1x32_S32x1_S1x1_1_0_0_1_n_n.rhsIdx (ix2 p c) ((ValueIdx.contrEquiv1 dot_S1x32_S32x1_S1x1_1_0_0_1_n_n 32 rfl rfl).symm k) = ix2 k c := funext fun a => Fin.ext (by
    match a with
    | ⟨0, _⟩ => exact (rhs_main_v88_0 _ _).trans hk
    | ⟨1, _⟩ => exact rhs_main_v88_1 _ _)
  rw [el, er]

/-- The host's sum over the rows of a `[50000, 64]` array from an initial zero, at column `q`. -/
theorem redsum_apply (X : FVec Ideal S50000x64 .f32) (q : Fin 64) :
    Host.reduceAdd (F := Ideal) X (constant (F := Ideal) S_ .f32 0x00000000#32) reducesTo_S50000x64_S64_d0 h_S_ (ix1 q)
      = ∑ p : Fin 50000, X (ix2 p q) := by
  simp only [Host.reduceAdd, Ideal.hostReduceAdd_def]
  rw [Ideal.hostReduceAdd_single reducesTo_S50000x64_S64_d0 (by decide)]
  show Ideal.ofBits .f32 0x00000000#32 + _ = _
  rw [Ideal.ofBits_zero_f32, zero_add]
  refine Finset.sum_congr rfl fun k _ => ?_
  exact congrArg X (funext fun a => Fin.ext (by match a with | ⟨0, _⟩ => rfl | ⟨1, _⟩ => rfl))

/-! ## The stages at an entry -/

theorem refAct3_apply (agg : FVec Ideal S50000x64 .f32) (nd : FVec Ideal S50000 .f32) (W3 : FVec Ideal S64x64 .f32)
    (b3 : FVec Ideal S64 .f32) (p : Fin 50000) (q : Fin 64) :
    refAct3 agg nd W3 b3 (ix2 p q)
      = max ((∑ k : Fin 64, (agg (ix2 p k) * nd (ix1 p)) * W3 (ix2 k q)) + b3 (ix1 q)) 0 := by
  unfold refAct3
  show max (Host.dotGeneral (F := Ideal) dot_S50000x64_S64x64_S50000x64_1_0_0_1_n_n none _ W3 (ix2 p q)
      + broadcastInDim S50000x64 ![0, 1] bcast_S1x64_S50000x64_0_1 (broadcastInDim S1x64 ![1] bcast_S64_S1x64_1 b3) (ix2 p q))
    (broadcastInDim S50000x64 ![] bcast_S_S50000x64 (constant (F := Ideal) S_ .f32 0x00000000#32) (ix2 p q)) = _
  rw [dg1_apply, bc_b3, broadcastInDim_scalar_apply]
  show max _ (Ideal.ofBits .f32 0x00000000#32) = _
  rw [Ideal.ofBits_zero_f32]
  refine congrArg (fun z => max (z + b3 (ix1 q)) 0) (Finset.sum_congr rfl fun k _ => ?_)
  show (agg (ix2 p k) * broadcastInDim S50000x64 ![0, 1] bcast_S50000x1_S50000x64_0_1
      (broadcastInDim S50000x1 ![0] bcast_S50000_S50000x1_0 nd) (ix2 p k)) * W3 (ix2 k q) = _
  rw [bc_nd]

/-- The mean row at `q`: the column's sum over the rows, times 1 / 50000 (the quotient by the real 50000). -/
theorem refMean3_apply (agg : FVec Ideal S50000x64 .f32) (nd : FVec Ideal S50000 .f32) (W3 : FVec Ideal S64x64 .f32)
    (b3 : FVec Ideal S64 .f32) (q : Fin 64) :
    refMean3 agg nd W3 b3 (ix2 (0 : Fin 1) q)
      = (∑ p : Fin 50000, refAct3 agg nd W3 b3 (ix2 p q)) * ((1 / 50000 : ℝ) : EReal) := by
  unfold refMean3
  show Ideal.div
      (broadcastInDim S1x64 ![1] bcast_S64_S1x64_1
        (Host.reduceAdd (F := Ideal) (refAct3 agg nd W3 b3) (constant (F := Ideal) S_ .f32 0x00000000#32) reducesTo_S50000x64_S64_d0 h_S_)
        (ix2 (0 : Fin 1) q))
      (broadcastInDim S1x64 ![] bcast_S_S1x64 (constant (F := Ideal) S_ .f32 0x47435000#32) (ix2 (0 : Fin 1) q)) = _
  rw [bc_row64, broadcastInDim_scalar_apply, redsum_apply]
  show Ideal.div _ (Ideal.ofBits .f32 0x47435000#32) = _
  rw [Cert.Consts.ofBits_50000, Ideal.div_coe (by norm_num : (50000 : ℝ) ≠ 0)]

theorem refHid3_apply (agg : FVec Ideal S50000x64 .f32) (nd : FVec Ideal S50000 .f32) (W3 : FVec Ideal S64x64 .f32)
    (b3 : FVec Ideal S64 .f32) (Wf1 : FVec Ideal S64x32 .f32) (bf1 : FVec Ideal S32 .f32) (j : Fin 32) :
    refHid3 agg nd W3 b3 Wf1 bf1 (ix2 (0 : Fin 1) j)
      = max ((∑ q : Fin 64, refMean3 agg nd W3 b3 (ix2 (0 : Fin 1) q) * Wf1 (ix2 q j)) + bf1 (ix1 j)) 0 := by
  unfold refHid3
  show max (Host.dotGeneral (F := Ideal) dot_S1x64_S64x32_S1x32_1_0_0_1_n_n none (refMean3 agg nd W3 b3) Wf1 (ix2 (0 : Fin 1) j)
      + broadcastInDim S1x32 ![1] bcast_S32_S1x32_1 bf1 (ix2 (0 : Fin 1) j))
    (broadcastInDim S1x32 ![] bcast_S_S1x32 (constant (F := Ideal) S_ .f32 0x00000000#32) (ix2 (0 : Fin 1) j)) = _
  rw [dg2_apply, bc_row32, broadcastInDim_scalar_apply]
  show max _ (Ideal.ofBits .f32 0x00000000#32) = _
  rw [Ideal.ofBits_zero_f32]

theorem refLogit3_apply (agg : FVec Ideal S50000x64 .f32) (nd : FVec Ideal S50000 .f32) (W3 : FVec Ideal S64x64 .f32)
    (b3 : FVec Ideal S64 .f32) (Wf1 : FVec Ideal S64x32 .f32) (bf1 : FVec Ideal S32 .f32)
    (Wf2 : FVec Ideal S32x1 .f32) (bf2 : FVec Ideal S1 .f32) :
    refLogit3 agg nd W3 b3 Wf1 bf1 Wf2 bf2 (ix2 (0 : Fin 1) (0 : Fin 1))
      = (∑ j : Fin 32, refHid3 agg nd W3 b3 Wf1 bf1 (ix2 (0 : Fin 1) j) * Wf2 (ix2 j (0 : Fin 1))) + bf2 (ix1 (0 : Fin 1)) := by
  unfold refLogit3
  show Host.dotGeneral (F := Ideal) dot_S1x32_S32x1_S1x1_1_0_0_1_n_n none (refHid3 agg nd W3 b3 Wf1 bf1) Wf2 (ix2 (0 : Fin 1) (0 : Fin 1))
      + broadcastInDim S1x1 ![1] bcast_S1_S1x1_1 bf2 (ix2 (0 : Fin 1) (0 : Fin 1)) = _
  rw [dg3_apply, bc_row1]

/-! ## The specification against the stages -/

section
variable (agg : FVec Ideal S50000x64 .f32) (nd : FVec Ideal S50000 .f32) (W3 : FVec Ideal S64x64 .f32)
    (b3 : FVec Ideal S64 .f32) (Wf1 : FVec Ideal S64x32 .f32) (bf1 : FVec Ideal S32 .f32)
  (Wf2 : FVec Ideal S32x1 .f32) (bf2 : FVec Ideal S1 .f32)
  (h1 : S50000.ShapeCasts S50000x1) (h2 : S64.ShapeCasts S1x64) (h3 : S32.ShapeCasts S1x32) (h4 : S1.ShapeCasts S1x1)

/-- The specification's third layer, of the column form of `nd` and the row form of `b3`, is the reference's. -/
theorem Y3_eq (p : Fin 50000) (q : Fin 64) :
    Cert.KernelIdeal.Spec.Y3 agg (shapeCast S50000x1 nd h1) W3 (shapeCast S1x64 b3 h2) p q = refAct3 agg nd W3 b3 (ix2 p q) := by
  rw [refAct3_apply]
  unfold Cert.KernelIdeal.Spec.Y3
  rw [shapeCast_a_1a_apply b3 h2 (0 : Fin 1) q]
  refine congrArg (fun z => max (z + b3 (ix1 q)) 0) (Finset.sum_congr rfl fun k _ => ?_)
  rw [shapeCast_a_a1_apply nd h1 p (0 : Fin 1)]

theorem hid3_eq (j : Fin 32) :
    Cert.KernelIdeal.Spec.hid3 agg (shapeCast S50000x1 nd h1) W3 (shapeCast S1x64 b3 h2) Wf1 (shapeCast S1x32 bf1 h3) j
      = refHid3 agg nd W3 b3 Wf1 bf1 (ix2 (0 : Fin 1) j) := by
  rw [refHid3_apply]
  unfold Cert.KernelIdeal.Spec.hid3
  rw [shapeCast_a_1a_apply bf1 h3 (0 : Fin 1) j]
  refine congrArg (fun z => max (z + bf1 (ix1 j)) 0) (Finset.sum_congr rfl fun q _ => ?_)
  rw [refMean3_apply]
  unfold Cert.KernelIdeal.Spec.pool3
  exact congrArg (fun z => (z * ((1 / 50000 : ℝ) : EReal)) * Wf1 (ix2 q j))
    (Finset.sum_congr rfl fun p _ => Y3_eq agg nd W3 b3 h1 h2 p q)

theorem logit3_eq :
    (∑ j : Fin 32, Cert.KernelIdeal.Spec.hid3 agg (shapeCast S50000x1 nd h1) W3 (shapeCast S1x64 b3 h2) Wf1 (shapeCast S1x32 bf1 h3) j
        * Wf2 (ix2 j (0 : Fin 1))) + shapeCast S1x1 bf2 h4 (ix2 (0 : Fin 1) (0 : Fin 1))
      = refLogit3 agg nd W3 b3 Wf1 bf1 Wf2 bf2 (ix2 (0 : Fin 1) (0 : Fin 1)) := by
  rw [refLogit3_apply, shapeCast_a_1a_apply bf2 h4 (0 : Fin 1) (0 : Fin 1)]
  exact congrArg (· + bf2 (ix1 (0 : Fin 1)))
    (Finset.sum_congr rfl fun j _ => congrArg (· * Wf2 (ix2 j (0 : Fin 1))) (hid3_eq agg nd W3 b3 Wf1 bf1 h1 h2 h3 j))

/-- THE EQUALITY: the specification, of the column and row forms of the rank-1 arrays and reshaped to `[1]`, is the
    reference's result. -/
theorem G3_eq (h5 : S1x1.ShapeCasts S1) :
    shapeCast S1 (Cert.KernelIdeal.Spec.G3 agg (shapeCast S50000x1 nd h1) W3 (shapeCast S1x64 b3 h2) Wf1
        (shapeCast S1x32 bf1 h3) Wf2 (shapeCast S1x1 bf2 h4)) h5
      = refTail3 agg nd W3 b3 Wf1 bf1 Wf2 bf2 := by
  funext i
  have hi : i = ix1 (0 : Fin 1) := funext fun a => Fin.ext (by
    match a with
    | ⟨0, _⟩ => have h : (i 0).val < 1 := (i 0).isLt; show (i 0).val = 0; omega)
  rw [hi]
  unfold refTail3
  refine (shapeCast_1a_a_apply _ h5 (0 : Fin 1)).trans ?_
  refine Eq.trans ?_ (shapeCast_1a_a_apply _ shapeCasts_S1x1_S1 (0 : Fin 1)).symm
  unfold Cert.KernelIdeal.Spec.G3
  show Ideal.logistic _
    = Ideal.div (broadcastInDim S1x1 ![] bcast_S_S1x1 (constant (F := Ideal) S_ .f32 0x3F800000#32) (ix2 (0 : Fin 1) (0 : Fin 1)))
        (broadcastInDim S1x1 ![] bcast_S_S1x1 (constant (F := Ideal) S_ .f32 0x3F800000#32) (ix2 (0 : Fin 1) (0 : Fin 1))
          + Ideal.exp (-(refLogit3 agg nd W3 b3 Wf1 bf1 Wf2 bf2 (ix2 (0 : Fin 1) (0 : Fin 1)))))
  rw [broadcastInDim_scalar_apply, logit3_eq agg nd W3 b3 Wf1 bf1 Wf2 bf2 h1 h2 h3 h4]
  show _ = Ideal.div (Ideal.ofBits .f32 0x3F800000#32) (Ideal.ofBits .f32 0x3F800000#32 + _)
  rw [Cert.Consts.ofBits_one]
  rfl

end

end Cert.RefEq3

end
-- ==== Proof.KIVal0.lean ====
import proofs.«408152_j74947179315796_1_alg».proof.Proof.KIReg0
import proofs.«408152_j74947179315796_1_alg».proof.Proof.KISpec
import Idealize.ShloMosaic.Lib.Pipeline.Value
import Idealize.ShloMosaic.Lib.ValueIdx
import Idealize.ShloMosaic.Lib.ValueLayout
import Idealize.ShloMosaic.PureOps.Ideal.Laws

/-!
# The prescaled features after region 0, as one function of the region's input arrays

Region 0 multiplies each row of the features by the row's factor, 5000 rows at a point. Point `t` stores, to rows
`5000 t … 5000 t + 4999` of the output, the product of the same rows of the two inputs; the ten points cover the
50000 rows. So the output array after the region is `Spec.G0` of the two input arrays as the region finds them.
-/

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's product at an index -/

/-- A column `[a, 1]` broadcast along the columns to `[a, b]`, read at `(p, c)`, is the column's entry `(p, 0)`. -/
theorem bcastCol0_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The stored value at `(p, q)`: the feature block's entry times the factor block's entry of the same row. -/
theorem pay0_apply (x0 : Vec Ideal S5000x128 .f32) (x1 : Vec Ideal S5000x1 .f32) (p : Fin 5000) (q : Fin 128) :
    k0_pay1 x0 x1 (ix2 p q) = x0 (ix2 p q) * x1 (ix2 p (0 : Fin 1)) := by
  unfold k0_pay1
  show mulf (F := Ideal) (φ := .f32) x0 (broadcastTo S5000x128 (shapeCast S5000x1 (x1 : FVec Ideal S5000x1 .f32) shapeCasts_S5000x1_S5000x1) broadcasts_S5000x1_S5000x128) (ix2 p q) = _
  rw [mulf_apply, shapeCast_self, bcastCol0_apply]

/-- One block of rows: when the two loaded blocks are rows `5000 s + p` of the arrays `X` and `S`, the stored value at
    `(p, q)` is `Spec.G0 X S` at row `5000 s + p`, column `q`. -/
theorem block0 (X : Vec Ideal S50000x128 .f32) (S : Vec Ideal S50000x1 .f32) (s : ℕ) (hs : s ≤ 9)
    (x0 : Vec Ideal S5000x128 .f32) (x1 : Vec Ideal S5000x1 .f32)
    (h0 : ∀ (p : Fin 5000) (q : Fin 128), x0 (ix2 p q) = X (ix2 (⟨s * 5000 + p.val, by omega⟩ : Fin 50000) q))
    (h1 : ∀ (p : Fin 5000), x1 (ix2 p (0 : Fin 1)) = S (ix2 (⟨s * 5000 + p.val, by omega⟩ : Fin 50000) (0 : Fin 1)))
    (p : Fin 5000) (q : Fin 128) :
    k0_pay1 x0 x1 (ix2 p q) = Spec.G0 X S (ix2 (⟨s * 5000 + p.val, by omega⟩ : Fin 50000) q) := by
  rw [pay0_apply, Spec.G0_apply, h0, h1]

/-! ## From the blocks to the array -/

theorem hz0 : (![0, 0] : Fin 2 → Nat) = fun _ => 0 := funext fun a => by fin_cases a <;> rfl

/-- The index maps over the ten points: the two inputs' row blocks move with the output's, every column block index is
    zero, and the output's row block index is at most nine. -/
theorem idx_facts0 : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 9 :=
  (by decide +kernel : ∀ t : Fin grid0.N, _)

/-- Every row block is some point's. -/
theorem idx_onto0 : ∀ (q0 : Fin 10), ∃ t : Fin cfg0.N, win0_2.index t = ![q0.val, 0] :=
  (by decide +kernel : ∀ (q0 : Fin 10), ∃ t : Fin grid0.N, win0_2.index t = ![q0.val, 0])

/-- What point `t` writes back is block `t` of `Spec.G0` of the input arrays as the region finds them. -/
theorem flushed0_eq (c : Dev nD) (t : Fin cfg0.N) :
    (dat0 V c).flushed 2 t = ((cfg0.win 2).blk t).view.read (Elt Ideal) (Spec.G0 (V c main_arg0) (V c main_v14)) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S5000x1) hz0]
  obtain ⟨e0, e1, e2, e3, e4, e5⟩ := idx_facts0 t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q) = Spec.G0 (V c main_arg0) (V c main_v14) (((cfg0.win 2).blk t).view.emb (ix2 p q))
  refine (block0 (V c main_arg0) (V c main_v14) (win0_2.index t (0 : Fin 2)) e5 (iblk0 V c 0 t) (iblk0 V c 1 t) ?_ ?_ p q).trans ?_
  · intro p q
    show V c main_arg0 (((cfg0.win 0).blk t).view.emb (ix2 p q)) = _
    refine congrArg (V c main_arg0) (funext fun a => Fin.ext ?_)
    match a with
    | ⟨0, _⟩ => show win0_0.index t (0 : Fin 2) * 5000 + 1 * p.val = win0_2.index t (0 : Fin 2) * 5000 + p.val; omega
    | ⟨1, _⟩ => show win0_0.index t (1 : Fin 2) * 128 + 1 * q.val = q.val; omega
  · intro p
    show V c main_v14 (((cfg0.win 1).blk t).view.emb (ix2 p (0 : Fin 1))) = _
    refine congrArg (V c main_v14) (funext fun a => Fin.ext ?_)
    match a with
    | ⟨0, _⟩ => show win0_1.index t (0 : Fin 2) * 5000 + 1 * p.val = win0_2.index t (0 : Fin 2) * 5000 + p.val; omega
    | ⟨1, _⟩ => show win0_1.index t (1 : Fin 2) * 1 + 1 * 0 = 0; omega
  · refine congrArg (Spec.G0 (V c main_arg0) (V c main_v14)) (funext fun a => Fin.ext ?_)
    match a with
    | ⟨0, _⟩ => show win0_2.index t (0 : Fin 2) * 5000 + p.val = win0_2.index t (0 : Fin 2) * 5000 + 1 * p.val; omega
    | ⟨1, _⟩ => show q.val = win0_2.index t (1 : Fin 2) * 128 + 1 * q.val; omega

/-- An index of the array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v19).slice (win0_2.rect t)).set ↔ _
  rw [View.set_slice_whole, Rect.mem_set_unit]
  exact Iff.rfl

/-- The ten blocks cover the array: row `r` is in the block of the point whose row block index is `r / 5000`. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after region 0 is the prescaled features of the region's input arrays. -/
theorem final0 (c : Dev nD) : (dat0 V c).arrAt 2 cfg0.N = Spec.G0 (V c main_arg0) (V c main_v14) :=
  (dat0 V c).arrAt_eq_of_cover 2 (Spec.G0 (V c main_arg0) (V c main_v14)) (fun t _ => flushed0_eq V c t) cover0

end Cert.KernelIdeal.Hand

end
-- ==== Proof.KIVal1.lean ====
import proofs.«408152_j74947179315796_1_alg».proof.Proof.KIReg1
import proofs.«408152_j74947179315796_1_alg».proof.Proof.KISpec
import Idealize.ShloMosaic.Lib.Pipeline.Value
import Idealize.ShloMosaic.Lib.ValueIdx
import Idealize.ShloMosaic.Lib.ValueLayout
import Idealize.ShloMosaic.PureOps.Ideal.Laws

/-!
# The first layer's output after region 1, as one function of the region's input arrays

Region 1 computes a layer 5000 rows at a point: row `p` of the aggregate block is scaled by `nd (p, 0)`, multiplied into
the 128×64 weight matrix, the bias row is added, the result is clamped below at zero and scaled by `ns (p, 0)`. An entry
of the result reads one row of the row-indexed inputs and the whole of the weights and the bias, so point `t` stores, to
rows `5000 t … 5000 t + 4999` of the output, those rows of `Spec.G1` of the input arrays; the ten points cover the 50000
rows.
-/

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## The body's value at an index -/

/-- A column `[a, 1]` broadcast along the columns to `[a, b]`, read at `(p, c)`, is the column's entry `(p, 0)`. -/
theorem bcastCol1_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The block product's index maps, axis by axis: the left operand is read at (output row, contraction index), the right
    operand at (contraction index, output column). -/

theorem lhs1_0 (i : S5000x64.Idx) (k : dot_S5000x128_S128x64_S5000x64_1_0_0_1_n_n.contr.Idx) :
    (dot_S5000x128_S128x64_S5000x64_1_0_0_1_n_n.lhsIdx i k 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs1_1 (i : S5000x64.Idx) (k : dot_S5000x128_S128x64_S5000x64_1_0_0_1_n_n.contr.Idx) :
    (dot_S5000x128_S128x64_S5000x64_1_0_0_1_n_n.lhsIdx i k 1).val = (k ⟨0, by decide⟩).val :=
  dot_S5000x128_S128x64_S5000x64_1_0_0_1_n_n.lhsIdx_val_of_single rfl i k
theorem rhs1_0 (i : S5000x64.Idx) (k : dot_S5000x128_S128x64_S5000x64_1_0_0_1_n_n.contr.Idx) :
    (dot_S5000x128_S128x64_S5000x64_1_0_0_1_n_n.rhsIdx i k 0).val = (k ⟨0, by decide⟩).val :=
  dot_S5000x128_S128x64_S5000x64_1_0_0_1_n_n.rhsIdx_val_of_single rfl i k
theorem rhs1_1 (i : S5000x64.Idx) (k : dot_S5000x128_S128x64_S5000x64_1_0_0_1_n_n.contr.Idx) :
    (dot_S5000x128_S128x64_S5000x64_1_0_0_1_n_n.rhsIdx i k 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block product from a zero accumulator, at `(p, q)`: the sum over the 128 features of row `p` of the left block
    times column `q` of the weights. -/
theorem mm1_apply (A : FVec Ideal S5000x128 .f32) (W : FVec Ideal S128x64 .f32) (p : Fin 5000) (q : Fin 64) :
    matmul dot_S5000x128_S128x64_S5000x64_1_0_0_1_n_n none A W (constant S5000x64 .f32 0x00000000#32) (ix2 p q)
      = ∑ k : Fin 128, A (ix2 p k) * W (ix2 k q) := by
  show FloatOps.matmul dot_S5000x128_S128x64_S5000x64_1_0_0_1_n_n none A W (constant S5000x64 .f32 0x00000000#32) (ix2 p q) = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs1_0 _ _
    | ⟨1, _⟩ => exact (lhs1_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs1_0 _ _).trans hk
    | ⟨1, _⟩ => exact rhs1_1 _ _)
  rw [el, er]

/-- The stored value at `(p, q)`, from the loaded blocks `x0` (agg), `x1` (nd), `x2` (ns), `x3` (W), `x4` (b). -/
theorem pay1_apply (x0 : Vec Ideal S5000x128 .f32) (x1 x2 : Vec Ideal S5000x1 .f32) (x3 : Vec Ideal S128x64 .f32)
    (x4 : Vec Ideal S1x64 .f32) (p : Fin 5000) (q : Fin 64) :
    k1_pay1 x0 x1 x3 x4 x2 (ix2 p q)
      = max ((∑ k : Fin 128, (x0 (ix2 p k) * x1 (ix2 p (0 : Fin 1))) * x3 (ix2 k q)) + x4 (ix2 (0 : Fin 1) q))
          (Ideal.ofBits .f32 0x00000000#32) * x2 (ix2 p (0 : Fin 1)) := by
  unfold k1_pay1
  rw [mulf_apply, maximumf_apply, addf_apply, broadcast_apply]
  simp only [shapeCast_self]
  rw [bcastCol1_apply, broadcastTo_1b_ab_apply, mm1_apply]
  simp only [mulf_apply, bcastCol1_apply]
  rfl

/-- One block of rows: when the row-indexed loaded blocks are rows `5000 s + p` of the arrays `A`, `Nd`, `Ns`, the
    stored value at `(p, q)` is `Spec.G1` of the arrays at row `5000 s + p`, column `q`. -/
theorem block1 (A : Vec Ideal S50000x128 .f32) (Nd Ns : Vec Ideal S50000x1 .f32) (W : Vec Ideal S128x64 .f32)
    (B : Vec Ideal S1x64 .f32) (s : ℕ) (hs : s ≤ 9)
    (x0 : Vec Ideal S5000x128 .f32) (x1 x2 : Vec Ideal S5000x1 .f32)
    (h0 : ∀ (p : Fin 5000) (k : Fin 128), x0 (ix2 p k) = A (ix2 (⟨s * 5000 + p.val, by omega⟩ : Fin 50000) k))
    (h1 : ∀ (p : Fin 5000), x1 (ix2 p (0 : Fin 1)) = Nd (ix2 (⟨s * 5000 + p.val, by omega⟩ : Fin 50000) (0 : Fin 1)))
    (h2 : ∀ (p : Fin 5000), x2 (ix2 p (0 : Fin 1)) = Ns (ix2 (⟨s * 5000 + p.val, by omega⟩ : Fin 50000) (0 : Fin 1)))
    (p : Fin 5000) (q : Fin 64) :
    k1_pay1 x0 x1 W B x2 (ix2 p q) = Spec.G1 A Nd Ns W B (ix2 (⟨s * 5000 + p.val, by omega⟩ : Fin 50000) q) := by
  rw [pay1_apply, Spec.G1_apply, h1, h2]
  simp only [h0]

/-! ## From the blocks to the array -/

theorem hz1 : (![0, 0] : Fin 2 → Nat) = fun _ => 0 := funext fun a => by fin_cases a <;> rfl

/-- The index maps over the ten points: the three row-indexed inputs' row blocks move with the output's, the weights
    and the bias stay at block zero, every column block index is zero, and the output's row block index is at most nine. -/
theorem idx_facts1 : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = win1_5.index t (0 : Fin 2)
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (1 : Fin 2) = 0
    ∧ win1_5.index t (0 : Fin 2) ≤ 9 :=
  (by decide +kernel : ∀ t : Fin grid1.N, _)

/-- Every row block is some point's. -/
theorem idx_onto1 : ∀ (q0 : Fin 10), ∃ t : Fin cfg1.N, win1_5.index t = ![q0.val, 0] :=
  (by decide +kernel : ∀ (q0 : Fin 10), ∃ t : Fin grid1.N, win1_5.index t = ![q0.val, 0])

/-- The weights' block at any point is the whole matrix as the region finds it. -/
theorem iblk1_3_eq (c : Dev nD) (t : Fin cfg1.N) : iblk1 V c 3 t = V c main_arg1 := by
  obtain ⟨-, -, -, -, -, -, e6, e7, -, -, -, -⟩ := idx_facts1 t
  funext y
  show V c main_arg1 (((cfg1.win 3).blk t).view.emb y) = V c main_arg1 y
  refine congrArg (V c main_arg1) (funext fun a => Fin.ext ?_)
  match a with
  | ⟨0, _⟩ => show win1_3.index t (0 : Fin 2) * 128 + 1 * (y 0).val = (y 0).val; omega
  | ⟨1, _⟩ => show win1_3.index t (1 : Fin 2) * 64 + 1 * (y 1).val = (y 1).val; omega

/-- The bias's block at any point is the whole row as the region finds it. -/
theorem iblk1_4_eq (c : Dev nD) (t : Fin cfg1.N) : iblk1 V c 4 t = V c main_v24 := by
  obtain ⟨-, -, -, -, -, -, -, -, e8, e9, -, -⟩ := idx_facts1 t
  funext y
  show V c main_v24 (((cfg1.win 4).blk t).view.emb y) = V c main_v24 y
  refine congrArg (V c main_v24) (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- What point `t` writes back is block `t` of `Spec.G1` of the input arrays as the region finds them. -/
theorem flushed1_eq (c : Dev nD) (t : Fin cfg1.N) :
    (dat1 V c).flushed 5 t = ((cfg1.win 5).blk t).view.read (Elt Ideal)
      (Spec.G1 (V c main_v23) (V c main_v18) (V c main_v14) (V c main_arg1) (V c main_v24)) := by
  show (cfg1.win 5).cut (grid1.coords t) ((dat1 V c).after 5 t) = _
  rw [after1_5]
  unfold out1_5
  rw [View.canon_unit_zero hz1]
  simp only [View.ld_unit_zero (S := S5000x128) hz1, View.ld_unit_zero (S := S5000x1) hz1,
    View.ld_unit_zero (S := S128x64) hz1, View.ld_unit_zero (S := S1x64) hz1]
  rw [iblk1_3_eq, iblk1_4_eq]
  obtain ⟨e0, e1, e2, e3, e4, e5, -, -, -, -, e10, e11⟩ := idx_facts1 t
  funext j
  obtain ⟨p, q, rfl⟩ : ∃ (p : Fin 5000) (q : Fin 64), j = ix2 p q := ⟨j 0, j 1, eq_ix2 j⟩
  show k1_pay1 (iblk1 V c 0 t) (iblk1 V c 1 t) (V c main_arg1) (V c main_v24) (iblk1 V c 2 t) (ix2 p q)
    = Spec.G1 (V c main_v23) (V c main_v18) (V c main_v14) (V c main_arg1) (V c main_v24) (((cfg1.win 5).blk t).view.emb (ix2 p q))
  refine (block1 (V c main_v23) (V c main_v18) (V c main_v14) (V c main_arg1) (V c main_v24) (win1_5.index t (0 : Fin 2)) e11
    (iblk1 V c 0 t) (iblk1 V c 1 t) (iblk1 V c 2 t) ?_ ?_ ?_ p q).trans ?_
  · intro p k
    show V c main_v23 (((cfg1.win 0).blk t).view.emb (ix2 p k)) = _
    refine congrArg (V c main_v23) (funext fun a => Fin.ext ?_)
    match a with
    | ⟨0, _⟩ => show win1_0.index t (0 : Fin 2) * 5000 + 1 * p.val = win1_5.index t (0 : Fin 2) * 5000 + p.val; omega
    | ⟨1, _⟩ => show win1_0.index t (1 : Fin 2) * 128 + 1 * k.val = k.val; omega
  · intro p
    show V c main_v18 (((cfg1.win 1).blk t).view.emb (ix2 p (0 : Fin 1))) = _
    refine congrArg (V c main_v18) (funext fun a => Fin.ext ?_)
    match a with
    | ⟨0, _⟩ => show win1_1.index t (0 : Fin 2) * 5000 + 1 * p.val = win1_5.index t (0 : Fin 2) * 5000 + p.val; omega
    | ⟨1, _⟩ => show win1_1.index t (1 : Fin 2) * 1 + 1 * 0 = 0; omega
  · intro p
    show V c main_v14 (((cfg1.win 2).blk t).view.emb (ix2 p (0 : Fin 1))) = _
    refine congrArg (V c main_v14) (funext fun a => Fin.ext ?_)
    match a with
    | ⟨0, _⟩ => show win1_2.index t (0 : Fin 2) * 5000 + 1 * p.val = win1_5.index t (0 : Fin 2) * 5000 + p.val; omega
    | ⟨1, _⟩ => show win1_2.index t (1 : Fin 2) * 1 + 1 * 0 = 0; omega
  · refine congrArg (Spec.G1 (V c main_v23) (V c main_v18) (V c main_v14) (V c main_arg1) (V c main_v24)) (funext fun a => Fin.ext ?_)
    match a with
    | ⟨0, _⟩ => show win1_5.index t (0 : Fin 2) * 5000 + p.val = win1_5.index t (0 : Fin 2) * 5000 + 1 * p.val; omega
    | ⟨1, _⟩ => show q.val = win1_5.index t (1 : Fin 2) * 64 + 1 * q.val; omega

/-- An index of the array is in point `t`'s block iff each coordinate is in the block's range on its axis. -/
theorem mem_blk1 (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v25).slice (win1_5.rect t)).set ↔ _
  rw [View.set_slice_whole, Rect.mem_set_unit]
  exact Iff.rfl

/-- The ten blocks cover the array: row `r` is in the block of the point whose row block index is `r / 5000`. -/
theorem cover1 (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The output array after region 1 is the first layer's output of the region's input arrays. -/
theorem final1 (c : Dev nD) : (dat1 V c).arrAt 5 cfg1.N
    = Spec.G1 (V c main_v23) (V c main_v18) (V c main_v14) (V c main_arg1) (V c main_v24) :=
  (dat1 V c).arrAt_eq_of_cover 5 (Spec.G1 (V c main_v23) (V c main_v18) (V c main_v14) (V c main_arg1) (V c main_v24))
    (fun t _ => flushed1_eq V c t) cover1

end Cert.KernelIdeal.Hand

end
-- ==== Proof.KIVal2.lean ====
import proofs.«408152_j74947179315796_1_alg».proof.Proof.KIReg2
import proofs.«408152_j74947179315796_1_alg».proof.Proof.KISpec
import Idealize.ShloMosaic.Lib.Pipeline.Value
import Idealize.ShloMosaic.Lib.ValueIdx
import Idealize.ShloMosaic.Lib.ValueLayout
import Idealize.ShloMosaic.PureOps.Ideal.Laws

/-!
# The second layer's output after region 2, as one function of the region's input arrays

Region 2 computes a layer 5000 rows at a point: row `p` of the aggregate block is scaled by `nd (p, 0)`, multiplied into
the 64×64 weight matrix, the bias row is added, the result is clamped below at zero and scaled by `ns (p, 0)`. An entry
of the result reads one row of the row-indexed inputs and the whole of the weights and the bias, so point `t` stores, to
rows `5000 t … 5000 t + 4999` of the output, those rows of `Spec.G2` of the input arrays; the ten points cover the 50000
rows.
-/

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## The body's value at an index -/

/-- A column `[a, 1]` broadcast along the columns to `[a, b]`, read at `(p, c)`, is the column's entry `(p, 0)`. -/
theorem bcastCol2_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The block product's index maps, axis by axis: the left operand is read at (output row, contraction index), the right
    operand at (contraction index, output column). -/

theorem lhs2_0 (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs2_1 (i : S5000x64.Idx) (k : dot_S5000x64_S64x64_S5000x64_1_0_0_1_n_n.contr.Idx) :
    (dot_S5000x64_S64x64_S5000x64_1_0_0_1_n_n.lhsIdx i k 1).val = (k ⟨0, by decide⟩).val :=
  dot_S5000x64_S64x64_S5000x64_1_0_0_1_n_n.lhsIdx_val_of_single rfl i k
theorem rhs2_0 (i : S5000x64.Idx) (k : dot_S5000x64_S64x64_S5000x64_1_0_0_1_n_n.contr.Idx) :
    (dot_S5000x64_S64x64_S5000x64_1_0_0_1_n_n.rhsIdx i k 0).val = (k ⟨0, by decide⟩).val :=
  dot_S5000x64_S64x64_S5000x64_1_0_0_1_n_n.rhsIdx_val_of_single rfl i k
theorem rhs2_1 (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block product from a zero accumulator, at `(p, q)`: the sum over the 64 features of row `p` of the left block
    times column `q` of the weights. -/
theorem mm2_apply (A : FVec Ideal S5000x64 .f32) (W : FVec Ideal S64x64 .f32) (p : Fin 5000) (q : Fin 64) :
    matmul dot_S5000x64_S64x64_S5000x64_1_0_0_1_n_n none A W (constant S5000x64 .f32 0x00000000#32) (ix2 p q)
      = ∑ k : Fin 64, A (ix2 p k) * W (ix2 k q) := by
  show FloatOps.matmul dot_S5000x64_S64x64_S5000x64_1_0_0_1_n_n none A W (constant S5000x64 .f32 0x00000000#32) (ix2 p q) = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs2_0 _ _
    | ⟨1, _⟩ => exact (lhs2_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs2_0 _ _).trans hk
    | ⟨1, _⟩ => exact rhs2_1 _ _)
  rw [el, er]

/-- The stored value at `(p, q)`, from the loaded blocks `x0` (agg), `x1` (nd), `x2` (ns), `x3` (W), `x4` (b). -/
theorem pay2_apply (x0 : Vec Ideal S5000x64 .f32) (x1 x2 : Vec Ideal S5000x1 .f32) (x3 : Vec Ideal S64x64 .f32)
    (x4 : Vec Ideal S1x64 .f32) (p : Fin 5000) (q : Fin 64) :
    k2_pay1 x0 x1 x3 x4 x2 (ix2 p q)
      = max ((∑ k : Fin 64, (x0 (ix2 p k) * x1 (ix2 p (0 : Fin 1))) * x3 (ix2 k q)) + x4 (ix2 (0 : Fin 1) q))
          (Ideal.ofBits .f32 0x00000000#32) * x2 (ix2 p (0 : Fin 1)) := by
  unfold k2_pay1
  rw [mulf_apply, maximumf_apply, addf_apply, broadcast_apply]
  simp only [shapeCast_self]
  rw [bcastCol2_apply, broadcastTo_1b_ab_apply, mm2_apply]
  simp only [mulf_apply, bcastCol2_apply]
  rfl

/-- One block of rows: when the row-indexed loaded blocks are rows `5000 s + p` of the arrays `A`, `Nd`, `Ns`, the
    stored value at `(p, q)` is `Spec.G2` of the arrays at row `5000 s + p`, column `q`. -/
theorem block2 (A : Vec Ideal S50000x64 .f32) (Nd Ns : Vec Ideal S50000x1 .f32) (W : Vec Ideal S64x64 .f32)
    (B : Vec Ideal S1x64 .f32) (s : ℕ) (hs : s ≤ 9)
    (x0 : Vec Ideal S5000x64 .f32) (x1 x2 : Vec Ideal S5000x1 .f32)
    (h0 : ∀ (p : Fin 5000) (k : Fin 64), x0 (ix2 p k) = A (ix2 (⟨s * 5000 + p.val, by omega⟩ : Fin 50000) k))
    (h1 : ∀ (p : Fin 5000), x1 (ix2 p (0 : Fin 1)) = Nd (ix2 (⟨s * 5000 + p.val, by omega⟩ : Fin 50000) (0 : Fin 1)))
    (h2 : ∀ (p : Fin 5000), x2 (ix2 p (0 : Fin 1)) = Ns (ix2 (⟨s * 5000 + p.val, by omega⟩ : Fin 50000) (0 : Fin 1)))
    (p : Fin 5000) (q : Fin 64) :
    k2_pay1 x0 x1 W B x2 (ix2 p q) = Spec.G2 A Nd Ns W B (ix2 (⟨s * 5000 + p.val, by omega⟩ : Fin 50000) q) := by
  rw [pay2_apply, Spec.G2_apply, h1, h2]
  simp only [h0]

/-! ## From the blocks to the array -/

theorem hzv2 : (![0, 0] : Fin 2 → Nat) = fun _ => 0 := funext fun a => by fin_cases a <;> rfl

/-- The index maps over the ten points: the three row-indexed inputs' row blocks move with the output's, the weights
    and the bias stay at block zero, every column block index is zero, and the output's row block index is at most nine. -/
theorem idx_facts2 : ∀ t : Fin cfg2.N, win2_0.index t (0 : Fin 2) = win2_5.index t (0 : Fin 2)
    ∧ win2_0.index t (1 : Fin 2) = 0
    ∧ win2_1.index t (0 : Fin 2) = win2_5.index t (0 : Fin 2)
    ∧ win2_1.index t (1 : Fin 2) = 0
    ∧ win2_2.index t (0 : Fin 2) = win2_5.index t (0 : Fin 2)
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (1 : Fin 2) = 0
    ∧ win2_5.index t (0 : Fin 2) ≤ 9 :=
  (by decide +kernel : ∀ t : Fin grid2.N, _)

/-- Every row block is some point's. -/
theorem idx_onto2 : ∀ (q0 : Fin 10), ∃ t : Fin cfg2.N, win2_5.index t = ![q0.val, 0] :=
  (by decide +kernel : ∀ (q0 : Fin 10), ∃ t : Fin grid2.N, win2_5.index t = ![q0.val, 0])

/-- The weights' block at any point is the whole matrix as the region finds it. -/
theorem iblk2_3_eq (c : Dev nD) (t : Fin cfg2.N) : iblk2 V c 3 t = V c main_arg3 := by
  obtain ⟨-, -, -, -, -, -, e6, e7, -, -, -, -⟩ := idx_facts2 t
  funext y
  show V c main_arg3 (((cfg2.win 3).blk t).view.emb y) = V c main_arg3 y
  refine congrArg (V c main_arg3) (funext fun a => Fin.ext ?_)
  match a with
  | ⟨0, _⟩ => show win2_3.index t (0 : Fin 2) * 64 + 1 * (y 0).val = (y 0).val; omega
  | ⟨1, _⟩ => show win2_3.index t (1 : Fin 2) * 64 + 1 * (y 1).val = (y 1).val; omega

/-- The bias's block at any point is the whole row as the region finds it. -/
theorem iblk2_4_eq (c : Dev nD) (t : Fin cfg2.N) : iblk2 V c 4 t = V c main_v30 := by
  obtain ⟨-, -, -, -, -, -, -, -, e8, e9, -, -⟩ := idx_facts2 t
  funext y
  show V c main_v30 (((cfg2.win 4).blk t).view.emb y) = V c main_v30 y
  refine congrArg (V c main_v30) (funext fun a => Fin.ext ?_)
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- What point `t` writes back is block `t` of `Spec.G2` of the input arrays as the region finds them. -/
theorem flushed2_eq (c : Dev nD) (t : Fin cfg2.N) :
    (dat2 V c).flushed 5 t = ((cfg2.win 5).blk t).view.read (Elt Ideal)
      (Spec.G2 (V c main_v29) (V c main_v18) (V c main_v14) (V c main_arg3) (V c main_v30)) := by
  show (cfg2.win 5).cut (grid2.coords t) ((dat2 V c).after 5 t) = _
  rw [after2_5]
  unfold out2_5
  rw [View.canon_unit_zero hzv2]
  simp only [View.ld_unit_zero (S := S5000x64) hzv2, View.ld_unit_zero (S := S5000x1) hzv2,
    View.ld_unit_zero (S := S64x64) hzv2, View.ld_unit_zero (S := S1x64) hzv2]
  rw [iblk2_3_eq, iblk2_4_eq]
  obtain ⟨e0, e1, e2, e3, e4, e5, -, -, -, -, e10, e11⟩ := idx_facts2 t
  funext j
  obtain ⟨p, q, rfl⟩ : ∃ (p : Fin 5000) (q : Fin 64), j = ix2 p q := ⟨j 0, j 1, eq_ix2 j⟩
  show k2_pay1 (iblk2 V c 0 t) (iblk2 V c 1 t) (V c main_arg3) (V c main_v30) (iblk2 V c 2 t) (ix2 p q)
    = Spec.G2 (V c main_v29) (V c main_v18) (V c main_v14) (V c main_arg3) (V c main_v30) (((cfg2.win 5).blk t).view.emb (ix2 p q))
  refine (block2 (V c main_v29) (V c main_v18) (V c main_v14) (V c main_arg3) (V c main_v30) (win2_5.index t (0 : Fin 2)) e11
    (iblk2 V c 0 t) (iblk2 V c 1 t) (iblk2 V c 2 t) ?_ ?_ ?_ p q).trans ?_
  · intro p k
    show V c main_v29 (((cfg2.win 0).blk t).view.emb (ix2 p k)) = _
    refine congrArg (V c main_v29) (funext fun a => Fin.ext ?_)
    match a with
    | ⟨0, _⟩ => show win2_0.index t (0 : Fin 2) * 5000 + 1 * p.val = win2_5.index t (0 : Fin 2) * 5000 + p.val; omega
    | ⟨1, _⟩ => show win2_0.index t (1 : Fin 2) * 64 + 1 * k.val = k.val; omega
  · intro p
    show V c main_v18 (((cfg2.win 1).blk t).view.emb (ix2 p (0 : Fin 1))) = _
    refine congrArg (V c main_v18) (funext fun a => Fin.ext ?_)
    match a with
    | ⟨0, _⟩ => show win2_1.index t (0 : Fin 2) * 5000 + 1 * p.val = win2_5.index t (0 : Fin 2) * 5000 + p.val; omega
    | ⟨1, _⟩ => show win2_1.index t (1 : Fin 2) * 1 + 1 * 0 = 0; omega
  · intro p
    show V c main_v14 (((cfg2.win 2).blk t).view.emb (ix2 p (0 : Fin 1))) = _
    refine congrArg (V c main_v14) (funext fun a => Fin.ext ?_)
    match a with
    | ⟨0, _⟩ => show win2_2.index t (0 : Fin 2) * 5000 + 1 * p.val = win2_5.index t (0 : Fin 2) * 5000 + p.val; omega
    | ⟨1, _⟩ => show win2_2.index t (1 : Fin 2) * 1 + 1 * 0 = 0; omega
  · refine congrArg (Spec.G2 (V c main_v29) (V c main_v18) (V c main_v14) (V c main_arg3) (V c main_v30)) (funext fun a => Fin.ext ?_)
    match a with
    | ⟨0, _⟩ => show win2_5.index t (0 : Fin 2) * 5000 + p.val = win2_5.index t (0 : Fin 2) * 5000 + 1 * p.val; omega
    | ⟨1, _⟩ => show q.val = win2_5.index t (1 : Fin 2) * 64 + 1 * q.val; omega

/-- An index of the array is in point `t`'s block iff each coordinate is in the block's range on its axis. -/
theorem mem_blk2 (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v31).slice (win2_5.rect t)).set ↔ _
  rw [View.set_slice_whole, Rect.mem_set_unit]
  exact Iff.rfl

/-- The ten blocks cover the array: row `r` is in the block of the point whose row block index is `r / 5000`. -/
theorem cover2 (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  obtain ⟨t, ht⟩ := idx_onto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- The output array after region 2 is the second layer's output of the region's input arrays. -/
theorem final2 (c : Dev nD) : (dat2 V c).arrAt 5 cfg2.N
    = Spec.G2 (V c main_v29) (V c main_v18) (V c main_v14) (V c main_arg3) (V c main_v30) :=
  (dat2 V c).arrAt_eq_of_cover 5 (Spec.G2 (V c main_v29) (V c main_v18) (V c main_v14) (V c main_arg3) (V c main_v30))
    (fun t _ => flushed2_eq V c t) cover2

end Cert.KernelIdeal.Hand

end
-- ==== Proof.KIPay3.lean ====
/-
  The three values the last kernel stores, read at an entry, at the ideal values.

  The zero row: every entry is 0. The accumulation: entry (0, q) of the new scratch is the old scratch's entry plus the
  block's column sum, ∑ r < 5000, max((∑ k < 64, (x(r, k) · s(r, 0)) · W(k, q)) + b(0, q), 0). The head: the one entry
  of the result is the logistic of (∑ j < 32, max((∑ q < 64, (acc(0, q) · (1 / 50000)) · Wf1(q, j)) + bf1(0, j), 0) ·
  Wf2(j, 0)) + bf2(0, 0); the constant the kernel multiplies by is the named one, whose value at the ideal values is the
  rational 1 / 50000.
-/
import proofs.«408152_j74947179315796_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Pay3

open Cert.KernelIdeal Cert.KernelIdeal.Gen
open Idealize.ShloMosaic Idealize.ShloMosaic.ValueIdx
open scoped BigOperators

/-! ## Layout operations at an entry -/

/-- One column broadcast over many (`[a, 1] → [a, b]`): entry `(p, c)` is the operand's entry `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one index of a `1 × 1` array. -/
theorem idx11 (i : S1x1.Idx) : i = ix2 (0 : Fin 1) (0 : Fin 1) :=
  funext fun a => Fin.ext (by
    match a with
    | ⟨0, _⟩ => have := idx2_lt0 i; show (i 0).val = 0; omega
    | ⟨1, _⟩ => have := idx2_lt1 i; show (i 1).val = 0; omega)

/-! ### The product `[5000, 64] × [64, 64]` read at an entry -/

theorem lhs1_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs1_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs1_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs1_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Into the zero accumulator, entry `(p, c)` of the product is the sum over the contracted coordinate `k` of the left
    operand at `(p, k)` times the right operand at `(k, c)`. -/
theorem mm1_apply (L : FVec Ideal S5000x64 .f32) (R : FVec Ideal S64x64 .f32) (p : Fin 5000) (c : Fin 64) :
    matmul dot_S5000x64_S64x64_S5000x64_1_0_0_1_n_n none L R (constant (F := Ideal) S5000x64 .f32 0x00000000#32) (ix2 p c)
      = ∑ k : Fin 64, L (ix2 p k) * R (ix2 k c) := by
  refine (Ideal.matmul_constant_zero_apply dot_S5000x64_S64x64_S5000x64_1_0_0_1_n_n none L R (ix2 p c)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p c) ((ValueIdx.contrEquiv1 dot_S5000x64_S64x64_S5000x64_1_0_0_1_n_n 64 rfl rfl).symm k) = ix2 p k := funext fun a => Fin.ext (by
    match a with
    | ⟨0, _⟩ => exact lhs1_0 _ _
    | ⟨1, _⟩ => exact (lhs1_1 _ _).trans hk)
  have er : dot_S5000x64_S64x64_S5000x64_1_0_0_1_n_n.rhsIdx (ix2 p c) ((ValueIdx.contrEquiv1 dot_S5000x64_S64x64_S5000x64_1_0_0_1_n_n 64 rfl rfl).symm k) = ix2 k c := funext fun a => Fin.ext (by
    match a with
    | ⟨0, _⟩ => exact (rhs1_0 _ _).trans hk
    | ⟨1, _⟩ => exact rhs1_1 _ _)
  rw [el, er]

/-! ### The product `[1, 64] × [64, 32]` read at an entry -/

theorem lhs2_0 (i : S1x32.Idx) (q : dot_S1x64_S64x32_S1x32_1_0_0_1_n_n.contr.Idx) :
    (dot_S1x64_S64x32_S1x32_1_0_0_1_n_n.lhsIdx i q 0).val = (i 0).val := by
  unfold DotDims.lhsIdx
  rw [dif_neg (show ¬(0 : Fin S1x64.rank) ∈ dot_S1x64_S64x32_S1x32_1_0_0_1_n_n.lhsBatch by decide), dif_pos (show (0 : Fin S1x64.rank) ∈ dot_S1x64_S64x32_S1x32_1_0_0_1_n_n.lhsNonContracting by decide)]
  rfl
theorem lhs2_1 (i : S1x32.Idx) (q : dot_S1x64_S64x32_S1x32_1_0_0_1_n_n.contr.Idx) :
    (dot_S1x64_S64x32_S1x32_1_0_0_1_n_n.lhsIdx i q 1).val = (q ⟨0, by decide⟩).val :=
  dot_S1x64_S64x32_S1x32_1_0_0_1_n_n.lhsIdx_val_of_single rfl i q
theorem rhs2_0 (i : S1x32.Idx) (q : dot_S1x64_S64x32_S1x32_1_0_0_1_n_n.contr.Idx) :
    (dot_S1x64_S64x32_S1x32_1_0_0_1_n_n.rhsIdx i q 0).val = (q ⟨0, by decide⟩).val :=
  dot_S1x64_S64x32_S1x32_1_0_0_1_n_n.rhsIdx_val_of_single rfl i q
theorem rhs2_1 (i : S1x32.Idx) (q : dot_S1x64_S64x32_S1x32_1_0_0_1_n_n.contr.Idx) :
    (dot_S1x64_S64x32_S1x32_1_0_0_1_n_n.rhsIdx i q 1).val = (i 1).val := by
  unfold DotDims.rhsIdx
  rw [dif_neg (show ¬(1 : Fin S64x32.rank) ∈ dot_S1x64_S64x32_S1x32_1_0_0_1_n_n.rhsBatch by decide), dif_pos (show (1 : Fin S64x32.rank) ∈ dot_S1x64_S64x32_S1x32_1_0_0_1_n_n.rhsNonContracting by decide)]
  rfl

/-- Into the zero accumulator, entry `(p, c)` of the product is the sum over the contracted coordinate `k` of the left
    operand at `(p, k)` times the right operand at `(k, c)`. -/
theorem mm2_apply (L : FVec Ideal S1x64 .f32) (R : FVec Ideal S64x32 .f32) (p : Fin 1) (c : Fin 32) :
    matmul dot_S1x64_S64x32_S1x32_1_0_0_1_n_n none L R (constant (F := Ideal) S1x32 .f32 0x00000000#32) (ix2 p c)
      = ∑ k : Fin 64, L (ix2 p k) * R (ix2 k c) := by
  refine (Ideal.matmul_constant_zero_apply dot_S1x64_S64x32_S1x32_1_0_0_1_n_n none L R (ix2 p c)).trans ?_
  rw [← Equiv.sum_comp (ValueIdx.contrEquiv1 dot_S1x64_S64x32_S1x32_1_0_0_1_n_n 64 rfl rfl).symm]
  refine Finset.sum_congr rfl fun k _ => ?_
  have hk := ValueIdx.contrEquiv1_symm_val dot_S1x64_S64x32_S1x32_1_0_0_1_n_n 64 rfl rfl k
  have el : dot_S1x64_S64x32_S1x32_1_0_0_1_n_n.lhsIdx (ix2 p c) ((ValueIdx.contrEquiv1 dot_S1x64_S64x32_S1x32_1_0_0_1_n_n 64 rfl rfl).symm k) = ix2 p k := funext fun a => Fin.ext (by
    match a with
    | ⟨0, _⟩ => exact lhs2_0 _ _
    | ⟨1, _⟩ => exact (lhs2_1 _ _).trans hk)
  have er : dot_S1x64_S64x32_S1x32_1_0_0_1_n_n.rhsIdx (ix2 p c) ((ValueIdx.contrEquiv1 dot_S1x64_S64x32_S1x32_1_0_0_1_n_n 64 rfl rfl).symm k) = ix2 k c := funext fun a => Fin.ext (by
    match a with
    | ⟨0, _⟩ => exact (rhs2_0 _ _).trans hk
    | ⟨1, _⟩ => exact rhs2_1 _ _)
  rw [el, er]

/-! ### The product `[1, 32] × [32, 1]` read at an entry -/

theorem lhs3_0 (i : S1x1.Idx) (q : dot_S1x32_S32x1_S1x1_1_0_0_1_n_n.contr.Idx) :
    (dot_S1x32_S32x1_S1x1_1_0_0_1_n_n.lhsIdx i q 0).val = (i 0).val := by
  unfold DotDims.lhsIdx
  rw [dif_neg (show ¬(0 : Fin S1x32.rank) ∈ dot_S1x32_S32x1_S1x1_1_0_0_1_n_n.lhsBatch by decide), dif_pos (show (0 : Fin S1x32.rank) ∈ dot_S1x32_S32x1_S1x1_1_0_0_1_n_n.lhsNonContracting by decide)]
  rfl
theorem lhs3_1 (i : S1x1.Idx) (q : dot_S1x32_S32x1_S1x1_1_0_0_1_n_n.contr.Idx) :
    (dot_S1x32_S32x1_S1x1_1_0_0_1_n_n.lhsIdx i q 1).val = (q ⟨0, by decide⟩).val :=
  dot_S1x32_S32x1_S1x1_1_0_0_1_n_n.lhsIdx_val_of_single rfl i q
theorem rhs3_0 (i : S1x1.Idx) (q : dot_S1x32_S32x1_S1x1_1_0_0_1_n_n.contr.Idx) :
    (dot_S1x32_S32x1_S1x1_1_0_0_1_n_n.rhsIdx i q 0).val = (q ⟨0, by decide⟩).val :=
  dot_S1x32_S32x1_S1x1_1_0_0_1_n_n.rhsIdx_val_of_single rfl i q
theorem rhs3_1 (i : S1x1.Idx) (q : dot_S1x32_S32x1_S1x1_1_0_0_1_n_n.contr.Idx) :
    (dot_S1x32_S32x1_S1x1_1_0_0_1_n_n.rhsIdx i q 1).val = (i 1).val := by
  unfold DotDims.rhsIdx
  rw [dif_neg (show ¬(1 : Fin S32x1.rank) ∈ dot_S1x32_S32x1_S1x1_1_0_0_1_n_n.rhsBatch by decide), dif_pos (show (1 : Fin S32x1.rank) ∈ dot_S1x32_S32x1_S1x1_1_0_0_1_n_n.rhsNonContracting by decide)]
  rfl

/-- Into the zero accumulator, entry `(p, c)` of the product is the sum over the contracted coordinate `k` of the left
    operand at `(p, k)` times the right operand at `(k, c)`. -/
theorem mm3_apply (L : FVec Ideal S1x32 .f32) (R : FVec Ideal S32x1 .f32) (p : Fin 1) (c : Fin 1) :
    matmul dot_S1x32_S32x1_S1x1_1_0_0_1_n_n none L R (constant (F := Ideal) S1x1 .f32 0x00000000#32) (ix2 p c)
      = ∑ k : Fin 32, L (ix2 p k) * R (ix2 k c) := by
  refine (Ideal.matmul_constant_zero_apply dot_S1x32_S32x1_S1x1_1_0_0_1_n_n none L R (ix2 p c)).trans ?_
  rw [← Equiv.sum_comp (ValueIdx.contrEquiv1 dot_S1x32_S32x1_S1x1_1_0_0_1_n_n 32 rfl rfl).symm]
  refine Finset.sum_congr rfl fun k _ => ?_
  have hk := ValueIdx.contrEquiv1_symm_val dot_S1x32_S32x1_S1x1_1_0_0_1_n_n 32 rfl rfl k
  have el : dot_S1x32_S32x1_S1x1_1_0_0_1_n_n.lhsIdx (ix2 p c) ((ValueIdx.contrEquiv1 dot_S1x32_S32x1_S1x1_1_0_0_1_n_n 32 rfl rfl).symm k) = ix2 p k := funext fun a => Fin.ext (by
    match a with
    | ⟨0, _⟩ => exact lhs3_0 _ _
    | ⟨1, _⟩ => exact (lhs3_1 _ _).trans hk)
  have er : dot_S1x32_S32x1_S1x1_1_0_0_1_n_n.rhsIdx (ix2 p c) ((ValueIdx.contrEquiv1 dot_S1x32_S32x1_S1x1_1_0_0_1_n_n 32 rfl rfl).symm k) = ix2 k c := funext fun a => Fin.ext (by
    match a with
    | ⟨0, _⟩ => exact (rhs3_0 _ _).trans hk
    | ⟨1, _⟩ => exact rhs3_1 _ _)
  rw [el, er]

/-! ## The column sums of a block -/

/-- The sum over the rows of a `[5000, 64]` array, at column `q`. -/
theorem colsum_apply (src : FVec Ideal S5000x64 .f32) (hφ : FKind.Formats .f32)
    (hacc : (0x00000000#32 : BitVec 32) = FKind.add.neutral .f32 hφ) (q : Fin 64) :
    multiReduction .add [0] S64 src 0x00000000#32 reduces_S5000x64_S64 hφ hacc (ix1 q) = ∑ r : Fin 5000, src (ix2 r q) := by
  refine (Ideal.multiReduction_add_single src 0x00000000#32 reduces_S5000x64_S64 hφ hacc (ix1 q)).trans ?_
  refine Finset.sum_congr rfl fun r _ => congrArg src ?_
  funext a
  match a with
  | ⟨0, _⟩ => rfl
  | ⟨1, _⟩ => rfl

/-! ## The zero row -/

theorem pay1_apply (q : Fin 64) : (k3_pay1 (F := Ideal)) (ix2 (0 : Fin 1) q) = 0 := by
  unfold k3_pay1
  refine (congrFun (shapeCast_self _ _) _).trans ?_
  exact Ideal.ofBits_zero_f32

/-! ## The accumulation -/

/-- The block's third-layer output: the block of `agg` scaled row by row, times `W3`, plus the bias row, clipped below
    at zero. -/
def act3 (v3 : FVec Ideal S5000x64 .f32) (v5 : FVec Ideal S5000x1 .f32) (v9 : FVec Ideal S64x64 .f32)
    (v11 : FVec Ideal S1x64 .f32) : FVec Ideal S5000x64 .f32 :=
  maximumf
    (addf
      (matmul dot_S5000x64_S64x64_S5000x64_1_0_0_1_n_n none
        (mulf (shapeCast S5000x64 v3 shapeCasts_S5000x64_S5000x64)
          (broadcastTo S5000x64 (shapeCast S5000x1 v5 shapeCasts_S5000x1_S5000x1) broadcasts_S5000x1_S5000x64))
        v9 (constant (F := Ideal) S5000x64 .f32 0x00000000#32))
      (broadcastTo S5000x64 (shapeCast S1x64 v11 shapeCasts_S1x64_S1x64) broadcasts_S1x64_S5000x64))
    (broadcast S5000x64 (Scalar.ofBits (F := Ideal) .f32 0x00000000#32))

theorem act3_apply (v3 : FVec Ideal S5000x64 .f32) (v5 : FVec Ideal S5000x1 .f32) (v9 : FVec Ideal S64x64 .f32)
    (v11 : FVec Ideal S1x64 .f32) (r : Fin 5000) (q : Fin 64) :
    act3 v3 v5 v9 v11 (ix2 r q)
      = max ((∑ k : Fin 64, (v3 (ix2 r k) * v5 (ix2 r (0 : Fin 1))) * v9 (ix2 k q)) + v11 (ix2 (0 : Fin 1) q)) 0 := by
  unfold act3
  show max (matmul dot_S5000x64_S64x64_S5000x64_1_0_0_1_n_n none _ v9 (constant (F := Ideal) S5000x64 .f32 0x00000000#32) (ix2 r q)
      + broadcastTo S5000x64 (shapeCast S1x64 v11 shapeCasts_S1x64_S1x64) broadcasts_S1x64_S5000x64 (ix2 r q))
    (Ideal.ofBits .f32 0x00000000#32) = _
  rw [Ideal.ofBits_zero_f32, mm1_apply, broadcastTo_1b_ab_apply]
  simp only [shapeCast_self]
  refine congrArg (fun z => max (z + v11 (ix2 (0 : Fin 1) q)) 0) (Finset.sum_congr rfl fun k _ => ?_)
  show (v3 (ix2 r k) * broadcastTo S5000x64 v5 broadcasts_S5000x1_S5000x64 (ix2 r k)) * v9 (ix2 k q) = _
  rw [broadcastTo_a1_ab_apply]

/-- The accumulation as the old scratch plus the row form of the block's column sums. -/
theorem pay2_eq (v3 : FVec Ideal S5000x64 .f32) (v5 : FVec Ideal S5000x1 .f32) (v9 : FVec Ideal S64x64 .f32)
    (v11 v17 : FVec Ideal S1x64 .f32) :
    k3_pay2 (F := Ideal) v3 v5 v9 v11 v17
      = addf v17 (shapeCast S1x64 (multiReduction .add [0] S64 (act3 v3 v5 v9 v11) 0x00000000#32 reduces_S5000x64_S64 (.inl rfl) rfl)
          shapeCasts_S64_S1x64) := by
  unfold k3_pay2
  exact shapeCast_self _ _

/-- Entry `(0, q)` of the new scratch: the old entry plus the block's column sum at `q`. -/
theorem pay2_apply (v3 : FVec Ideal S5000x64 .f32) (v5 : FVec Ideal S5000x1 .f32) (v9 : FVec Ideal S64x64 .f32)
    (v11 v17 : FVec Ideal S1x64 .f32) (q : Fin 64) :
    k3_pay2 (F := Ideal) v3 v5 v9 v11 v17 (ix2 (0 : Fin 1) q)
      = v17 (ix2 (0 : Fin 1) q)
        + ∑ r : Fin 5000, max ((∑ k : Fin 64, (v3 (ix2 r k) * v5 (ix2 r (0 : Fin 1))) * v9 (ix2 k q)) + v11 (ix2 (0 : Fin 1) q)) 0 := by
  refine (congrFun (pay2_eq v3 v5 v9 v11 v17) (ix2 (0 : Fin 1) q)).trans ?_
  refine congrArg (v17 (ix2 (0 : Fin 1) q) + ·) ?_
  refine (shapeCast_a_1a_apply _ shapeCasts_S64_S1x64 (0 : Fin 1) q).trans ?_
  refine (colsum_apply (act3 v3 v5 v9 v11) _ _ q).trans ?_
  exact Finset.sum_congr rfl fun r _ => act3_apply v3 v5 v9 v11 r q

/-! ## The head -/

/-- The constant the head multiplies the sums by: named, it denotes the rational 1 / 50000 at the ideal values. -/
theorem inv_50000 : Named.named (F := Ideal) κ "inv_50000" (φ := .f32) 0x37A7C5AC#32 = ((1 / 50000 : ℝ) : EReal) :=
  IdealRules.named_const.ideal_named_scalar _ _ _ _ rfl

/-- The mean row: the scratch times the named constant. -/
def mean3 (v27 : FVec Ideal S1x64 .f32) : FVec Ideal S1x64 .f32 :=
  mulf v27 (broadcast S1x64 (Named.named (F := Ideal) κ "inv_50000" (φ := .f32) 0x37A7C5AC#32))

/-- The hidden row: the mean row times `Wf1`, plus the bias row, clipped below at zero. -/
def hidden3 (v27 : FVec Ideal S1x64 .f32) (v30 : FVec Ideal S64x32 .f32) (v32 : FVec Ideal S1x32 .f32) : FVec Ideal S1x32 .f32 :=
  maximumf
    (addf (matmul dot_S1x64_S64x32_S1x32_1_0_0_1_n_n none (mean3 v27) v30 (constant (F := Ideal) S1x32 .f32 0x00000000#32))
      (shapeCast S1x32 v32 shapeCasts_S1x32_S1x32))
    (broadcast S1x32 (Scalar.ofBits (F := Ideal) .f32 0x00000000#32))

theorem hidden3_apply (v27 : FVec Ideal S1x64 .f32) (v30 : FVec Ideal S64x32 .f32) (v32 : FVec Ideal S1x32 .f32) (j : Fin 32) :
    hidden3 v27 v30 v32 (ix2 (0 : Fin 1) j)
      = max ((∑ q : Fin 64, (v27 (ix2 (0 : Fin 1) q) * ((1 / 50000 : ℝ) : EReal)) * v30 (ix2 q j)) + v32 (ix2 (0 : Fin 1) j)) 0 := by
  unfold hidden3
  show max (matmul dot_S1x64_S64x32_S1x32_1_0_0_1_n_n none (mean3 v27) v30 (constant (F := Ideal) S1x32 .f32 0x00000000#32) (ix2 (0 : Fin 1) j)
      + shapeCast S1x32 v32 shapeCasts_S1x32_S1x32 (ix2 (0 : Fin 1) j))
    (Ideal.ofBits .f32 0x00000000#32) = _
  rw [Ideal.ofBits_zero_f32, mm2_apply, shapeCast_self v32]
  refine congrArg (fun z => max (z + v32 (ix2 (0 : Fin 1) j)) 0) (Finset.sum_congr rfl fun q _ => ?_)
  show (v27 (ix2 (0 : Fin 1) q) * Named.named (F := Ideal) κ "inv_50000" (φ := .f32) 0x37A7C5AC#32) * v30 (ix2 q j) = _
  rw [inv_50000]

/-- The head as the logistic of the hidden row times `Wf2` plus the last bias. -/
theorem pay3_eq (v27 : FVec Ideal S1x64 .f32) (v30 : FVec Ideal S64x32 .f32) (v32 : FVec Ideal S1x32 .f32)
    (v37 : FVec Ideal S32x1 .f32) (v39 : FVec Ideal S1x1 .f32) :
    k3_pay3 (F := Ideal) v27 v30 v32 v37 v39
      = logistic (addf (matmul dot_S1x32_S32x1_S1x1_1_0_0_1_n_n none (hidden3 v27 v30 v32) v37 (constant (F := Ideal) S1x1 .f32 0x00000000#32))
          (shapeCast S1x1 v39 shapeCasts_S1x1_S1x1)) := by
  unfold k3_pay3
  rfl

/-- The one entry of the head's result. -/
theorem pay3_apply (v27 : FVec Ideal S1x64 .f32) (v30 : FVec Ideal S64x32 .f32) (v32 : FVec Ideal S1x32 .f32)
    (v37 : FVec Ideal S32x1 .f32) (v39 : FVec Ideal S1x1 .f32) (i : S1x1.Idx) :
    k3_pay3 (F := Ideal) v27 v30 v32 v37 v39 i
      = Ideal.logistic ((∑ j : Fin 32,
            max ((∑ q : Fin 64, (v27 (ix2 (0 : Fin 1) q) * ((1 / 50000 : ℝ) : EReal)) * v30 (ix2 q j)) + v32 (ix2 (0 : Fin 1) j)) 0
              * v37 (ix2 j (0 : Fin 1)))
          + v39 (ix2 (0 : Fin 1) (0 : Fin 1))) := by
  rw [idx11 i]
  refine (congrFun (pay3_eq v27 v30 v32 v37 v39) _).trans ?_
  show Ideal.logistic (matmul dot_S1x32_S32x1_S1x1_1_0_0_1_n_n none (hidden3 v27 v30 v32) v37 (constant (F := Ideal) S1x1 .f32 0x00000000#32) (ix2 (0 : Fin 1) (0 : Fin 1))
      + shapeCast S1x1 v39 shapeCasts_S1x1_S1x1 (ix2 (0 : Fin 1) (0 : Fin 1))) = _
  rw [mm3_apply, shapeCast_self v39]
  refine congrArg (fun z => Ideal.logistic (z + v39 (ix2 (0 : Fin 1) (0 : Fin 1)))) (Finset.sum_congr rfl fun j _ => ?_)
  rw [hidden3_apply]

end Cert.KernelIdeal.Pay3

end
-- ==== Proof.KIVal3.lean ====
/-
  What the last region leaves in its result array, at the ideal values.

  The scratch row after point t holds, at column q, the sum over the blocks s ≤ t of the block's column sum (by
  induction on the point: the zero row at point 0, one block's column sums added at every point; block s of the two
  row-blocked inputs is rows 5000 s … 5000 s + 4999 of their arrays, the other inputs are read whole at every point).
  After point 9 that is the sum over all ten blocks, which is the sum over the 50000 rows. The result window's one block
  is written back at point 9 only, with the head applied to that finished sum: the specification's function of the
  arrays the region reads.
-/
import proofs.«408152_j74947179315796_1_alg».proof.Proof.KIReg3
import proofs.«408152_j74947179315796_1_alg».proof.Proof.KISpec3
import proofs.«408152_j74947179315796_1_alg».proof.Proof.KIPay3
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen Cert.KernelIdeal.Pay3
open Idealize.ShloMosaic Idealize.ShloMosaic.TcCoe Idealize.ShloMosaic.Tactic
open Idealize.SL.Sem
open Idealize.ShloMosaic.Pipeline (Dat Cfg Window cellOf)
open Idealize.ShloMosaic.ValueIdx
open scoped BigOperators

variable (V : (c : Dev nD) → (b : Ref sig .tc) → Buf (Elt Ideal) ((c : Thread nD τ).loc b))

/-! ## The arrays the region reads and their blocks, at their literal types -/

abbrev aggA (c : Dev nD) : FVec Ideal S50000x64 .f32 := V c main_v35
abbrev ndA (c : Dev nD) : FVec Ideal S50000x1 .f32 := V c main_v18
abbrev aggB (c : Dev nD) (t : Fin cfg3.N) : FVec Ideal S5000x64 .f32 := iblk3 V c 0 t
abbrev ndB (c : Dev nD) (t : Fin cfg3.N) : FVec Ideal S5000x1 .f32 := iblk3 V c 1 t
abbrev W3A (c : Dev nD) : FVec Ideal S64x64 .f32 := V c main_arg5
abbrev W3B (c : Dev nD) (t : Fin cfg3.N) : FVec Ideal S64x64 .f32 := iblk3 V c 2 t
abbrev b3A (c : Dev nD) : FVec Ideal S1x64 .f32 := V c main_v36
abbrev b3B (c : Dev nD) (t : Fin cfg3.N) : FVec Ideal S1x64 .f32 := iblk3 V c 3 t
abbrev Wf1A (c : Dev nD) : FVec Ideal S64x32 .f32 := V c main_arg7
abbrev Wf1B (c : Dev nD) (t : Fin cfg3.N) : FVec Ideal S64x32 .f32 := iblk3 V c 4 t
abbrev bf1A (c : Dev nD) : FVec Ideal S1x32 .f32 := V c main_v37
abbrev bf1B (c : Dev nD) (t : Fin cfg3.N) : FVec Ideal S1x32 .f32 := iblk3 V c 5 t
abbrev Wf2A (c : Dev nD) : FVec Ideal S32x1 .f32 := V c main_arg9
abbrev Wf2B (c : Dev nD) (t : Fin cfg3.N) : FVec Ideal S32x1 .f32 := iblk3 V c 6 t
abbrev bf2A (c : Dev nD) : FVec Ideal S1x1 .f32 := V c main_v38
abbrev bf2B (c : Dev nD) (t : Fin cfg3.N) : FVec Ideal S1x1 .f32 := iblk3 V c 7 t

/-- The specification's function of the arrays as the region finds them. -/
abbrev G3A (c : Dev nD) : FVec Ideal S1x1 .f32 :=
  Spec.G3 (aggA V c) (ndA V c) (W3A V c) (b3A V c) (Wf1A V c) (bf1A V c) (Wf2A V c) (bf2A V c)

/-! ## The windows' index maps, decided over the grid -/

/-- The two row-blocked inputs are at block row `t` at point `t`; the six others at their one block. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

theorem N3_eq : cfg3.N = 10 := N_3

/-! ## The blocks read through the windows -/

/-- Row `r` of block `t` of `agg` is row `5000 t + r` of the array. -/
theorem aggB_apply (c : Dev nD) (t : Fin cfg3.N) (s : Fin 10) (hs : s.val = t.val) (r : Fin 5000) (k : Fin 64) :
    aggB V c t (ix2 r k) = aggA V c (ix2 (Spec.row3 s r) k) := by
  have hw : win3_0.index t (0 : Fin 2) = t.val ∧ win3_0.index t (1 : Fin 2) = 0 := by
    have := idx_facts3 t; tauto
  show ((cfg3.win 0).blk t).view.read (Elt Ideal) (V c (Pipeline.arrRef spec3 0)) (ix2 r k) = V c main_v35 (ix2 (Spec.row3 s r) k)
  rw [View.read_apply]
  show V c main_v35 _ = V c main_v35 (ix2 (Spec.row3 s r) k)
  refine congrArg (V c main_v35) (funext fun ax => Fin.ext ?_)
  match ax with
  | ⟨0, _⟩ => show win3_0.index t (0 : Fin 2) * 5000 + 1 * r.val = 5000 * s.val + r.val; omega
  | ⟨1, _⟩ => show win3_0.index t (1 : Fin 2) * 64 + 1 * k.val = k.val; omega

/-- Row `r` of block `t` of `nd` is row `5000 t + r` of the array. -/
theorem ndB_apply (c : Dev nD) (t : Fin cfg3.N) (s : Fin 10) (hs : s.val = t.val) (r : Fin 5000) :
    ndB V c t (ix2 r (0 : Fin 1)) = ndA V c (ix2 (Spec.row3 s r) (0 : Fin 1)) := by
  have hw : win3_1.index t (0 : Fin 2) = t.val ∧ win3_1.index t (1 : Fin 2) = 0 := by
    have := idx_facts3 t; tauto
  show ((cfg3.win 1).blk t).view.read (Elt Ideal) (V c (Pipeline.arrRef spec3 1)) (ix2 r (0 : Fin 1)) = V c main_v18 (ix2 (Spec.row3 s r) (0 : Fin 1))
  rw [View.read_apply]
  show V c main_v18 _ = V c main_v18 (ix2 (Spec.row3 s r) (0 : Fin 1))
  refine congrArg (V c main_v18) (funext fun ax => Fin.ext ?_)
  match ax with
  | ⟨0, _⟩ => show win3_1.index t (0 : Fin 2) * 5000 + 1 * r.val = 5000 * s.val + r.val; omega
  | ⟨1, _⟩ => show win3_1.index t (1 : Fin 2) * 1 + 1 * 0 = 0; omega

theorem W3B_eq (c : Dev nD) (t : Fin cfg3.N) : W3B V c t = W3A V c := by
  have hw : win3_2.index t (0 : Fin 2) = 0 ∧ win3_2.index t (1 : Fin 2) = 0 := by
    have := idx_facts3 t; tauto
  funext j
  show ((cfg3.win 2).blk t).view.read (Elt Ideal) (V c (Pipeline.arrRef spec3 2)) j = V c main_arg5 j
  rw [View.read_apply]
  show V c main_arg5 _ = V c main_arg5 j
  refine congrArg (V c main_arg5) (funext fun ax => Fin.ext ?_)
  match ax with
  | ⟨0, _⟩ => show win3_2.index t (0 : Fin 2) * 64 + 1 * (j 0).val = (j 0).val; omega
  | ⟨1, _⟩ => show win3_2.index t (1 : Fin 2) * 64 + 1 * (j 1).val = (j 1).val; omega

theorem b3B_eq (c : Dev nD) (t : Fin cfg3.N) : b3B V c t = b3A V c := by
  have hw : win3_3.index t (0 : Fin 2) = 0 ∧ win3_3.index t (1 : Fin 2) = 0 := by
    have := idx_facts3 t; tauto
  funext j
  show ((cfg3.win 3).blk t).view.read (Elt Ideal) (V c (Pipeline.arrRef spec3 3)) j = V c main_v36 j
  rw [View.read_apply]
  show V c main_v36 _ = V c main_v36 j
  refine congrArg (V c main_v36) (funext fun ax => Fin.ext ?_)
  match ax with
  | ⟨0, _⟩ => show win3_3.index t (0 : Fin 2) * 1 + 1 * (j 0).val = (j 0).val; omega
  | ⟨1, _⟩ => show win3_3.index t (1 : Fin 2) * 64 + 1 * (j 1).val = (j 1).val; omega

theorem Wf1B_eq (c : Dev nD) (t : Fin cfg3.N) : Wf1B V c t = Wf1A V c := by
  have hw : win3_4.index t (0 : Fin 2) = 0 ∧ win3_4.index t (1 : Fin 2) = 0 := by
    have := idx_facts3 t; tauto
  funext j
  show ((cfg3.win 4).blk t).view.read (Elt Ideal) (V c (Pipeline.arrRef spec3 4)) j = V c main_arg7 j
  rw [View.read_apply]
  show V c main_arg7 _ = V c main_arg7 j
  refine congrArg (V c main_arg7) (funext fun ax => Fin.ext ?_)
  match ax with
  | ⟨0, _⟩ => show win3_4.index t (0 : Fin 2) * 64 + 1 * (j 0).val = (j 0).val; omega
  | ⟨1, _⟩ => show win3_4.index t (1 : Fin 2) * 32 + 1 * (j 1).val = (j 1).val; omega

theorem bf1B_eq (c : Dev nD) (t : Fin cfg3.N) : bf1B V c t = bf1A V c := by
  have hw : win3_5.index t (0 : Fin 2) = 0 ∧ win3_5.index t (1 : Fin 2) = 0 := by
    have := idx_facts3 t; tauto
  funext j
  show ((cfg3.win 5).blk t).view.read (Elt Ideal) (V c (Pipeline.arrRef spec3 5)) j = V c main_v37 j
  rw [View.read_apply]
  show V c main_v37 _ = V c main_v37 j
  refine congrArg (V c main_v37) (funext fun ax => Fin.ext ?_)
  match ax with
  | ⟨0, _⟩ => show win3_5.index t (0 : Fin 2) * 1 + 1 * (j 0).val = (j 0).val; omega
  | ⟨1, _⟩ => show win3_5.index t (1 : Fin 2) * 32 + 1 * (j 1).val = (j 1).val; omega

theorem Wf2B_eq (c : Dev nD) (t : Fin cfg3.N) : Wf2B V c t = Wf2A V c := by
  have hw : win3_6.index t (0 : Fin 2) = 0 ∧ win3_6.index t (1 : Fin 2) = 0 := by
    have := idx_facts3 t; tauto
  funext j
  show ((cfg3.win 6).blk t).view.read (Elt Ideal) (V c (Pipeline.arrRef spec3 6)) j = V c main_arg9 j
  rw [View.read_apply]
  show V c main_arg9 _ = V c main_arg9 j
  refine congrArg (V c main_arg9) (funext fun ax => Fin.ext ?_)
  match ax with
  | ⟨0, _⟩ => show win3_6.index t (0 : Fin 2) * 32 + 1 * (j 0).val = (j 0).val; omega
  | ⟨1, _⟩ => show win3_6.index t (1 : Fin 2) * 1 + 1 * (j 1).val = (j 1).val; omega

theorem bf2B_eq (c : Dev nD) (t : Fin cfg3.N) : bf2B V c t = bf2A V c := by
  have hw : win3_7.index t (0 : Fin 2) = 0 ∧ win3_7.index t (1 : Fin 2) = 0 := by
    have := idx_facts3 t; tauto
  funext j
  show ((cfg3.win 7).blk t).view.read (Elt Ideal) (V c (Pipeline.arrRef spec3 7)) j = V c main_v38 j
  rw [View.read_apply]
  show V c main_v38 _ = V c main_v38 j
  refine congrArg (V c main_v38) (funext fun ax => Fin.ext ?_)
  match ax with
  | ⟨0, _⟩ => show win3_7.index t (0 : Fin 2) * 1 + 1 * (j 0).val = (j 0).val; omega
  | ⟨1, _⟩ => show win3_7.index t (1 : Fin 2) * 1 + 1 * (j 1).val = (j 1).val; omega

/-! ## The accumulation -/

/-- Block `s`'s column sum at column `q` (zero past the tenth block, which no point reads). -/
def bsN (c : Dev nD) (s : ℕ) (q : Fin 64) : EReal :=
  if hs : s < 10 then Spec.blockSum3 (aggA V c) (ndA V c) (W3A V c) (b3A V c) ⟨s, hs⟩ q else 0

/-- One point's step: over a scratch row `acc`, the new scratch at column `q` is `acc`'s entry plus the point's block's
    column sum. -/
theorem blockStep (c : Dev nD) (t : Fin cfg3.N) (acc : FVec Ideal S1x64 .f32) (q : Fin 64) :
    k3_pay2 (F := Ideal) (aggB V c t) (ndB V c t) (W3B V c t) (b3B V c t) acc (ix2 (0 : Fin 1) q)
      = acc (ix2 (0 : Fin 1) q) + bsN V c t.val q := by
  have ht : t.val < 10 := by have := t.isLt; have := N3_eq; omega
  refine (pay2_apply (aggB V c t) (ndB V c t) (W3B V c t) (b3B V c t) acc q).trans ?_
  refine congrArg (acc (ix2 (0 : Fin 1) q) + ·) ?_
  unfold bsN
  rw [dif_pos ht, W3B_eq, b3B_eq]
  unfold Spec.blockSum3 Spec.Y3
  refine Finset.sum_congr rfl fun r _ => ?_
  refine congrArg (fun z => max (z + b3A V c (ix2 (0 : Fin 1) q)) 0) (Finset.sum_congr rfl fun k _ => ?_)
  rw [aggB_apply V c t ⟨t.val, ht⟩ rfl r k, ndB_apply V c t ⟨t.val, ht⟩ rfl r]

/-- THE INVARIANT: after point `n` the scratch row holds, at column `q`, the sum of the column sums of blocks `0 … n`. -/
theorem acc_eq (c : Dev nD) : ∀ (n : ℕ) (h : n < cfg3.N) (q : Fin 64),
    (outsAt3 V c n h).2 (ix2 (0 : Fin 1) q) = ∑ s ∈ Finset.range (n + 1), bsN V c s q
  | 0, h, q => by
    rw [acc3_zero]
    refine (blockStep V c ⟨0, h⟩ (k3_pay1 (F := Ideal)) q).trans ?_
    rw [pay1_apply, zero_add, Finset.sum_range_one]
  | n + 1, h, q => by
    rw [acc3_succ]
    refine (blockStep V c ⟨n + 1, h⟩ (outsAt3 V c n (Nat.lt_of_succ_lt h)).2 q).trans ?_
    rw [acc_eq c n (Nat.lt_of_succ_lt h) q, Finset.sum_range_succ _ (n + 1)]

/-- After the last point the scratch row is the pooled sum over all 50000 rows. -/
theorem acc9_eq (c : Dev nD) (h : 9 < cfg3.N) (q : Fin 64) :
    (outsAt3 V c 9 h).2 (ix2 (0 : Fin 1) q) = Spec.pool3 (aggA V c) (ndA V c) (W3A V c) (b3A V c) q := by
  rw [acc_eq V c 9 h q, Spec.pool3_eq_blocks, Finset.sum_range]
  show ∑ s : Fin 10, bsN V c s.val q = _
  refine Finset.sum_congr rfl fun s _ => ?_
  unfold bsN
  rw [dif_pos s.isLt]

/-! ## The output -/

/-- What point 9 stores in the result window's buffer: the specification's function of the arrays. -/
theorem out9_eq (c : Dev nD) (h : 9 < cfg3.N) : (outsAt3 V c 9 h).1 = G3A V c := by
  rw [out3_last]
  funext i
  refine (pay3_apply (outsAt3 V c 9 h).2 (Wf1B V c ⟨9, h⟩) (bf1B V c ⟨9, h⟩) (Wf2B V c ⟨9, h⟩) (bf2B V c ⟨9, h⟩) i).trans ?_
  rw [Wf1B_eq, bf1B_eq, Wf2B_eq, bf2B_eq]
  show _ = Ideal.logistic ((∑ j : Fin 32, Spec.hid3 (aggA V c) (ndA V c) (W3A V c) (b3A V c) (Wf1A V c) (bf1A V c) j
    * Wf2A V c (ix2 j (0 : Fin 1))) + bf2A V c (ix2 (0 : Fin 1) (0 : Fin 1)))
  unfold Spec.hid3
  simp only [acc9_eq V c h]

/-! ## The result array -/

/-- The one write-back, at point 9, writes the specification's value: block (0, 0) of the `1 × 1` array is the array. -/
theorem flushed_eq3 (c : Dev nD) (t : Fin cfg3.N) (hf : (cfg3.win 8).flush t = true) :
    (dat3 V c).flushed 8 t = ((cfg3.win 8).blk t).view.read (Elt Ideal) (G3A V c) := by
  have hN : cfg3.N = 10 := N_3
  have h9 : t.val = 9 := by have := (flush3_8 t).mp hf; have := t.isLt; omega
  obtain rfl : t = t3_9 := Fin.ext h9
  have e : (dat3 V c).after 8 t3_9 = G3A V c := (after3_8 V c t3_9).trans (out9_eq V c t3_9.isLt)
  show (cfg3.win 8).cut (grid3.coords t3_9) ((dat3 V c).after 8 t3_9) = _
  rw [e]
  have hz' : (fun a => win3_8.index t3_9 a * main_v39.ty.shape.size a) = fun _ => 0 := funext fun a => by fin_cases a <;> decide
  exact (Memref.read_access_unit_zero (Elt Ideal) main_v39 hz' (fun a => by rw [congrFun hz' a]; simp) (G3A V c)).symm

/-- So the result array ends holding the specification's function of the arrays the region reads. -/
theorem final3 (c : Dev nD) : (dat3 V c).arrAt 8 cfg3.N
    = Spec.G3 (V c main_v35) (V c main_v18) (V c main_arg5) (V c main_v36) (V c main_arg7) (V c main_v37) (V c main_arg9) (V c main_v38) :=
  (dat3 V c).arrAt_eq_of_cover 8 (G3A V c) (flushed_eq3 V c) fun i =>
    ⟨t3_9, (flush3_8 t3_9).mpr rfl, by
      show i ∈ ((View.whole main_v39).slice (win3_8.rect t3_9)).set
      rw [View.set_slice_whole, Rect.mem_set_unit]
      intro a
      have h0 : (i 0 : Nat) < 1 := (i 0).isLt
      have h1 : (i 1 : Nat) < 1 := (i 1).isLt
      match a with
      | ⟨0, _⟩ => show win3_8.index t3_9 0 * win3_8.size 0 ≤ (i 0 : Nat) ∧ (i 0 : Nat) < win3_8.index t3_9 0 * win3_8.size 0 + win3_8.xsize (grid3.coords t3_9) 0
                  rw [show win3_8.index t3_9 0 * win3_8.size 0 = 0 from by decide +kernel, show win3_8.xsize (grid3.coords t3_9) 0 = 1 from by decide +kernel]; omega
      | ⟨1, _⟩ => show win3_8.index t3_9 1 * win3_8.size 1 ≤ (i 1 : Nat) ∧ (i 1 : Nat) < win3_8.index t3_9 1 * win3_8.size 1 + win3_8.xsize (grid3.coords t3_9) 1
                  rw [show win3_8.index t3_9 1 * win3_8.size 1 = 0 from by decide +kernel, show win3_8.xsize (grid3.coords t3_9) 1 = 1 from by decide +kernel]; omega⟩

end Cert.KernelIdeal.Hand

end
-- ==== Proof.KIBridge.lean ====
import proofs.«408152_j74947179315796_1_alg».proof.Proof.KIBase
import proofs.«408152_j74947179315796_1_alg».proof.Proof.KIStretch
import proofs.«408152_j74947179315796_1_alg».proof.Proof.KIMask
import proofs.«408152_j74947179315796_1_alg».proof.Proof.KIRefEq
import proofs.«408152_j74947179315796_1_alg».proof.Proof.KIRefEq3
import proofs.«408152_j74947179315796_1_alg».proof.Proof.KIVal0
import proofs.«408152_j74947179315796_1_alg».proof.Proof.KIVal1
import proofs.«408152_j74947179315796_1_alg».proof.Proof.KIVal2
import proofs.«408152_j74947179315796_1_alg».proof.Proof.KIVal3

set_option maxRecDepth 16384

/-! The kernel program's result is the reference's. Stage by stage along @main: each kernel region's output array
    is one whole-array function of the arrays it reads, that function is the reference's chain of host operations
    for the same layer, and the host operations between the regions are the reference's own (the gather with its
    out-of-range fill is the plain gather because every source index lies in [0, 50000)). -/

noncomputable section

namespace Cert.KernelIdeal.Hand

open Cert.KernelIdeal Cert.KernelIdeal.Gen
open Idealize.ShloMosaic Idealize.ShloMosaic.TcCoe Idealize.SL.Sem
open Cert.ReferenceIdeal.Read

/-- Argument 0's launch contents on core `c`. -/
abbrev X0 (m : (ℓ : Loc nD τ sig) → Buf (Elt Ideal) ℓ) (c : Dev nD) := m ((c : Thread nD τ).loc main_arg0)
/-- Argument 1's launch contents on core `c`. -/
abbrev X1 (m : (ℓ : Loc nD τ sig) → Buf (Elt Ideal) ℓ) (c : Dev nD) := m ((c : Thread nD τ).loc main_arg1)
/-- Argument 2's launch contents on core `c`. -/
abbrev X2 (m : (ℓ : Loc nD τ sig) → Buf (Elt Ideal) ℓ) (c : Dev nD) := m ((c : Thread nD τ).loc main_arg2)
/-- Argument 3's launch contents on core `c`. -/
abbrev X3 (m : (ℓ : Loc nD τ sig) → Buf (Elt Ideal) ℓ) (c : Dev nD) := m ((c : Thread nD τ).loc main_arg3)
/-- Argument 4's launch contents on core `c`. -/
abbrev X4 (m : (ℓ : Loc nD τ sig) → Buf (Elt Ideal) ℓ) (c : Dev nD) := m ((c : Thread nD τ).loc main_arg4)
/-- Argument 5's launch contents on core `c`. -/
abbrev X5 (m : (ℓ : Loc nD τ sig) → Buf (Elt Ideal) ℓ) (c : Dev nD) := m ((c : Thread nD τ).loc main_arg5)
/-- Argument 6's launch contents on core `c`. -/
abbrev X6 (m : (ℓ : Loc nD τ sig) → Buf (Elt Ideal) ℓ) (c : Dev nD) := m ((c : Thread nD τ).loc main_arg6)
/-- Argument 7's launch contents on core `c`. -/
abbrev X7 (m : (ℓ : Loc nD τ sig) → Buf (Elt Ideal) ℓ) (c : Dev nD) := m ((c : Thread nD τ).loc main_arg7)
/-- Argument 8's launch contents on core `c`. -/
abbrev X8 (m : (ℓ : Loc nD τ sig) → Buf (Elt Ideal) ℓ) (c : Dev nD) := m ((c : Thread nD τ).loc main_arg8)
/-- Argument 9's launch contents on core `c`. -/
abbrev X9 (m : (ℓ : Loc nD τ sig) → Buf (Elt Ideal) ℓ) (c : Dev nD) := m ((c : Thread nD τ).loc main_arg9)
/-- Argument 10's launch contents on core `c`. -/
abbrev X10 (m : (ℓ : Loc nD τ sig) → Buf (Elt Ideal) ℓ) (c : Dev nD) := m ((c : Thread nD τ).loc main_arg10)
/-- Argument 11's launch contents on core `c`. -/
abbrev X11 (m : (ℓ : Loc nD τ sig) → Buf (Elt Ideal) ℓ) (c : Dev nD) := m ((c : Thread nD τ).loc main_arg11)

variable [hP : Cert.Pre_finite_inputs.Facts]
variable (m : (ℓ : Loc nD τ sig) → Buf (Elt Ideal) ℓ) (ρ : Dev nD → PrngReg) (c : Dev nD)

/-! ## What the first region finds -/

theorem b5_v1 : W5 m ρ c (Proc.devRef .tc main_v1) = val_main_v1 (F := Ideal) (X11 m c) := Stretch.entry_v1 (W0 m ρ c)
theorem b5_v3 : W5 m ρ c (Proc.devRef .tc main_v3) = val_main_v3 (F := Ideal) (X11 m c) := Stretch.entry_v3 (W0 m ρ c)
theorem b5_v14 : W5 m ρ c (Proc.devRef .tc main_v14)
    = shapeCast S50000x1 (val_main_v13 (F := Ideal) (X11 m c)) shapeCasts_S50000_S50000x1 := Stretch.entry_v14 (W0 m ρ c)
theorem b5_v18 : W5 m ρ c (Proc.devRef .tc main_v18)
    = shapeCast S50000x1 (val_main_v16 (F := Ideal) (X11 m c)) shapeCasts_S50000_S50000x1 := Stretch.entry_v18 (W0 m ρ c)
theorem b5_arg0 : W5 m ρ c (Proc.devRef .tc main_arg0) = (X0 m c) := W5_arg m ρ c main_arg0 (by decide) (by decide) (by decide) (by decide) (by decide)
theorem b5_arg1 : W5 m ρ c (Proc.devRef .tc main_arg1) = (X1 m c) := W5_arg m ρ c main_arg1 (by decide) (by decide) (by decide) (by decide) (by decide)
theorem b5_arg2 : W5 m ρ c (Proc.devRef .tc main_arg2) = (X2 m c) := W5_arg m ρ c main_arg2 (by decide) (by decide) (by decide) (by decide) (by decide)
theorem b5_arg3 : W5 m ρ c (Proc.devRef .tc main_arg3) = (X3 m c) := W5_arg m ρ c main_arg3 (by decide) (by decide) (by decide) (by decide) (by decide)
theorem b5_arg4 : W5 m ρ c (Proc.devRef .tc main_arg4) = (X4 m c) := W5_arg m ρ c main_arg4 (by decide) (by decide) (by decide) (by decide) (by decide)
theorem b5_arg5 : W5 m ρ c (Proc.devRef .tc main_arg5) = (X5 m c) := W5_arg m ρ c main_arg5 (by decide) (by decide) (by decide) (by decide) (by decide)
theorem b5_arg6 : W5 m ρ c (Proc.devRef .tc main_arg6) = (X6 m c) := W5_arg m ρ c main_arg6 (by decide) (by decide) (by decide) (by decide) (by decide)
theorem b5_arg7 : W5 m ρ c (Proc.devRef .tc main_arg7) = (X7 m c) := W5_arg m ρ c main_arg7 (by decide) (by decide) (by decide) (by decide) (by decide)
theorem b5_arg8 : W5 m ρ c (Proc.devRef .tc main_arg8) = (X8 m c) := W5_arg m ρ c main_arg8 (by decide) (by decide) (by decide) (by decide) (by decide)
theorem b5_arg9 : W5 m ρ c (Proc.devRef .tc main_arg9) = (X9 m c) := W5_arg m ρ c main_arg9 (by decide) (by decide) (by decide) (by decide) (by decide)
theorem b5_arg10 : W5 m ρ c (Proc.devRef .tc main_arg10) = (X10 m c) := W5_arg m ρ c main_arg10 (by decide) (by decide) (by decide) (by decide) (by decide)

/-- Every source index lies in [0, 50000): the precondition's last conjunct, read at the edge list's row 0. -/
theorem src_ok (hpre : Cert.Pre_finite_inputs.fn (F := Ideal) (X0 m c) (X1 m c) (X2 m c) (X3 m c) (X4 m c) (X5 m c) (X6 m c) (X7 m c) (X8 m c) (X9 m c) (X10 m c) (X11 m c) = fun _ => 1#1) :
    ∀ e, 0 ≤ (val_main_v1 (F := Ideal) (X11 m c) e).toInt ∧ (val_main_v1 (F := Ideal) (X11 m c) e).toInt < 50000 :=
  Mask.src_range (F := Ideal) (X0 m c) (X1 m c) (X2 m c) (X3 m c) (X4 m c) (X5 m c) (X6 m c) (X7 m c) (X8 m c) (X9 m c) (X10 m c) (X11 m c) hpre

/-! ## Layer 0: the features scaled by the source normaliser -/

theorem st_v19 : W6 m ρ c (Proc.devRef .tc main_v19) = val_main_v19 (F := Ideal) (X0 m c) (X11 m c) := by
  refine (W6_arr m ρ c 2).trans ?_
  rw [final0 (V5 m ρ) c]
  rw [show V5 m ρ c main_arg0 = (X0 m c) from b5_arg0 m ρ c, show V5 m ρ c main_v14 = _ from b5_v14 m ρ c]
  rw [Spec.G0_eq, ← Spec.refLayer0_eq]

/-! ## Layer 1 -/

theorem st_v23 (hpre : Cert.Pre_finite_inputs.fn (F := Ideal) (X0 m c) (X1 m c) (X2 m c) (X3 m c) (X4 m c) (X5 m c) (X6 m c) (X7 m c) (X8 m c) (X9 m c) (X10 m c) (X11 m c) = fun _ => 1#1) :
    W8 m ρ c (Proc.devRef .tc main_v23) = val_main_v29 (F := Ideal) (X0 m c) (X11 m c) := by
  refine (Stretch.mid1_v23 (W6 m ρ c)).trans ?_
  rw [st_v19 m ρ c, (agree6 m ρ c main_v3 (by decide)).trans (b5_v3 m ρ c),
    (agree6 m ρ c main_v1 (by decide)).trans (b5_v1 m ρ c),
    Mask.take_eq_gather_128 _ (src_ok m c hpre)]
  rfl

theorem st_v25 (hpre : Cert.Pre_finite_inputs.fn (F := Ideal) (X0 m c) (X1 m c) (X2 m c) (X3 m c) (X4 m c) (X5 m c) (X6 m c) (X7 m c) (X8 m c) (X9 m c) (X10 m c) (X11 m c) = fun _ => 1#1) :
    W9 m ρ c (Proc.devRef .tc main_v25) = val_main_v40 (F := Ideal) (X0 m c) (X1 m c) (X2 m c) (X11 m c) := by
  refine (W9_arr m ρ c 5).trans ?_
  rw [final1 (V8 m ρ) c]
  rw [show V8 m ρ c main_v23 = _ from st_v23 m ρ c hpre,
    show V8 m ρ c main_v18 = _ from (agree8 m ρ c main_v18 (by decide)).trans (b5_v18 m ρ c),
    show V8 m ρ c main_v14 = _ from (agree8 m ρ c main_v14 (by decide)).trans (b5_v14 m ρ c),
    show V8 m ρ c main_arg1 = _ from (agree8 m ρ c main_arg1 (by decide)).trans (b5_arg1 m ρ c),
    show V8 m ρ c main_v24 = shapeCast S1x64 (X2 m c) shapeCasts_S64_S1x64 from
      (Stretch.mid1_v24 (W6 m ρ c)).trans (congrArg (fun z => shapeCast S1x64 z shapeCasts_S64_S1x64)
        ((agree6 m ρ c main_arg2 (by decide)).trans (b5_arg2 m ρ c)))]
  rw [Spec.G1_eq, ← Spec.refLayer1_eq]

/-! ## Layer 2 -/

theorem st_v29 (hpre : Cert.Pre_finite_inputs.fn (F := Ideal) (X0 m c) (X1 m c) (X2 m c) (X3 m c) (X4 m c) (X5 m c) (X6 m c) (X7 m c) (X8 m c) (X9 m c) (X10 m c) (X11 m c) = fun _ => 1#1) :
    W11 m ρ c (Proc.devRef .tc main_v29) = val_main_v50 (F := Ideal) (X0 m c) (X1 m c) (X2 m c) (X11 m c) := by
  refine (Stretch.mid2_v29 (W9 m ρ c)).trans ?_
  rw [st_v25 m ρ c hpre, (agree9 m ρ c main_v3 (by decide)).trans (b5_v3 m ρ c),
    (agree9 m ρ c main_v1 (by decide)).trans (b5_v1 m ρ c),
    Mask.take_eq_gather_64 _ (src_ok m c hpre)]
  rfl

theorem st_v31 (hpre : Cert.Pre_finite_inputs.fn (F := Ideal) (X0 m c) (X1 m c) (X2 m c) (X3 m c) (X4 m c) (X5 m c) (X6 m c) (X7 m c) (X8 m c) (X9 m c) (X10 m c) (X11 m c) = fun _ => 1#1) :
    W12 m ρ c (Proc.devRef .tc main_v31) = val_main_v61 (F := Ideal) (X0 m c) (X1 m c) (X2 m c) (X3 m c) (X4 m c) (X11 m c) := by
  refine (W12_arr m ρ c 5).trans ?_
  rw [final2 (V11 m ρ) c]
  rw [show V11 m ρ c main_v29 = _ from st_v29 m ρ c hpre,
    show V11 m ρ c main_v18 = _ from (agree11 m ρ c main_v18 (by decide)).trans (b5_v18 m ρ c),
    show V11 m ρ c main_v14 = _ from (agree11 m ρ c main_v14 (by decide)).trans (b5_v14 m ρ c),
    show V11 m ρ c main_arg3 = _ from (agree11 m ρ c main_arg3 (by decide)).trans (b5_arg3 m ρ c),
    show V11 m ρ c main_v30 = shapeCast S1x64 (X4 m c) shapeCasts_S64_S1x64 from
      (Stretch.mid2_v30 (W9 m ρ c)).trans (congrArg (fun z => shapeCast S1x64 z shapeCasts_S64_S1x64)
        ((agree9 m ρ c main_arg4 (by decide)).trans (b5_arg4 m ρ c)))]
  rw [Spec.G2_eq, ← Spec.refLayer2_eq]

/-! ## Layer 3, the mean over the nodes and the head -/

theorem st_v35 (hpre : Cert.Pre_finite_inputs.fn (F := Ideal) (X0 m c) (X1 m c) (X2 m c) (X3 m c) (X4 m c) (X5 m c) (X6 m c) (X7 m c) (X8 m c) (X9 m c) (X10 m c) (X11 m c) = fun _ => 1#1) :
    W14 m ρ c (Proc.devRef .tc main_v35) = val_main_v71 (F := Ideal) (X0 m c) (X1 m c) (X2 m c) (X3 m c) (X4 m c) (X11 m c) := by
  refine (Stretch.mid3_v35 (W12 m ρ c)).trans ?_
  rw [st_v31 m ρ c hpre, (agree12 m ρ c main_v3 (by decide)).trans (b5_v3 m ρ c),
    (agree12 m ρ c main_v1 (by decide)).trans (b5_v1 m ρ c),
    Mask.take_eq_gather_64 _ (src_ok m c hpre)]
  rfl

/-- The kernel program's result is the reference's result term of the same arguments. -/
theorem result_eq (hpre : Cert.Pre_finite_inputs.fn (F := Ideal) (X0 m c) (X1 m c) (X2 m c) (X3 m c) (X4 m c) (X5 m c) (X6 m c) (X7 m c) (X8 m c) (X9 m c) (X10 m c) (X11 m c) = fun _ => 1#1) :
    W16 m ρ c (Proc.devRef .tc main_v40) = val_main_v97 (F := Ideal) (X0 m c) (X1 m c) (X2 m c) (X3 m c) (X4 m c) (X5 m c) (X6 m c) (X7 m c) (X8 m c) (X9 m c) (X10 m c) (X11 m c) := by
  refine (Stretch.tail_v40 (W15 m ρ c)).trans ?_
  rw [show W15 m ρ c (Proc.devRef .tc main_v39) = _ from W15_arr m ρ c 8]
  rw [final3 (V14 m ρ) c]
  rw [show V14 m ρ c main_v35 = _ from st_v35 m ρ c hpre,
    show V14 m ρ c main_v18 = _ from (agree14 m ρ c main_v18 (by decide)).trans (b5_v18 m ρ c),
    show V14 m ρ c main_arg5 = _ from (agree14 m ρ c main_arg5 (by decide)).trans (b5_arg5 m ρ c),
    show V14 m ρ c main_arg7 = _ from (agree14 m ρ c main_arg7 (by decide)).trans (b5_arg7 m ρ c),
    show V14 m ρ c main_arg9 = _ from (agree14 m ρ c main_arg9 (by decide)).trans (b5_arg9 m ρ c),
    show V14 m ρ c main_v36 = shapeCast S1x64 (X6 m c) shapeCasts_S64_S1x64 from
      (Stretch.mid3_v36 (W12 m ρ c)).trans (congrArg (fun z => shapeCast S1x64 z shapeCasts_S64_S1x64)
        ((agree12 m ρ c main_arg6 (by decide)).trans (b5_arg6 m ρ c))),
    show V14 m ρ c main_v37 = shapeCast S1x32 (X8 m c) shapeCasts_S32_S1x32 from
      (Stretch.mid3_v37 (W12 m ρ c)).trans (congrArg (fun z => shapeCast S1x32 z shapeCasts_S32_S1x32)
        ((agree12 m ρ c main_arg8 (by decide)).trans (b5_arg8 m ρ c))),
    show V14 m ρ c main_v38 = shapeCast S1x1 (X10 m c) shapeCasts_S1_S1x1 from
      (Stretch.mid3_v38 (W12 m ρ c)).trans (congrArg (fun z => shapeCast S1x1 z shapeCasts_S1_S1x1)
        ((agree12 m ρ c main_arg10 (by decide)).trans (b5_arg10 m ρ c)))]
  rw [Cert.RefEq3.refTail3_eq]
  exact Cert.RefEq3.G3_eq _ _ _ _ _ _ _ _ shapeCasts_S50000_S50000x1 shapeCasts_S64_S1x64 shapeCasts_S32_S1x32 shapeCasts_S1_S1x1 shapeCasts_S1x1_S1

end Cert.KernelIdeal.Hand

end
-- ==== Proof.lean ====
/- The certificate of a three-layer graph convolution with a mean pool and a two-layer head: the kernel program
   (four kernel regions among host gathers and scatter-adds) against its jnp reference, over the extended reals.
   Frames: each program runs to the end, faults nowhere and leaves its arguments as launched — the kernel programs by
   the several-regions launch over their 16 items, the reference by its run. The idealization named one constant,
   1/50000. The two idealized programs end with one result: layer by layer the kernel's regions compute the
   reference's host operations (a matrix product as a sum over the contracted axis on both sides, the mean as the
   column sums over ten blocks of 5000 rows times the named 1/50000), and the kernel's gather with its fill for
   out-of-range reads is the plain gather because the precondition keeps every source index in [0, 50000). -/
import proofs.«408152_j74947179315796_1_alg».proof.Defs
import proofs.«408152_j74947179315796_1_alg».proof.Proof.Gen.Kernel
import proofs.«408152_j74947179315796_1_alg».proof.Proof.Gen.KernelIdeal
import proofs.«408152_j74947179315796_1_alg».proof.Proof.Gen.ReferenceIdeal
import proofs.«408152_j74947179315796_1_alg».proof.Proof.Gen.Pre_finite_inputs
import proofs.«408152_j74947179315796_1_alg».proof.Proof.Gen.ReferenceIdeal.Run
import proofs.«408152_j74947179315796_1_alg».proof.Proof.Gen.ReferenceIdeal.Read
import proofs.«408152_j74947179315796_1_alg».proof.Proof.KRun
import proofs.«408152_j74947179315796_1_alg».proof.Proof.KIRun
import proofs.«408152_j74947179315796_1_alg».proof.Proof.KIBridge
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame (F := Bits) m ρ

theorem frame_ki : @Cert.frame_KernelIdeal Cert.KernelIdeal.Gen.facts Cert.Pre_finite_inputs.Gen.facts :=
  fun m ρ _ => (θ_run Cert.KernelIdeal.defs _ _).mono (fun _ h c => (h c).2) (Cert.KernelIdeal.Hand.run_value (F := Ideal) m ρ)

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The one rewrite of the idealization: the kernel's literal for the reciprocal of the node count is named, and the
    name's value is 1/50000. -/
theorem preserves : Cert.preserves_Kernel_KernelIdeal :=
  IdealRules.named_const.statement Cert.KernelIdeal.κ "inv_50000" .f32 0x37A7C5AC#32 ((1 / 50000 : ℝ) : EReal) rfl

/-- From memories agreeing on the arguments the two idealized programs end with one result: the kernel program's
    result buffer holds the reference's result term of the same arguments. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Hand.W16 m ρ c (Proc.devRef .tc Cert.KernelIdeal.main_v40),
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v97_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2.1,
    (hagree c).2.2.2.2.2.2.2.2.2.2.2]
  exact (Cert.KernelIdeal.Hand.result_eq (hP := Cert.Pre_finite_inputs.Gen.facts) m ρ c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
